-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_v28 : IVec S_ 1) (main_v33 : IVec S4x512x512 1) : IVec S_ 1 :=
  let main_c_12 : IVec S_ 1 := constantI S_ 1 1#1
  let main_v34 : IVec S_ 1 := (fun x v => Host.reduce IntOp.andi x v reducesTo_S4x512x512_S_d0_1_2 h_S_) main_v33 main_c_12
  let main_v35 : IVec S_ 1 := andi main_v28 main_v34
  main_v35

def fn_part1 {F : FTy → Type} [FloatOps F] (main_arg1 : FVec F S4x512x512 .f32) (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_cst_10 : FVec F S_ .f32 := constant S_ .f32 0x00000000#32
  let main_v29 : FVec F S4x512x512 .f32 := broadcastInDim S4x512x512 ![] bcast_S_S4x512x512 main_cst_10
  let main_v30 : IVec S4x512x512 1 := cmpf .oeq main_arg1 main_v29
  let main_cst_11 : FVec F S_ .f32 := constant S_ .f32 0x3F800000#32
  let main_v31 : FVec F S4x512x512 .f32 := broadcastInDim S4x512x512 ![] bcast_S_S4x512x512 main_cst_11
  let main_v32 : IVec S4x512x512 1 := cmpf .oeq main_arg1 main_v31
  let main_v33 : IVec S4x512x512 1 := ori main_v30 main_v32
  fn_part2 (F := F) main_v28 main_v33

def fn {F : FTy → Type} [FloatOps F] (main_arg0 : FVec F S4x512x128 .f32) (main_arg1 : FVec F S4x512x512 .f32) (main_arg2 : FVec F S128x128 .f32) (main_arg3 : FVec F S128 .f32) (main_arg4 : FVec F S128x128 .f32) (main_arg5 : FVec F S128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_v13 main_v16
-- ==== Kernel.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S1x128 : Shape := ⟨2, ![1, 128]⟩
abbrev S4x1x128 : Shape := ⟨3, ![4, 1, 128]⟩
abbrev S4x128 : Shape := ⟨2, ![4, 128]⟩
abbrev S2x512x512 : Shape := ⟨3, ![2, 512, 512]⟩
abbrev S2x512x128 : Shape := ⟨3, ![2, 512, 128]⟩
abbrev S2x1x128 : Shape := ⟨3, ![2, 1, 128]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S1x512x128 : Shape := ⟨3, ![1, 512, 128]⟩
abbrev S512x128 : Shape := ⟨2, ![512, 128]⟩
abbrev S1x1x128 : Shape := ⟨3, ![1, 1, 128]⟩

abbrev nBuf : Space → Nat
  | .hbm => 10
  | .vmem => 10
  | .smem => 0
  | _ => 0

abbrev bufTy : (tb : Table) → Fin (tcTables nBuf tb) → BufTy
  | .hbm, ⟨0, _⟩ => ⟨S4x512x128, .f32⟩
  | .hbm, ⟨1, _⟩ => ⟨S4x512x512, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S4x1x128, .f32⟩
  | .hbm, ⟨9, _⟩ => ⟨S4x128, .f32⟩
  | .local _ .vmem, ⟨0, _⟩ => ⟨S2x512x512, .f32⟩
  | .local _ .vmem, ⟨1, _⟩ => ⟨S2x512x512, .f32⟩
  | .local _ .vmem, ⟨2, _⟩ => ⟨S2x512x128, .f32⟩
  | .local _ .vmem, ⟨3, _⟩ => ⟨S2x512x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2x1x128, .f32⟩
  | .local _ .vmem, ⟨9, _⟩ => ⟨S2x1x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  shapeCasts_S4x1x128_S4x128 : S4x1x128.ShapeCasts S4x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  reduces_S512x512_S512 : S512x512.Reduces [0] S512
  shapeCasts_S512_S1x512 : S512.ShapeCasts S1x512
  transposes_S1x512_p1_0_S512x1 : S1x512.Transposes [1, 0] S512x1
  inb_S2x512x128_S1x512x128_0_0_0 : ∀ a, (![0, 0, 0] : Fin 3 → Nat) a + S1x512x128.size a ≤ S2x512x128.size a
  h_S1x512x128 : 0 < S1x512x128.numel
  shapeCasts_S1x512x128_S512x128 : S1x512x128.ShapeCasts S512x128
  broadcasts_S512x1_S512x128 : S512x1.Broadcasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S128 : S512x128.Reduces [0] S128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  shapeCasts_S1x128_S1x1x128 : S1x128.ShapeCasts S1x1x128
  inb_S2x512x512_S1x512x512_1_0_0 : ∀ a, (![1, 0, 0] : Fin 3 → Nat) a + S1x512x512.size a ≤ S2x512x512.size a
  inb_S2x512x128_S1x512x128_1_0_0 : ∀ a, (![1, 0, 0] : Fin 3 → Nat) a + S1x512x128.size a ≤ S2x512x128.size a
  inb_S2x1x128_S1x1x128_1_0_0 : ∀ a, (![1, 0, 0] : Fin 3 → Nat) a + S1x1x128.size a ≤ S2x1x128.size a
  dot_S512x128_S128x128_S512x128_1_0_0_1_n_n_wf : DotDims.WF S512x128 S128x128 S512x128 [1] [0] [0] [1] [] []
  dot_S512x512_S512x128_S512x128_0_0_1_1_n_n_wf : DotDims.WF S512x512 S512x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S4x512x512.size a
  hwx0_0 : ∀ i : grid0.Coords, EltTy.bits .f32 = 32 ∨ (Rect.block (s := S4x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x128.size a ≤ S4x512x128.size a
  hwx0_1 : ∀ i : grid0.Coords, EltTy.bits .f32 = 32 ∨ (Rect.block (s := S4x512x128) S2x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x128.size a ≤ S4x1x128.size a
  hwx0_6 : ∀ i : grid0.Coords, EltTy.bits .f32 = 32 ∨ (Rect.block (s := S4x1x128) S2x1x128.size (cc0_transform_6 i) (hinb0_6 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf

abbrev win0_0 : Pipeline.Window sig grid0 :=
  Pipeline.Window.ofSpec (Memref.whole main_arg1) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S2x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S_ : Shape := ⟨0, ![]⟩
abbrev S1048576 : Shape := ⟨1, ![1048576]⟩
abbrev S1048576x1 : Shape := ⟨2, ![1048576, 1]⟩
abbrev S2048x128 : Shape := ⟨2, ![2048, 128]⟩
abbrev S2048 : Shape := ⟨1, ![2048]⟩
abbrev S1050624 : Shape := ⟨1, ![1050624]⟩
abbrev S1050624x1 : Shape := ⟨2, ![1050624, 1]⟩
abbrev S1 : Shape := ⟨1, ![1]⟩
abbrev S1x1 : Shape := ⟨2, ![1, 1]⟩
abbrev S1050624x128 : Shape := ⟨2, ![1050624, 128]⟩
abbrev S1x128 : Shape := ⟨2, ![1, 128]⟩
abbrev S4 : Shape := ⟨1, ![4]⟩
abbrev S4x512 : Shape := ⟨2, ![4, 512]⟩
abbrev S4x128 : Shape := ⟨2, ![4, 128]⟩
abbrev S2048x1 : Shape := ⟨2, ![2048, 1]⟩
abbrev S4x1 : Shape := ⟨2, ![4, 1]⟩

abbrev nBuf : Space → Nat
  | .hbm => 385
  | .vmem => 0
  | .smem => 0
  | _ => 0

abbrev hbmTy0_0 (i : Nat) : BufTy := match i % 128 with
  | 0 => ⟨S4x512x128, .f32⟩
  | 1 => ⟨S4x512x512, .f32⟩
  | 2 => ⟨S128x128, .f32⟩
  | 3 => ⟨S128, .f32⟩
  | 4 => ⟨S128x128, .f32⟩
  | 5 => ⟨S128, .f32⟩
  | 6 => ⟨S_, .f32⟩
  | 7 => ⟨S4x512x512, .f32⟩
  | 8 => ⟨S4x512x512, .i1⟩
  | 9 => ⟨S1048576, .i1⟩
  | 10 => ⟨S1048576, .i32⟩
  | 11 => ⟨S_, .i32⟩
  | 12 => ⟨S_, .i32⟩
  | 13 => ⟨S1048576, .i32⟩
  | 14 => ⟨S_, .i32⟩
  | 15 => ⟨S1048576, .i32⟩
  | 16 => ⟨S_, .i32⟩
  | 17 => ⟨S_, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S_, .i32⟩
  | 29 => ⟨S1048576, .i32⟩
  | 30 => ⟨S1048576, .i32⟩
  | 31 => ⟨S_, .i32⟩
  | 32 => ⟨S_, .i32⟩
  | 33 => ⟨S1048576, .i32⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S1048576, .i32⟩
  | 42 => ⟨S1048576, .i32⟩
  | 43 => ⟨S_, .i32⟩
  | 44 => ⟨S1048576, .i32⟩
  | 45 => ⟨S1048576, .i1⟩
  | 46 => ⟨S1048576, .i1⟩
  | 47 => ⟨S_, .i32⟩
  | 48 => ⟨S1048576, .i32⟩
  | 49 => ⟨S1048576, .i32⟩
  | 50 => ⟨S1048576, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i1⟩
  | 65 => ⟨S_, .i32⟩
  | 66 => ⟨S_, .i1⟩
  | 67 => ⟨S1048576, .i1⟩
  | 68 => ⟨S1048576, .i1⟩
  | 69 => ⟨S1048576, .i1⟩
  | 70 => ⟨S1048576, .i32⟩
  | 71 => ⟨S1048576, .i32⟩
  | 72 => ⟨S1048576, .i32⟩
  | 73 => ⟨S_, .i32⟩
  | 74 => ⟨S1048576, .i32⟩
  | 75 => ⟨S1048576, .i32⟩
  | 76 => ⟨S1048576, .i32⟩
  | 77 => ⟨S_, .i32⟩
  | 78 => ⟨S1048576, .i32⟩
  | 79 => ⟨S1048576, .i1⟩
  | 80 => ⟨S1048576, .i32⟩
  | 81 => ⟨S1048576, .i32⟩
  | 82 => ⟨S_, .i32⟩
  | 83 => ⟨S1048576, .i32⟩
  | 84 => ⟨S1048576, .i1⟩
  | 85 => ⟨S1048576, .i1⟩
  | 86 => ⟨S_, .i32⟩
  | 87 => ⟨S1048576, .i32⟩
  | 88 => ⟨S1048576, .i32⟩
  | 89 => ⟨S1048576, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i1⟩
  | 104 => ⟨S_, .i32⟩
  | 105 => ⟨S_, .i1⟩
  | 106 => ⟨S1048576, .i1⟩
  | 107 => ⟨S1048576, .i1⟩
  | 108 => ⟨S1048576, .i1⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S1048576, .i32⟩
  | 116 => ⟨S_, .i32⟩
  | 117 => ⟨S1048576, .i32⟩
  | 118 => ⟨S1048576, .i1⟩
  | 119 => ⟨S1048576, .i32⟩
  | 120 => ⟨S1048576, .i32⟩
  | 121 => ⟨S_, .i32⟩
  | 122 => ⟨S1048576, .i32⟩
  | 123 => ⟨S1048576, .i1⟩
  | 124 => ⟨S1048576, .i1⟩
  | 125 => ⟨S_, .i32⟩
  | 126 => ⟨S1048576, .i32⟩
  | 127 => ⟨S1048576, .i32⟩
  | _ => ⟨S4x512x128, .f32⟩

abbrev hbmTy0_1 (i : Nat) : BufTy := match i % 128 with
  | 0 => ⟨S1048576, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S1048576, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i1⟩
  | 15 => ⟨S_, .i32⟩
  | 16 => ⟨S_, .i1⟩
  | 17 => ⟨S1048576, .i1⟩
  | 18 => ⟨S1048576, .i1⟩
  | 19 => ⟨S1048576, .i1⟩
  | 20 => ⟨S1048576, .i32⟩
  | 21 => ⟨S1048576, .i32⟩
  | 22 => ⟨S1048576, .i32⟩
  | 23 => ⟨S1048576, .i32⟩
  | 24 => ⟨S4x512x512, .i32⟩
  | 25 => ⟨S_, .i32⟩
  | 26 => ⟨S_, .i32⟩
  | 27 => ⟨S1048576, .i32⟩
  | 28 => ⟨S1048576, .i1⟩
  | 29 => ⟨S_, .i32⟩
  | 30 => ⟨S_, .i32⟩
  | 31 => ⟨S1048576, .i32⟩
  | 32 => ⟨S1048576, .i32⟩
  | 33 => ⟨S_, .i32⟩
  | 34 => ⟨S_, .i32⟩
  | 35 => ⟨S1048576, .i32⟩
  | 36 => ⟨S1048576, .i32⟩
  | 37 => ⟨S_, .i32⟩
  | 38 => ⟨S_, .i32⟩
  | 39 => ⟨S1048576, .i32⟩
  | 40 => ⟨S1048576, .i32⟩
  | 41 => ⟨S1048576, .i32⟩
  | 42 => ⟨S_, .f32⟩
  | 43 => ⟨S4x512x512, .f32⟩
  | 44 => ⟨S4x512x512, .i1⟩
  | 45 => ⟨S4x512x512, .i32⟩
  | 46 => ⟨S_, .i32⟩
  | 47 => ⟨S_, .i32⟩
  | 48 => ⟨S1048576, .i32⟩
  | 49 => ⟨S1048576, .i1⟩
  | 50 => ⟨S1048576, .f32⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i32⟩
  | 58 => ⟨S1048576, .i32⟩
  | 59 => ⟨S2048x128, .f32⟩
  | 60 => ⟨S2048, .i32⟩
  | 61 => ⟨S1050624, .i32⟩
  | 62 => ⟨S1050624, .i32⟩
  | 63 => ⟨S_, .f32⟩
  | 64 => ⟨S2048, .f32⟩
  | 65 => ⟨S1050624, .f32⟩
  | 66 => ⟨S_, .f32⟩
  | 67 => ⟨S2048, .f32⟩
  | 68 => ⟨S_, .i32⟩
  | 69 => ⟨S1050624, .i32⟩
  | 70 => ⟨S1050624, .i1⟩
  | 71 => ⟨S_, .i32⟩
  | 72 => ⟨S1050624, .i32⟩
  | 73 => ⟨S1050624, .i32⟩
  | 74 => ⟨S1050624, .i32⟩
  | 75 => ⟨S1050624x1, .i32⟩
  | 76 => ⟨S2048, .f32⟩
  | 77 => ⟨S_, .f32⟩
  | 78 => ⟨S2048, .f32⟩
  | 79 => ⟨S2048, .i1⟩
  | 80 => ⟨S_, .f32⟩
  | 81 => ⟨S2048, .f32⟩
  | 82 => ⟨S2048, .f32⟩
  | 83 => ⟨S2048, .f32⟩
  | 84 => ⟨S_, .f32⟩
  | 85 => ⟨S_, .f32⟩
  | 86 => ⟨S2048, .f32⟩
  | 87 => ⟨S2048, .f32⟩
  | 88 => ⟨S_, .i32⟩
  | 89 => ⟨S1050624, .i32⟩
  | 90 => ⟨S1050624, .i1⟩
  | 91 => ⟨S_, .i32⟩
  | 92 => ⟨S1050624, .i32⟩
  | 93 => ⟨S1050624, .i32⟩
  | 94 => ⟨S1050624, .i32⟩
  | 95 => ⟨S1050624x1, .i32⟩
  | 96 => ⟨S1050624, .f32⟩
  | 97 => ⟨S_, .i32⟩
  | 98 => ⟨S1050624, .i32⟩
  | 99 => ⟨S1050624, .i1⟩
  | 100 => ⟨S_, .i32⟩
  | 101 => ⟨S1050624, .i32⟩
  | 102 => ⟨S1050624, .i32⟩
  | 103 => ⟨S1050624, .i32⟩
  | 104 => ⟨S1050624x1, .i32⟩
  | 105 => ⟨S1050624, .f32⟩
  | 106 => ⟨S1050624, .f32⟩
  | 107 => ⟨S1050624, .f32⟩
  | 108 => ⟨S2048x128, .f32⟩
  | 109 => ⟨S_, .i32⟩
  | 110 => ⟨S1050624, .i32⟩
  | 111 => ⟨S1050624, .i1⟩
  | 112 => ⟨S_, .i32⟩
  | 113 => ⟨S1050624, .i32⟩
  | 114 => ⟨S1050624, .i32⟩
  | 115 => ⟨S1050624, .i32⟩
  | 116 => ⟨S1050624x1, .i32⟩
  | 117 => ⟨S1, .i32⟩
  | 118 => ⟨S_, .i32⟩
  | 119 => ⟨S1050624x1, .i32⟩
  | 120 => ⟨S1050624x1, .i1⟩
  | 121 => ⟨S1x1, .i32⟩
  | 122 => ⟨S1050624x1, .i32⟩
  | 123 => ⟨S1050624x1, .i1⟩
  | 124 => ⟨S1050624x1, .i1⟩
  | 125 => ⟨S_, .i1⟩
  | 126 => ⟨S1050624, .i1⟩
  | 127 => ⟨S1050624x128, .f32⟩
  | _ => ⟨S4x512x128, .f32⟩

abbrev hbmTy0_2 (i : Nat) : BufTy := match i % 128 with
  | 0 => ⟨S1050624x128, .i1⟩
  | 1 => ⟨S_, .f32⟩
  | 2 => ⟨S1050624x128, .f32⟩
  | 3 => ⟨S1050624x128, .f32⟩
  | 4 => ⟨S1050624x1, .f32⟩
  | 5 => ⟨S1050624x128, .f32⟩
  | 6 => ⟨S1050624x128, .f32⟩
  | 7 => ⟨S_, .f32⟩
  | 8 => ⟨S2048x128, .f32⟩
  | 9 => ⟨S_, .i32⟩
  | 10 => ⟨S1050624, .i32⟩
  | 11 => ⟨S1050624, .i1⟩
  | 12 => ⟨S_, .i32⟩
  | 13 => ⟨S1050624, .i32⟩
  | 14 => ⟨S1050624, .i32⟩
  | 15 => ⟨S1050624, .i32⟩
  | 16 => ⟨S1050624x1, .i32⟩
  | 17 => ⟨S2048x128, .f32⟩
  | 18 => ⟨S1x128, .f32⟩
  | 19 => ⟨S2048x128, .f32⟩
  | 20 => ⟨S2048x128, .f32⟩
  | 21 => ⟨S_, .f32⟩
  | 22 => ⟨S2048x128, .f32⟩
  | 23 => ⟨S2048x128, .f32⟩
  | 24 => ⟨S2048, .i32⟩
  | 25 => ⟨S1050624, .i32⟩
  | 26 => ⟨S1050624, .i32⟩
  | 27 => ⟨S_, .f32⟩
  | 28 => ⟨S2048, .f32⟩
  | 29 => ⟨S1050624, .f32⟩
  | 30 => ⟨S_, .f32⟩
  | 31 => ⟨S2048, .f32⟩
  | 32 => ⟨S_, .i32⟩
  | 33 => ⟨S1050624, .i32⟩
  | 34 => ⟨S1050624, .i1⟩
  | 35 => ⟨S_, .i32⟩
  | 36 => ⟨S1050624, .i32⟩
  | 37 => ⟨S1050624, .i32⟩
  | 38 => ⟨S1050624, .i32⟩
  | 39 => ⟨S1050624x1, .i32⟩
  | 40 => ⟨S2048, .f32⟩
  | 41 => ⟨S_, .f32⟩
  | 42 => ⟨S2048, .f32⟩
  | 43 => ⟨S2048, .i1⟩
  | 44 => ⟨S_, .f32⟩
  | 45 => ⟨S2048, .f32⟩
  | 46 => ⟨S2048, .f32⟩
  | 47 => ⟨S2048, .f32⟩
  | 48 => ⟨S_, .f32⟩
  | 49 => ⟨S_, .f32⟩
  | 50 => ⟨S2048, .f32⟩
  | 51 => ⟨S2048, .f32⟩
  | 52 => ⟨S_, .i32⟩
  | 53 => ⟨S1050624, .i32⟩
  | 54 => ⟨S1050624, .i1⟩
  | 55 => ⟨S_, .i32⟩
  | 56 => ⟨S1050624, .i32⟩
  | 57 => ⟨S1050624, .i32⟩
  | 58 => ⟨S1050624, .i32⟩
  | 59 => ⟨S1050624x1, .i32⟩
  | 60 => ⟨S1050624, .f32⟩
  | 61 => ⟨S_, .i32⟩
  | 62 => ⟨S1050624, .i32⟩
  | 63 => ⟨S1050624, .i1⟩
  | 64 => ⟨S_, .i32⟩
  | 65 => ⟨S1050624, .i32⟩
  | 66 => ⟨S1050624, .i32⟩
  | 67 => ⟨S1050624, .i32⟩
  | 68 => ⟨S1050624x1, .i32⟩
  | 69 => ⟨S1050624, .f32⟩
  | 70 => ⟨S1050624, .f32⟩
  | 71 => ⟨S1050624, .f32⟩
  | 72 => ⟨S2048x128, .f32⟩
  | 73 => ⟨S_, .i32⟩
  | 74 => ⟨S1050624, .i32⟩
  | 75 => ⟨S1050624, .i1⟩
  | 76 => ⟨S_, .i32⟩
  | 77 => ⟨S1050624, .i32⟩
  | 78 => ⟨S1050624, .i32⟩
  | 79 => ⟨S1050624, .i32⟩
  | 80 => ⟨S1050624x1, .i32⟩
  | 81 => ⟨S1, .i32⟩
  | 82 => ⟨S_, .i32⟩
  | 83 => ⟨S1050624x1, .i32⟩
  | 84 => ⟨S1050624x1, .i1⟩
  | 85 => ⟨S1x1, .i32⟩
  | 86 => ⟨S1050624x1, .i32⟩
  | 87 => ⟨S1050624x1, .i1⟩
  | 88 => ⟨S1050624x1, .i1⟩
  | 89 => ⟨S_, .i1⟩
  | 90 => ⟨S1050624, .i1⟩
  | 91 => ⟨S1050624x128, .f32⟩
  | 92 => ⟨S1050624x128, .i1⟩
  | 93 => ⟨S_, .f32⟩
  | 94 => ⟨S1050624x128, .f32⟩
  | 95 => ⟨S1050624x128, .f32⟩
  | 96 => ⟨S1050624x1, .f32⟩
  | 97 => ⟨S1050624x128, .f32⟩
  | 98 => ⟨S1050624x128, .f32⟩
  | 99 => ⟨S_, .f32⟩
  | 100 => ⟨S2048x128, .f32⟩
  | 101 => ⟨S_, .i32⟩
  | 102 => ⟨S1050624, .i32⟩
  | 103 => ⟨S1050624, .i1⟩
  | 104 => ⟨S_, .i32⟩
  | 105 => ⟨S1050624, .i32⟩
  | 106 => ⟨S1050624, .i32⟩
  | 107 => ⟨S1050624, .i32⟩
  | 108 => ⟨S1050624x1, .i32⟩
  | 109 => ⟨S2048x128, .f32⟩
  | 110 => ⟨S1x128, .f32⟩
  | 111 => ⟨S2048x128, .f32⟩
  | 112 => ⟨S2048x128, .f32⟩
  | 113 => ⟨S4, .i32⟩
  | 114 => ⟨S4x512, .i32⟩
  | 115 => ⟨S2048, .i32⟩
  | 116 => ⟨S_, .f32⟩
  | 117 => ⟨S4x128, .f32⟩
  | 118 => ⟨S2048x1, .i32⟩
  | 119 => ⟨S4x128, .f32⟩
  | 120 => ⟨S_, .f32⟩
  | 121 => ⟨S2048, .f32⟩
  | 122 => ⟨S_, .f32⟩
  | 123 => ⟨S4, .f32⟩
  | 124 => ⟨S2048x1, .i32⟩
  | 125 => ⟨S4, .f32⟩
  | 126 => ⟨S4x1, .f32⟩
  | 127 => ⟨S4x128, .f32⟩
  | _ => ⟨S4x512x128, .f32⟩

abbrev hbmTy0_3 (i : Nat) : BufTy := match i % 128 with
  | 0 => ⟨S4x128, .f32⟩
  | _ => ⟨S4x512x128, .f32⟩

abbrev hbmTy (i : Nat) : BufTy := match i / 128 with
  | 0 => hbmTy0_0 i
  | 1 => hbmTy0_1 i
  | 2 => hbmTy0_2 i
  | 3 => hbmTy0_3 i
  | _ => ⟨S4x512x128, .f32⟩

abbrev bufTy : (tb : Table) → Fin (tcTables nBuf tb) → BufTy
  | .hbm, ⟨i, _⟩ => hbmTy i
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_call2_call0_c : Ref sig .tc := ⟨.hbm, 31, rfl⟩
abbrev main_call2_call0_v0 : Ref sig .tc := ⟨.hbm, 32, rfl⟩
abbrev main_v13 : Ref sig .tc := ⟨.hbm, 33, rfl⟩
abbrev main_c_4 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v14 : Ref sig .tc := ⟨.hbm, 50, rfl⟩
abbrev main_c_5 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v15 : Ref sig .tc := ⟨.hbm, 72, rfl⟩
abbrev main_c_6 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_c : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_0 : Ref sig .tc := ⟨.hbm, 86, rfl⟩
abbrev main_call5_v11 : Ref sig .tc := ⟨.hbm, 87, rfl⟩
abbrev main_call5_v12 : Ref sig .tc := ⟨.hbm, 88, rfl⟩
abbrev main_v16 : Ref sig .tc := ⟨.hbm, 89, rfl⟩
abbrev main_c_7 : Ref sig .tc := ⟨.hbm, 90, rfl⟩
abbrev main_call6_v0 : Ref sig .tc := ⟨.hbm, 91, rfl⟩
abbrev main_call6_c : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_1 : Ref sig .tc := ⟨.hbm, 98, rfl⟩
abbrev main_call6_v5 : Ref sig .tc := ⟨.hbm, 99, rfl⟩
abbrev main_call6_v6 : Ref sig .tc := ⟨.hbm, 100, rfl⟩
abbrev main_call6_c_2 : Ref sig .tc := ⟨.hbm, 101, rfl⟩
abbrev main_call6_v7 : Ref sig .tc := ⟨.hbm, 102, rfl⟩
abbrev main_call6_v8 : Ref sig .tc := ⟨.hbm, 103, rfl⟩
abbrev main_call6_c_3 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_v17 : Ref sig .tc := ⟨.hbm, 111, rfl⟩
abbrev main_c_8 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_v6 : Ref sig .tc := ⟨.hbm, 119, rfl⟩
abbrev main_call7_v7 : Ref sig .tc := ⟨.hbm, 120, rfl⟩
abbrev main_call7_c : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_call7_c_0 : Ref sig .tc := ⟨.hbm, 125, rfl⟩
abbrev main_call7_v11 : Ref sig .tc := ⟨.hbm, 126, rfl⟩
abbrev main_call7_v12 : Ref sig .tc := ⟨.hbm, 127, rfl⟩
abbrev main_v18 : Ref sig .tc := ⟨.hbm, 128, rfl⟩
abbrev main_c_9 : Ref sig .tc := ⟨.hbm, 129, rfl⟩
abbrev main_call8_v0 : Ref sig .tc := ⟨.hbm, 130, rfl⟩
abbrev main_call8_c : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_c_1 : Ref sig .tc := ⟨.hbm, 137, rfl⟩
abbrev main_call8_v5 : Ref sig .tc := ⟨.hbm, 138, rfl⟩
abbrev main_call8_v6 : Ref sig .tc := ⟨.hbm, 139, rfl⟩
abbrev main_call8_c_2 : Ref sig .tc := ⟨.hbm, 140, rfl⟩
abbrev main_call8_v7 : Ref sig .tc := ⟨.hbm, 141, rfl⟩
abbrev main_call8_v8 : Ref sig .tc := ⟨.hbm, 142, rfl⟩
abbrev main_call8_c_3 : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_v12 : Ref sig .tc := ⟨.hbm, 147, rfl⟩
abbrev main_call8_v13 : Ref sig .tc := ⟨.hbm, 148, rfl⟩
abbrev main_call8_v14 : Ref sig .tc := ⟨.hbm, 149, rfl⟩
abbrev main_v19 : Ref sig .tc := ⟨.hbm, 150, rfl⟩
abbrev main_v20 : Ref sig .tc := ⟨.hbm, 151, rfl⟩
abbrev main_v21 : Ref sig .tc := ⟨.hbm, 152, rfl⟩
abbrev main_c_10 : Ref sig .tc := ⟨.hbm, 153, rfl⟩
abbrev main_v22 : Ref sig .tc := ⟨.hbm, 154, rfl⟩
abbrev main_v23 : Ref sig .tc := ⟨.hbm, 155, rfl⟩
abbrev main_v24 : Ref sig .tc := ⟨.hbm, 156, rfl⟩
abbrev main_c_11 : Ref sig .tc := ⟨.hbm, 157, rfl⟩
abbrev main_call9_v0 : Ref sig .tc := ⟨.hbm, 158, rfl⟩
abbrev main_call9_v1 : Ref sig .tc := ⟨.hbm, 159, rfl⟩
abbrev main_v25 : Ref sig .tc := ⟨.hbm, 160, rfl⟩
abbrev main_c_12 : Ref sig .tc := ⟨.hbm, 161, rfl⟩
abbrev main_call10_v0 : Ref sig .tc := ⟨.hbm, 162, rfl⟩
abbrev main_call10_v1 : Ref sig .tc := ⟨.hbm, 163, rfl⟩
abbrev main_v26 : Ref sig .tc := ⟨.hbm, 164, rfl⟩
abbrev main_c_13 : Ref sig .tc := ⟨.hbm, 165, rfl⟩
abbrev main_call11_v0 : Ref sig .tc := ⟨.hbm, 166, rfl⟩
abbrev main_call11_v1 : Ref sig .tc := ⟨.hbm, 167, rfl⟩
abbrev main_v27 : Ref sig .tc := ⟨.hbm, 168, rfl⟩
abbrev main_v28 : Ref sig .tc := ⟨.hbm, 169, rfl⟩
abbrev main_call12_cst : Ref sig .tc := ⟨.hbm, 170, rfl⟩
abbrev main_call12_v0 : Ref sig .tc := ⟨.hbm, 171, rfl⟩
abbrev main_call12_v1 : Ref sig .tc := ⟨.hbm, 172, rfl⟩
abbrev main_call12_v2 : Ref sig .tc := ⟨.hbm, 173, rfl⟩
abbrev main_call12_c : Ref sig .tc := ⟨.hbm, 174, rfl⟩
abbrev main_v29 : Ref sig .tc := ⟨.hbm, 175, rfl⟩
abbrev main_v30 : Ref sig .tc := ⟨.hbm, 176, rfl⟩
abbrev main_v31 : Ref sig .tc := ⟨.hbm, 177, rfl⟩
abbrev main_v32 : Ref sig .tc := ⟨.hbm, 178, rfl⟩
abbrev main_c_14 : Ref sig .tc := ⟨.hbm, 179, rfl⟩
abbrev main_v33 : Ref sig .tc := ⟨.hbm, 180, rfl⟩
abbrev main_v34 : Ref sig .tc := ⟨.hbm, 181, rfl⟩
abbrev main_v35 : Ref sig .tc := ⟨.hbm, 182, rfl⟩
abbrev main_c_15 : Ref sig .tc := ⟨.hbm, 183, rfl⟩
abbrev main_v36 : Ref sig .tc := ⟨.hbm, 184, rfl⟩
abbrev main_v37 : Ref sig .tc := ⟨.hbm, 185, rfl⟩
abbrev main_v38 : Ref sig .tc := ⟨.hbm, 186, rfl⟩
abbrev main_v39 : Ref sig .tc := ⟨.hbm, 187, rfl⟩
abbrev main_v40 : Ref sig .tc := ⟨.hbm, 188, rfl⟩
abbrev main_v41 : Ref sig .tc := ⟨.hbm, 189, rfl⟩
abbrev main_v42 : Ref sig .tc := ⟨.hbm, 190, rfl⟩
abbrev main_cst_16 : Ref sig .tc := ⟨.hbm, 191, rfl⟩
abbrev main_v43 : Ref sig .tc := ⟨.hbm, 192, rfl⟩
abbrev main_v44 : Ref sig .tc := ⟨.hbm, 193, rfl⟩
abbrev main_cst_17 : Ref sig .tc := ⟨.hbm, 194, rfl⟩
abbrev main_v45 : Ref sig .tc := ⟨.hbm, 195, rfl⟩
abbrev main_c_18 : Ref sig .tc := ⟨.hbm, 196, rfl⟩
abbrev main_v46 : Ref sig .tc := ⟨.hbm, 197, rfl⟩
abbrev main_v47 : Ref sig .tc := ⟨.hbm, 198, rfl⟩
abbrev main_c_19 : Ref sig .tc := ⟨.hbm, 199, rfl⟩
abbrev main_v48 : Ref sig .tc := ⟨.hbm, 200, rfl⟩
abbrev main_v49 : Ref sig .tc := ⟨.hbm, 201, rfl⟩
abbrev main_v50 : Ref sig .tc := ⟨.hbm, 202, rfl⟩
abbrev main_v51 : Ref sig .tc := ⟨.hbm, 203, rfl⟩
abbrev main_v52 : Ref sig .tc := ⟨.hbm, 204, rfl⟩
abbrev main_cst_20 : Ref sig .tc := ⟨.hbm, 205, rfl⟩
abbrev main_v53 : Ref sig .tc := ⟨.hbm, 206, rfl⟩
abbrev main_v54 : Ref sig .tc := ⟨.hbm, 207, rfl⟩
abbrev main_cst_21 : Ref sig .tc := ⟨.hbm, 208, rfl⟩
abbrev main_v55 : Ref sig .tc := ⟨.hbm, 209, rfl⟩
abbrev main_v56 : Ref sig .tc := ⟨.hbm, 210, rfl⟩
abbrev main_v57 : Ref sig .tc := ⟨.hbm, 211, rfl⟩
abbrev main_cst_22 : Ref sig .tc := ⟨.hbm, 212, rfl⟩
abbrev main_call13_v0 : Ref sig .tc := ⟨.hbm, 213, rfl⟩
abbrev main_call13_v1 : Ref sig .tc := ⟨.hbm, 214, rfl⟩
abbrev main_v58 : Ref sig .tc := ⟨.hbm, 215, rfl⟩
abbrev main_c_23 : Ref sig .tc := ⟨.hbm, 216, rfl⟩
abbrev main_v59 : Ref sig .tc := ⟨.hbm, 217, rfl⟩
abbrev main_v60 : Ref sig .tc := ⟨.hbm, 218, rfl⟩
abbrev main_c_24 : Ref sig .tc := ⟨.hbm, 219, rfl⟩
abbrev main_v61 : Ref sig .tc := ⟨.hbm, 220, rfl⟩
abbrev main_v62 : Ref sig .tc := ⟨.hbm, 221, rfl⟩
abbrev main_v63 : Ref sig .tc := ⟨.hbm, 222, rfl⟩
abbrev main_v64 : Ref sig .tc := ⟨.hbm, 223, rfl⟩
abbrev main_v65 : Ref sig .tc := ⟨.hbm, 224, rfl⟩
abbrev main_c_25 : Ref sig .tc := ⟨.hbm, 225, rfl⟩
abbrev main_v66 : Ref sig .tc := ⟨.hbm, 226, rfl⟩
abbrev main_v67 : Ref sig .tc := ⟨.hbm, 227, rfl⟩
abbrev main_c_26 : Ref sig .tc := ⟨.hbm, 228, rfl⟩
abbrev main_v68 : Ref sig .tc := ⟨.hbm, 229, rfl⟩
abbrev main_v69 : Ref sig .tc := ⟨.hbm, 230, rfl⟩
abbrev main_v70 : Ref sig .tc := ⟨.hbm, 231, rfl⟩
abbrev main_v71 : Ref sig .tc := ⟨.hbm, 232, rfl⟩
abbrev main_v72 : Ref sig .tc := ⟨.hbm, 233, rfl⟩
abbrev main_v73 : Ref sig .tc := ⟨.hbm, 234, rfl⟩
abbrev main_v74 : Ref sig .tc := ⟨.hbm, 235, rfl⟩
abbrev main_v75 : Ref sig .tc := ⟨.hbm, 236, rfl⟩
abbrev main_call14_c : Ref sig .tc := ⟨.hbm, 237, rfl⟩
abbrev main_call14_v0 : Ref sig .tc := ⟨.hbm, 238, rfl⟩
abbrev main_call14_v1 : Ref sig .tc := ⟨.hbm, 239, rfl⟩
abbrev main_call14_c_0 : Ref sig .tc := ⟨.hbm, 240, rfl⟩
abbrev main_call14_v2 : Ref sig .tc := ⟨.hbm, 241, rfl⟩
abbrev main_call14_v3 : Ref sig .tc := ⟨.hbm, 242, rfl⟩
abbrev main_call14_v4 : Ref sig .tc := ⟨.hbm, 243, rfl⟩
abbrev main_call14_v5 : Ref sig .tc := ⟨.hbm, 244, rfl⟩
abbrev main_call14_c_1 : Ref sig .tc := ⟨.hbm, 245, rfl⟩
abbrev main_call14_c_2 : Ref sig .tc := ⟨.hbm, 246, rfl⟩
abbrev main_call14_v6 : Ref sig .tc := ⟨.hbm, 247, rfl⟩
abbrev main_call14_v7 : Ref sig .tc := ⟨.hbm, 248, rfl⟩
abbrev main_call14_v8 : Ref sig .tc := ⟨.hbm, 249, rfl⟩
abbrev main_call14_v9 : Ref sig .tc := ⟨.hbm, 250, rfl⟩
abbrev main_call14_v10 : Ref sig .tc := ⟨.hbm, 251, rfl⟩
abbrev main_call14_v11 : Ref sig .tc := ⟨.hbm, 252, rfl⟩
abbrev main_call14_c_3 : Ref sig .tc := ⟨.hbm, 253, rfl⟩
abbrev main_call14_v12 : Ref sig .tc := ⟨.hbm, 254, rfl⟩
abbrev main_call14_v13 : Ref sig .tc := ⟨.hbm, 255, rfl⟩
abbrev main_call14_v14 : Ref sig .tc := ⟨.hbm, 256, rfl⟩
abbrev main_call14_cst : Ref sig .tc := ⟨.hbm, 257, rfl⟩
abbrev main_call14_v15 : Ref sig .tc := ⟨.hbm, 258, rfl⟩
abbrev main_v76 : Ref sig .tc := ⟨.hbm, 259, rfl⟩
abbrev main_v77 : Ref sig .tc := ⟨.hbm, 260, rfl⟩
abbrev main_v78 : Ref sig .tc := ⟨.hbm, 261, rfl⟩
abbrev main_v79 : Ref sig .tc := ⟨.hbm, 262, rfl⟩
abbrev main_cst_27 : Ref sig .tc := ⟨.hbm, 263, rfl⟩
abbrev main_v80 : Ref sig .tc := ⟨.hbm, 264, rfl⟩
abbrev main_c_28 : Ref sig .tc := ⟨.hbm, 265, rfl⟩
abbrev main_v81 : Ref sig .tc := ⟨.hbm, 266, rfl⟩
abbrev main_v82 : Ref sig .tc := ⟨.hbm, 267, rfl⟩
abbrev main_c_29 : Ref sig .tc := ⟨.hbm, 268, rfl⟩
abbrev main_v83 : Ref sig .tc := ⟨.hbm, 269, rfl⟩
abbrev main_v84 : Ref sig .tc := ⟨.hbm, 270, rfl⟩
abbrev main_v85 : Ref sig .tc := ⟨.hbm, 271, rfl⟩
abbrev main_v86 : Ref sig .tc := ⟨.hbm, 272, rfl⟩
abbrev main_v87 : Ref sig .tc := ⟨.hbm, 273, rfl⟩
abbrev main_v88 : Ref sig .tc := ⟨.hbm, 274, rfl⟩
abbrev main_v89 : Ref sig .tc := ⟨.hbm, 275, rfl⟩
abbrev main_v90 : Ref sig .tc := ⟨.hbm, 276, rfl⟩
abbrev main_call15_cst : Ref sig .tc := ⟨.hbm, 277, rfl⟩
abbrev main_call15_v0 : Ref sig .tc := ⟨.hbm, 278, rfl⟩
abbrev main_v91 : Ref sig .tc := ⟨.hbm, 279, rfl⟩
abbrev main_v92 : Ref sig .tc := ⟨.hbm, 280, rfl⟩
abbrev main_v93 : Ref sig .tc := ⟨.hbm, 281, rfl⟩
abbrev main_v94 : Ref sig .tc := ⟨.hbm, 282, rfl⟩
abbrev main_cst_30 : Ref sig .tc := ⟨.hbm, 283, rfl⟩
abbrev main_v95 : Ref sig .tc := ⟨.hbm, 284, rfl⟩
abbrev main_v96 : Ref sig .tc := ⟨.hbm, 285, rfl⟩
abbrev main_cst_31 : Ref sig .tc := ⟨.hbm, 286, rfl⟩
abbrev main_v97 : Ref sig .tc := ⟨.hbm, 287, rfl⟩
abbrev main_c_32 : Ref sig .tc := ⟨.hbm, 288, rfl⟩
abbrev main_v98 : Ref sig .tc := ⟨.hbm, 289, rfl⟩
abbrev main_v99 : Ref sig .tc := ⟨.hbm, 290, rfl⟩
abbrev main_c_33 : Ref sig .tc := ⟨.hbm, 291, rfl⟩
abbrev main_v100 : Ref sig .tc := ⟨.hbm, 292, rfl⟩
abbrev main_v101 : Ref sig .tc := ⟨.hbm, 293, rfl⟩
abbrev main_v102 : Ref sig .tc := ⟨.hbm, 294, rfl⟩
abbrev main_v103 : Ref sig .tc := ⟨.hbm, 295, rfl⟩
abbrev main_v104 : Ref sig .tc := ⟨.hbm, 296, rfl⟩
abbrev main_cst_34 : Ref sig .tc := ⟨.hbm, 297, rfl⟩
abbrev main_v105 : Ref sig .tc := ⟨.hbm, 298, rfl⟩
abbrev main_v106 : Ref sig .tc := ⟨.hbm, 299, rfl⟩
abbrev main_cst_35 : Ref sig .tc := ⟨.hbm, 300, rfl⟩
abbrev main_v107 : Ref sig .tc := ⟨.hbm, 301, rfl⟩
abbrev main_v108 : Ref sig .tc := ⟨.hbm, 302, rfl⟩
abbrev main_v109 : Ref sig .tc := ⟨.hbm, 303, rfl⟩
abbrev main_cst_36 : Ref sig .tc := ⟨.hbm, 304, rfl⟩
abbrev main_call16_v0 : Ref sig .tc := ⟨.hbm, 305, rfl⟩
abbrev main_call16_v1 : Ref sig .tc := ⟨.hbm, 306, rfl⟩
abbrev main_v110 : Ref sig .tc := ⟨.hbm, 307, rfl⟩
abbrev main_c_37 : Ref sig .tc := ⟨.hbm, 308, rfl⟩
abbrev main_v111 : Ref sig .tc := ⟨.hbm, 309, rfl⟩
abbrev main_v112 : Ref sig .tc := ⟨.hbm, 310, rfl⟩
abbrev main_c_38 : Ref sig .tc := ⟨.hbm, 311, rfl⟩
abbrev main_v113 : Ref sig .tc := ⟨.hbm, 312, rfl⟩
abbrev main_v114 : Ref sig .tc := ⟨.hbm, 313, rfl⟩
abbrev main_v115 : Ref sig .tc := ⟨.hbm, 314, rfl⟩
abbrev main_v116 : Ref sig .tc := ⟨.hbm, 315, rfl⟩
abbrev main_v117 : Ref sig .tc := ⟨.hbm, 316, rfl⟩
abbrev main_c_39 : Ref sig .tc := ⟨.hbm, 317, rfl⟩
abbrev main_v118 : Ref sig .tc := ⟨.hbm, 318, rfl⟩
abbrev main_v119 : Ref sig .tc := ⟨.hbm, 319, rfl⟩
abbrev main_c_40 : Ref sig .tc := ⟨.hbm, 320, rfl⟩
abbrev main_v120 : Ref sig .tc := ⟨.hbm, 321, rfl⟩
abbrev main_v121 : Ref sig .tc := ⟨.hbm, 322, rfl⟩
abbrev main_v122 : Ref sig .tc := ⟨.hbm, 323, rfl⟩
abbrev main_v123 : Ref sig .tc := ⟨.hbm, 324, rfl⟩
abbrev main_v124 : Ref sig .tc := ⟨.hbm, 325, rfl⟩
abbrev main_v125 : Ref sig .tc := ⟨.hbm, 326, rfl⟩
abbrev main_v126 : Ref sig .tc := ⟨.hbm, 327, rfl⟩
abbrev main_v127 : Ref sig .tc := ⟨.hbm, 328, rfl⟩
abbrev main_call17_c : Ref sig .tc := ⟨.hbm, 329, rfl⟩
abbrev main_call17_v0 : Ref sig .tc := ⟨.hbm, 330, rfl⟩
abbrev main_call17_v1 : Ref sig .tc := ⟨.hbm, 331, rfl⟩
abbrev main_call17_c_0 : Ref sig .tc := ⟨.hbm, 332, rfl⟩
abbrev main_call17_v2 : Ref sig .tc := ⟨.hbm, 333, rfl⟩
abbrev main_call17_v3 : Ref sig .tc := ⟨.hbm, 334, rfl⟩
abbrev main_call17_v4 : Ref sig .tc := ⟨.hbm, 335, rfl⟩
abbrev main_call17_v5 : Ref sig .tc := ⟨.hbm, 336, rfl⟩
abbrev main_call17_c_1 : Ref sig .tc := ⟨.hbm, 337, rfl⟩
abbrev main_call17_c_2 : Ref sig .tc := ⟨.hbm, 338, rfl⟩
abbrev main_call17_v6 : Ref sig .tc := ⟨.hbm, 339, rfl⟩
abbrev main_call17_v7 : Ref sig .tc := ⟨.hbm, 340, rfl⟩
abbrev main_call17_v8 : Ref sig .tc := ⟨.hbm, 341, rfl⟩
abbrev main_call17_v9 : Ref sig .tc := ⟨.hbm, 342, rfl⟩
abbrev main_call17_v10 : Ref sig .tc := ⟨.hbm, 343, rfl⟩
abbrev main_call17_v11 : Ref sig .tc := ⟨.hbm, 344, rfl⟩
abbrev main_call17_c_3 : Ref sig .tc := ⟨.hbm, 345, rfl⟩
abbrev main_call17_v12 : Ref sig .tc := ⟨.hbm, 346, rfl⟩
abbrev main_call17_v13 : Ref sig .tc := ⟨.hbm, 347, rfl⟩
abbrev main_call17_v14 : Ref sig .tc := ⟨.hbm, 348, rfl⟩
abbrev main_call17_cst : Ref sig .tc := ⟨.hbm, 349, rfl⟩
abbrev main_call17_v15 : Ref sig .tc := ⟨.hbm, 350, rfl⟩
abbrev main_v128 : Ref sig .tc := ⟨.hbm, 351, rfl⟩
abbrev main_v129 : Ref sig .tc := ⟨.hbm, 352, rfl⟩
abbrev main_v130 : Ref sig .tc := ⟨.hbm, 353, rfl⟩
abbrev main_v131 : Ref sig .tc := ⟨.hbm, 354, rfl⟩
abbrev main_cst_41 : Ref sig .tc := ⟨.hbm, 355, rfl⟩
abbrev main_v132 : Ref sig .tc := ⟨.hbm, 356, rfl⟩
abbrev main_c_42 : Ref sig .tc := ⟨.hbm, 357, rfl⟩
abbrev main_v133 : Ref sig .tc := ⟨.hbm, 358, rfl⟩
abbrev main_v134 : Ref sig .tc := ⟨.hbm, 359, rfl⟩
abbrev main_c_43 : Ref sig .tc := ⟨.hbm, 360, rfl⟩
abbrev main_v135 : Ref sig .tc := ⟨.hbm, 361, rfl⟩
abbrev main_v136 : Ref sig .tc := ⟨.hbm, 362, rfl⟩
abbrev main_v137 : Ref sig .tc := ⟨.hbm, 363, rfl⟩
abbrev main_v138 : Ref sig .tc := ⟨.hbm, 364, rfl⟩
abbrev main_v139 : Ref sig .tc := ⟨.hbm, 365, rfl⟩
abbrev main_v140 : Ref sig .tc := ⟨.hbm, 366, rfl⟩
abbrev main_v141 : Ref sig .tc := ⟨.hbm, 367, rfl⟩
abbrev main_v142 : Ref sig .tc := ⟨.hbm, 368, rfl⟩
abbrev main_v143 : Ref sig .tc := ⟨.hbm, 369, rfl⟩
abbrev main_v144 : Ref sig .tc := ⟨.hbm, 370, rfl⟩
abbrev main_v145 : Ref sig .tc := ⟨.hbm, 371, rfl⟩
abbrev main_cst_44 : Ref sig .tc := ⟨.hbm, 372, rfl⟩
abbrev main_v146 : Ref sig .tc := ⟨.hbm, 373, rfl⟩
abbrev main_v147 : Ref sig .tc := ⟨.hbm, 374, rfl⟩
abbrev main_v148 : Ref sig .tc := ⟨.hbm, 375, rfl⟩
abbrev main_cst_45 : Ref sig .tc := ⟨.hbm, 376, rfl⟩
abbrev main_v149 : Ref sig .tc := ⟨.hbm, 377, rfl⟩
abbrev main_cst_46 : Ref sig .tc := ⟨.hbm, 378, rfl⟩
abbrev main_v150 : Ref sig .tc := ⟨.hbm, 379, rfl⟩
abbrev main_v151 : Ref sig .tc := ⟨.hbm, 380, rfl⟩
abbrev main_v152 : Ref sig .tc := ⟨.hbm, 381, rfl⟩
abbrev main_v153 : Ref sig .tc := ⟨.hbm, 382, rfl⟩
abbrev main_v154 : Ref sig .tc := ⟨.hbm, 383, rfl⟩
abbrev main_v155 : Ref sig .tc := ⟨.hbm, 384, rfl⟩

abbrev nD : Nat := 1
abbrev τ : Topo := Topo.v7x

variable {F : FTy → Type} [FloatOps F]

class Facts₀ : Prop where
  bcast_S_S4x512x512 : S_.BroadcastsInDim S4x512x512 (![] : Fin 0 → Fin S4x512x512.rank)
  shapeCasts_S4x512x512_S1048576 : S4x512x512.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S4x512x512_S_d0_1_2 : S4x512x512.ReducesTo [0, 1, 2] S_
  shapeCasts_S4x512x128_S2048x128 : S4x512x128.ShapeCasts S2048x128
  concatenates_S1048576_S2048_S1050624_d0 : Shape.Concatenates [S1048576, S2048] S1050624 0
  bcast_S_S2048 : S_.BroadcastsInDim S2048 (![] : Fin 0 → Fin S2048.rank)
  bcast_S_S1050624 : S_.BroadcastsInDim S1050624 (![] : Fin 0 → Fin S1050624.rank)
  bcast_S1050624_S1050624x1_0 : S1050624.BroadcastsInDim S1050624x1 (![0] : Fin 1 → Fin S1050624x1.rank)
  bcast_S_S1050624x1 : S_.BroadcastsInDim S1050624x1 (![] : Fin 0 → Fin S1050624x1.rank)
  bcast_S1_S1x1_1 : S1.BroadcastsInDim S1x1 (![1] : Fin 1 → Fin S1x1.rank)
  bcast_S1x1_S1050624x1_0_1 : S1x1.BroadcastsInDim S1050624x1 (![0, 1] : Fin 2 → Fin S1050624x1.rank)
  reducesTo_S1050624x1_S1050624_d1 : S1050624x1.ReducesTo [1] S1050624
  bcast_S1050624_S1050624x128_0 : S1050624.BroadcastsInDim S1050624x128 (![0] : Fin 1 → Fin S1050624x128.rank)
  bcast_S_S1050624x128 : S_.BroadcastsInDim S1050624x128 (![] : Fin 0 → Fin S1050624x128.rank)
  bcast_S1050624x1_S1050624x128_0_1 : S1050624x1.BroadcastsInDim S1050624x128 (![0, 1] : Fin 2 → Fin S1050624x128.rank)
  bcast_S_S2048x128 : S_.BroadcastsInDim S2048x128 (![] : Fin 0 → Fin S2048x128.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S4_S4x512_0 : S4.BroadcastsInDim S4x512 (![0] : Fin 1 → Fin S4x512.rank)
  shapeCasts_S4x512_S2048 : S4x512.ShapeCasts S2048
  bcast_S_S4x128 : S_.BroadcastsInDim S4x128 (![] : Fin 0 → Fin S4x128.rank)
  bcast_S2048_S2048x1_0 : S2048.BroadcastsInDim S2048x1 (![0] : Fin 1 → Fin S2048x1.rank)
  bcast_S_S4 : S_.BroadcastsInDim S4 (![] : Fin 0 → Fin S4.rank)
  bcast_S4_S4x1_0 : S4.BroadcastsInDim S4x1 (![0] : Fin 1 → Fin S4x1.rank)
  bcast_S4x1_S4x128_0_1 : S4x1.BroadcastsInDim S4x128 (![0, 1] : Fin 2 → Fin S4x128.rank)
  scatter_S1048576_S1048576x1_S1048576_n_0_0_1_wf : ScatterDims.WF S1048576 S1048576x1 S1048576 [] [0] [0] 1
  scatter_S2048_S1050624x1_S1050624_n_0_0_1_wf : ScatterDims.WF S2048 S1050624x1 S1050624 [] [0] [0] 1
  gather_S2048_S1050624x1_S1050624_n_0_n_n_0_1_1_wf : GatherDims.WF S2048 S1050624x1 S1050624 [] [0] [] [0] [] 1 ![1]
  dot_S2048x128_S128x128_S2048x128_1_0_0_1_n_n_wf : DotDims.WF S2048x128 S128x128 S2048x128 [1] [0] [0] [1] [] []
  gather_S2048x128_S1050624x1_S1050624x128_1_0_n_n_0_1_1128_wf : GatherDims.WF S2048x128 S1050624x1 S1050624x128 [1] [0] [] [0] [] 1 ![1, 128]
  scatter_S2048x128_S1050624x1_S1050624x128_1_0_0_1_wf : ScatterDims.WF S2048x128 S1050624x1 S1050624x128 [1] [0] [0] 1
  scatter_S4x128_S2048x1_S2048x128_1_0_0_1_wf : ScatterDims.WF S4x128 S2048x1 S2048x128 [1] [0] [0] 1
  scatter_S4_S2048x1_S2048_n_0_0_1_wf : ScatterDims.WF S4 S2048x1 S2048 [] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def scatter_S2048_S1050624x1_S1050624_n_0_0_1 : ScatterDims S2048 S1050624x1 S1050624 where
  updateWindowDims := []
  insertedWindowDims := [0]
  scatterDimsToOperandDims := [0]
  indexVectorDim := 1
  wf := scatter_S2048_S1050624x1_S1050624_n_0_0_1_wf
def gather_S2048_S1050624x1_S1050624_n_0_n_n_0_1_1 : GatherDims S2048 S1050624x1 S1050624 where
  offsetDims := []
  collapsedSliceDims := [0]
  operandBatchingDims := []
  startIndicesBatchingDims := []
  startIndexMap := [0]
  indexVectorDim := 1
  sliceSizes := ![1]
  wf := gather_S2048_S1050624x1_S1050624_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S2048x128_S1050624x1_S1050624x128_1_0_n_n_0_1_1128 : GatherDims S2048x128 S1050624x1 S1050624x128 where
  offsetDims := [1]
  collapsedSliceDims := [0]
  operandBatchingDims := []
  startIndicesBatchingDims := []
  startIndexMap := [0]
  indexVectorDim := 1
  sliceSizes := ![1, 128]
  wf := gather_S2048x128_S1050624x1_S1050624x128_1_0_n_n_0_1_1128_wf
def scatter_S2048x128_S1050624x1_S1050624x128_1_0_0_1 : ScatterDims S2048x128 S1050624x1 S1050624x128 where
  updateWindowDims := [1]
  insertedWindowDims := [0]
  scatterDimsToOperandDims := [0]
  indexVectorDim := 1
  wf := scatter_S2048x128_S1050624x1_S1050624x128_1_0_0_1_wf
def scatter_S4x128_S2048x1_S2048x128_1_0_0_1 : ScatterDims S4x128 S2048x1 S2048x128 where
  updateWindowDims := [1]
  insertedWindowDims := [0]
  scatterDimsToOperandDims := [0]
  indexVectorDim := 1
  wf := scatter_S4x128_S2048x1_S2048x128_1_0_0_1_wf
def scatter_S4_S2048x1_S2048_n_0_0_1 : ScatterDims S4 S2048x1 S2048 where
  updateWindowDims := []
  insertedWindowDims := [0]
  scatterDimsToOperandDims := [0]
  indexVectorDim := 1
  wf := scatter_S4_S2048x1_S2048_n_0_0_1_wf

class Facts : Prop extends Facts₀ where

variable [Facts]
-- ==== Proof.Spec.lean ====
/-
  The two-layer normalised graph convolution, written densely over the extended reals.

  For batch b the adjacency block adj[b] gets a self-loop on every node; with deg[b,c] = 1 + (column c's sum) and
  dinv = deg^(-1/2), one convolution of node features h with weights W and bias is

      conv[b,c,f] = ( (sum over r of adj[b,r,c] * ((h W)[b,r,f] * dinv[b,r])) + (h W)[b,c,f] * dinv[b,c] ) * dinv[b,c] + bias[f].

  The result is the mean over a batch's 512 nodes of the second convolution applied to the first one clamped below at zero.
-/
import Idealize.ShloMosaic.PureOps.Ideal
import Idealize.ShloMosaic.Lib.ValueIdx

noncomputable section

namespace Cert.Gcn

open Idealize.ShloMosaic Idealize.ShloMosaic.ValueIdx

abbrev SX : Shape := ⟨3, ![4, 512, 128]⟩
abbrev SA : Shape := ⟨3, ![4, 512, 512]⟩
abbrev SW : Shape := ⟨2, ![128, 128]⟩
abbrev SB : Shape := ⟨1, ![128]⟩
abbrev SO : Shape := ⟨2, ![4, 128]⟩

/-- One plus the sum of column c of batch b's adjacency block. -/
def deg (adj : SA.Idx → EReal) (b : Fin 4) (c : Fin 512) : EReal := (∑ r : Fin 512, adj (ix3 b r c)) + 1

/-- The inverse square root of the degree. -/
def dinv (adj : SA.Idx → EReal) (b : Fin 4) (c : Fin 512) : EReal := Ideal.rsqrt (deg adj b c)

/-- Node features times a weight matrix. -/
def lin (h : Fin 4 → Fin 512 → Fin 128 → EReal) (W : SW.Idx → EReal) (b : Fin 4) (r : Fin 512) (f : Fin 128) : EReal :=
  ∑ k : Fin 128, h b r k * W (ix2 k f)

/-- One normalised graph convolution with self-loops. -/
def conv (adj : SA.Idx → EReal) (h : Fin 4 → Fin 512 → Fin 128 → EReal) (W : SW.Idx → EReal) (bias : SB.Idx → EReal)
    (b : Fin 4) (c : Fin 512) (f : Fin 128) : EReal :=
  ((∑ r : Fin 512, adj (ix3 b r c) * (lin h W b r f * dinv adj b r)) + lin h W b c f * dinv adj b c) * dinv adj b c
    + bias (ix1 f)

/-- The hidden layer: the first convolution clamped below at zero. -/
def hid (x : SX.Idx → EReal) (adj : SA.Idx → EReal) (W1 : SW.Idx → EReal) (b1 : SB.Idx → EReal)
    (b : Fin 4) (c : Fin 512) (f : Fin 128) : EReal :=
  max (conv adj (fun b r k => x (ix3 b r k)) W1 b1 b c f) 0

/-- The mean over a batch's nodes of the second convolution of the hidden layer. -/
def out (x : SX.Idx → EReal) (adj : SA.Idx → EReal) (W1 : SW.Idx → EReal) (b1 : SB.Idx → EReal)
    (W2 : SW.Idx → EReal) (b2 : SB.Idx → EReal) (b : Fin 4) (f : Fin 128) : EReal :=
  (∑ c : Fin 512, conv adj (hid x adj W1 b1) W2 b2 b c f) * (((1 : ℝ) / 512 : ℝ) : EReal)

/-- The result as an array over [4, 128]. -/
def outArr (x : SX.Idx → EReal) (adj : SA.Idx → EReal) (W1 : SW.Idx → EReal) (b1 : SB.Idx → EReal)
    (W2 : SW.Idx → EReal) (b2 : SB.Idx → EReal) : SO.Idx → EReal :=
  fun i => out x adj W1 b1 W2 b2 (i 0) (i 1)

/-- Every entry is a real number. -/
def AllReal {s : Shape} (a : s.Idx → EReal) : Prop := ∀ i, ∃ r : ℝ, a i = (r : EReal)

/-- Every entry is zero or one. -/
def ZeroOne {s : Shape} (a : s.Idx → EReal) : Prop := ∀ i, a i = 0 ∨ a i = 1

/-- Node c of batch b among the 2048 nodes of all batches. -/
def node (b : Fin 4) (c : Fin 512) : Fin 2048 := ⟨b.val * 512 + c.val, by omega⟩

/-- The adjacency entry at a flat row-major position. -/
def unflat (j : Fin 1048576) : SA.Idx :=
  ix3 (⟨j.val / 262144, by omega⟩ : Fin 4) (⟨j.val / 512 % 512, by omega⟩ : Fin 512) (⟨j.val % 512, by omega⟩ : Fin 512)

/-- The flat positions whose adjacency entry is nonzero. -/
def nz (adj : SA.Idx → EReal) (j : Fin 1048576) : Prop := adj (unflat j) ≠ 0

instance (adj : SA.Idx → EReal) : DecidablePred (nz adj) := fun _ => Classical.propDecidable _

end Cert.Gcn

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibDotLeading.lean ====
/-
  A matrix product that contracts the LEADING axis of both operands, `[K, P]` by `[K, Q]` to `[P, Q]`
  (dimension numbers contracting [0] × [0], free [1] and [1], no batch axis), into the zero accumulator,
  read at an entry at the ideal instance:
      (Lᵀ R) (p, q) = ∑ k : Fin K, L (k, p) · R (k, q).
  Generic in the three extents, in the operands' formats and in the dimension-number record (given by its six lists).
-/
import Idealize.ShloMosaic.PureOps.Ideal.Laws
import Idealize.ShloMosaic.Lib.ValueIdx

noncomputable section

namespace Cert.LibDotLeading

open Idealize.ShloMosaic Idealize.ShloMosaic.ValueIdx

variable {K P Q : ℕ}

/-- The record with the six lists written out, over any witness of their well-formedness. -/
abbrev dims (wf : DotDims.WF (⟨2, ![K, P]⟩ : Shape) ⟨2, ![K, Q]⟩ ⟨2, ![P, Q]⟩ [0] [0] [1] [1] [] []) :
    DotDims (⟨2, ![K, P]⟩ : Shape) ⟨2, ![K, Q]⟩ ⟨2, ![P, Q]⟩ :=
  ⟨[0], [0], [1], [1], [], [], wf⟩

variable (wf : DotDims.WF (⟨2, ![K, P]⟩ : Shape) ⟨2, ![K, Q]⟩ ⟨2, ![P, Q]⟩ [0] [0] [1] [1] [] [])

/-- The left operand's row is the contraction position. -/
theorem lhs_axis0 (i : (⟨2, ![P, Q]⟩ : Shape).Idx) (q : (dims wf).contr.Idx) :
    ((dims wf).lhsIdx i q 0).val = (q ⟨0, Nat.one_pos⟩).val :=
  (dims wf).lhsIdx_val_of_single rfl i q

/-- The left operand's column is the result's row. -/
theorem lhs_axis1 (i : (⟨2, ![P, Q]⟩ : Shape).Idx) (q : (dims wf).contr.Idx) :
    ((dims wf).lhsIdx i q 1).val = (i 0).val := by
  unfold DotDims.lhsIdx
  rw [dif_neg (show ¬(1 : Fin (⟨2, ![K, P]⟩ : Shape).rank) ∈ (dims wf).lhsBatch from List.not_mem_nil),
    dif_pos (show (1 : Fin (⟨2, ![K, P]⟩ : Shape).rank) ∈ (dims wf).lhsNonContracting from List.mem_singleton.mpr rfl)]
  rfl

/-- The right operand's row is the contraction position. -/
theorem rhs_axis0 (i : (⟨2, ![P, Q]⟩ : Shape).Idx) (q : (dims wf).contr.Idx) :
    ((dims wf).rhsIdx i q 0).val = (q ⟨0, Nat.one_pos⟩).val :=
  (dims wf).rhsIdx_val_of_single rfl i q

/-- The right operand's column is the result's column. -/
theorem rhs_axis1 (i : (⟨2, ![P, Q]⟩ : Shape).Idx) (q : (dims wf).contr.Idx) :
    ((dims wf).rhsIdx i q 1).val = (i 1).val := by
  unfold DotDims.rhsIdx
  rw [dif_neg (show ¬(1 : Fin (⟨2, ![K, Q]⟩ : Shape).rank) ∈ (dims wf).rhsBatch from List.not_mem_nil),
    dif_pos (show (1 : Fin (⟨2, ![K, Q]⟩ : Shape).rank) ∈ (dims wf).rhsNonContracting from List.mem_singleton.mpr rfl)]
  rfl

/-- The product into the zero accumulator at `(p, q)`: the sum over the shared leading axis. -/
theorem matmul_zero_apply {φ₁ φ₂ : FTy} (prec : Option ContractPrecision)
    (l : FVec Ideal ⟨2, ![K, P]⟩ φ₁) (r : FVec Ideal ⟨2, ![K, Q]⟩ φ₂) (p : Fin P) (q : Fin Q) :
    FloatOps.matmul (dims wf) prec l r (constant ⟨2, ![P, Q]⟩ .f32 0x00000000#32) (ix2 p q)
      = ∑ k : Fin K, l (ix2 k p) * r (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 k p := funext fun a => Fin.ext (by
    match a with
    | ⟨0, _⟩ => exact (lhs_axis0 wf _ _).trans hk
    | ⟨1, _⟩ => exact lhs_axis1 wf _ _)
  have er : (dims wf).rhsIdx (ix2 p q) ((contrEquiv1 (dims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibDotLeading

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.KerPayload.lean ====
/-
  What one grid step of the kernel stores, read index by index at the ideal values.

  A grid step handles two batches. For each, with A the batch's 512x512 adjacency block, the body forms
  the column sums of A plus one, their inverse square roots d, and twice applies
      y[c,f] = ((sum over r of A[r,c] * (m[r,f] * d[r])) + m[c,f] * d[c]) * d[c] + bias[f],   m = h W,
  the first result clamped below at zero, and stores the mean over the 512 nodes of the second. The output block
  is the pair of these rows. Each non-pointwise operation (the column sum, the two kinds of matrix product, the
  layout changes) is read at an index by one small lemma; a format change is the identity at the ideal values.
-/
import proofs.«168901_g83915071029568_cont_sun_c4_623_12_alg».proof.Proof.Gen.KernelIdeal.Frame
import proofs.«168901_g83915071029568_cont_sun_c4_623_12_alg».proof.Proof.Spec
import proofs.«168901_g83915071029568_cont_sun_c4_623_12_alg».proof.Proof.LibPlainDot
import proofs.«168901_g83915071029568_cont_sun_c4_623_12_alg».proof.Proof.LibDotLeading
import proofs.«168901_g83915071029568_cont_sun_c4_623_12_alg».proof.Proof.LibColumn
import proofs.«168901_g83915071029568_cont_sun_c4_623_12_alg».proof.Proof.LibERealArith
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HandValue

open Cert.KernelIdeal Cert.KernelIdeal.Gen
open Idealize.ShloMosaic Idealize.ShloMosaic.ValueIdx Idealize.ShloMosaic.ValueLayout
open scoped BigOperators

/-! ## The body's stages as terms over vectors -/

/-- The inverse square roots of one plus the column sums, as a column. -/
def dcol (A : FVec Ideal S512x512 .f32) : FVec Ideal S512x1 .f32 :=
  transpose S512x1 [1, 0]
    (rsqrt (addf (shapeCast S1x512 (multiReduction .add [0] S512 A 0x00000000#32 reduces_S512x512_S512 (.inl rfl) rfl) shapeCasts_S512_S1x512)
      (broadcast S1x512 (Scalar.ofBits .f32 0x3F800000#32))))
    transposes_S1x512_p1_0_S512x1

/-- Node features times a weight matrix. -/
def mm (h : FVec Ideal S512x128 .f32) (w : FVec Ideal S128x128 .bf16) : FVec Ideal S512x128 .f32 :=
  matmul dot_S512x128_S128x128_S512x128_1_0_0_1_n_n none (truncf .bf16 h bitsLt_bf16_f32) w (constant S512x128 .f32 0x00000000#32)

/-- The normalised aggregation over the neighbours and the node itself. -/
def agg (Abf : FVec Ideal S512x512 .bf16) (dv : FVec Ideal S512x1 .f32) (xw : FVec Ideal S512x128 .f32) : FVec Ideal S512x128 .f32 :=
  mulf (addf (matmul dot_S512x512_S512x128_S512x128_0_0_1_1_n_n none Abf
        (truncf .bf16 (mulf xw (broadcastTo S512x128 dv broadcasts_S512x1_S512x128)) bitsLt_bf16_f32) (constant S512x128 .f32 0x00000000#32))
      (mulf xw (broadcastTo S512x128 dv broadcasts_S512x1_S512x128)))
    (broadcastTo S512x128 dv broadcasts_S512x1_S512x128)

/-- A bias row added to every node. -/
def addb (y : FVec Ideal S512x128 .f32) (b : Vec Ideal S1x128 .f32) : FVec Ideal S512x128 .f32 :=
  addf y (broadcastTo S512x128 (shapeCast S1x128 b shapeCasts_S1x128_S1x128) broadcasts_S1x128_S512x128)

/-- The clamp below at zero. -/
def relu (y : FVec Ideal S512x128 .f32) : FVec Ideal S512x128 .f32 :=
  maximumf y (broadcast S512x128 (Scalar.ofBits .f32 0x00000000#32))

/-- The mean over the nodes, as a [1,1,128] block. -/
def meanRow (y : FVec Ideal S512x128 .f32) : FVec Ideal S1x1x128 .f32 :=
  shapeCast S1x1x128
    (mulf (shapeCast S1x128 (multiReduction .add [0] S128 y 0x00000000#32 reduces_S512x128_S128 (.inl rfl) rfl) shapeCasts_S128_S1x128)
      (broadcast S1x128 (Scalar.ofBits .f32 0x3B000000#32)))
    shapeCasts_S1x128_S1x1x128

/-- One batch's stored row from its loaded blocks. -/
def net (A3 : Vec Ideal S1x512x512 .f32) (X3 : Vec Ideal S1x512x128 .f32) (w1 : Vec Ideal S128x128 .f32) (B1 : Vec Ideal S1x128 .f32)
    (w2 : Vec Ideal S128x128 .f32) (B2 : Vec Ideal S1x128 .f32) : FVec Ideal S1x1x128 .f32 :=
  meanRow (addb (agg (truncf .bf16 (shapeCast S512x512 A3 shapeCasts_S1x512x512_S512x512) bitsLt_bf16_f32)
      (dcol (shapeCast S512x512 A3 shapeCasts_S1x512x512_S512x512))
      (mm (relu (addb (agg (truncf .bf16 (shapeCast S512x512 A3 shapeCasts_S1x512x512_S512x512) bitsLt_bf16_f32)
            (dcol (shapeCast S512x512 A3 shapeCasts_S1x512x512_S512x512))
            (mm (shapeCast S512x128 X3 shapeCasts_S1x512x128_S512x128) (truncf .bf16 w1 bitsLt_bf16_f32))) B1))
        (truncf .bf16 w2 bitsLt_bf16_f32))) B2)

/-- The first batch's store is this term of the first row-blocks. -/
theorem pay_first (v0 v2 : Vec Ideal S128x128 .f32) (v4 : Vec Ideal S1x512x512 .f32) (v13 : Vec Ideal S1x512x128 .f32)
    (v24 v39 : Vec Ideal S1x128 .f32) :
    k0_pay5 (k0_pay4 v0 v2 v4 v13 v24) v39 = net v4 v13 v0 v24 v2 v39 := rfl

/-- The second batch's store is the same term of the second row-blocks. -/
theorem pay_second (v0 v2 : Vec Ideal S128x128 .f32) (v50 : Vec Ideal S1x512x512 .f32) (v59 : Vec Ideal S1x512x128 .f32)
    (v70 v85 : Vec Ideal S1x128 .f32) :
    k0_pay1 (k0_pay7 v50) (k0_pay8 v50) (k0_pay9 (k0_pay2 v0) (k0_pay3 v2) v50 v59 v70) v85 = net v50 v59 v0 v70 v2 v85 := rfl

/-! ## Each stage read at an index -/

/-- The index a column sum inserts: row r of column c. -/
theorem lift_col {n m : ℕ} (h : (⟨2, ![n, m]⟩ : Shape).Reduces [0] ⟨1, ![m]⟩) (c : Fin m) (r : Fin n) :
    h.lift (ix1 c) r = ix2 r c := by
  funext a
  refine Fin.ext ?_
  match a with
  | ⟨0, _⟩ => rfl
  | ⟨1, _⟩ => rfl

/-- The literal one. -/
theorem lit_one : Ideal.ofBits .f32 0x3F800000#32 = (1 : EReal) := by
  rw [Cert.Lib.ERealArith.ofBits_one, EReal.coe_one]

/-- The literal zero. -/
theorem lit_zero : Ideal.ofBits .f32 0x00000000#32 = (0 : EReal) := by
  rw [Cert.Lib.ERealArith.ofBits_zero, EReal.coe_zero]

/-- The literal 1/512. -/
theorem lit_inv512 : Ideal.ofBits .f32 0x3B000000#32 = (((1 : ℝ) / 512 : ℝ) : EReal) := by
  simp [Ideal.ofBits, Ideal.ieee, -EReal.coe_mul]; norm_num

/-- The normaliser column at node c. -/
theorem dcol_apply (A : FVec Ideal S512x512 .f32) (c : Fin 512) (u : Fin 1) :
    dcol A (ix2 c u) = Ideal.rsqrt ((∑ r : Fin 512, A (ix2 r c)) + 1) := by
  unfold dcol
  refine (transpose_ix2_apply _ _ c u).trans ?_
  show Ideal.rsqrt (shapeCast S1x512 _ _ (ix2 u c) + Ideal.ofBits .f32 0x3F800000#32) = _
  rw [shapeCast_a_1a_apply, lit_one]
  refine congrArg (fun s => Ideal.rsqrt (s + 1)) ?_
  refine (Ideal.multiReduction_add_single _ _ _ _ _ _).trans ?_
  exact Finset.sum_congr rfl fun r _ => congrArg A (lift_col _ c r)

/-- The feature product's dimension numbers are the plain ones. -/
theorem plainDims : PlainDot.IsPlain dot_S512x128_S128x128_S512x128_1_0_0_1_n_n := ⟨rfl, rfl, rfl, rfl, rfl, rfl⟩

/-- Features times weights at (r, f). -/
theorem mm_apply (h : FVec Ideal S512x128 .f32) (w : FVec Ideal S128x128 .bf16) (r : Fin 512) (f : Fin 128) :
    mm h w (ix2 r f) = ∑ k : Fin 128, h (ix2 r k) * w (ix2 k f) :=
  (Ideal.matmul_constant_zero_apply _ none _ w (ix2 r f)).trans (PlainDot.sum_contr plainDims h w r f)

/-- A column spread over the lanes, at (c, f). -/
theorem bcol_apply (dv : FVec Ideal S512x1 .f32) (c : Fin 512) (f : Fin 128) :
    broadcastTo S512x128 dv broadcasts_S512x1_S512x128 (ix2 c f) = dv (ix2 c (0 : Fin 1)) :=
  broadcastTo_a1_ab_apply (by decide) dv _ c f

/-- The aggregation at (c, f). -/
theorem agg_apply (Abf : FVec Ideal S512x512 .bf16) (dv : FVec Ideal S512x1 .f32) (xw : FVec Ideal S512x128 .f32) (c : Fin 512) (f : Fin 128) :
    agg Abf dv xw (ix2 c f)
      = ((∑ r : Fin 512, Abf (ix2 r c) * (xw (ix2 r f) * dv (ix2 r (0 : Fin 1)))) + xw (ix2 c f) * dv (ix2 c (0 : Fin 1))) * dv (ix2 c (0 : Fin 1)) := by
  unfold agg
  rw [mulf_apply, addf_apply, mulf_apply, bcol_apply]
  refine congrArg (fun s => (s + xw (ix2 c f) * dv (ix2 c (0 : Fin 1))) * dv (ix2 c (0 : Fin 1))) ?_
  refine (Cert.LibDotLeading.matmul_zero_apply dot_S512x512_S512x128_S512x128_0_0_1_1_n_n_wf none Abf _ c f).trans ?_
  exact Finset.sum_congr rfl fun r _ => by rw [truncf_apply, mulf_apply, bcol_apply]

/-- The bias added at (c, f). -/
theorem addb_apply (y : FVec Ideal S512x128 .f32) (b : Vec Ideal S1x128 .f32) (c : Fin 512) (f : Fin 128) :
    addb y b (ix2 c f) = y (ix2 c f) + b (ix2 (0 : Fin 1) f) := by
  unfold addb
  rw [addf_apply, broadcastTo_1b_ab_apply, shapeCast_self]

/-- The clamp at an index. -/
theorem relu_apply (y : FVec Ideal S512x128 .f32) (i : S512x128.Idx) : relu y i = max (y i) 0 := by
  unfold relu
  rw [maximumf_apply, broadcast_apply]
  exact congrArg (max (y i)) lit_zero

/-- The mean over the nodes at feature f. -/
theorem meanRow_apply (y : FVec Ideal S512x128 .f32) (u v : Fin 1) (f : Fin 128) :
    meanRow y (ix3 u v f) = (∑ c : Fin 512, y (ix2 c f)) * (((1 : ℝ) / 512 : ℝ) : EReal) := by
  unfold meanRow
  rw [shapeCast_ab_1ab_apply, mulf_apply, broadcast_apply, shapeCast_a_1a_apply]
  refine congrArg₂ (· * ·) ?_ lit_inv512
  refine (Ideal.multiReduction_add_single _ _ _ _ _ _).trans ?_
  exact Finset.sum_congr rfl fun r _ => congrArg y (lift_col _ f r)

/-! ## One batch's row is the dense network's -/

section Spec

open Cert.Gcn

variable (x : SX.Idx → EReal) (adj : SA.Idx → EReal) (W1 : SW.Idx → EReal) (b1 : SB.Idx → EReal)
  (W2 : SW.Idx → EReal) (b2 : SB.Idx → EReal) (b : Fin 4)

/-- The normaliser column of batch b's block is the dense network's. -/
theorem dcol_spec (A : FVec Ideal S512x512 .f32) (hA : ∀ r c, A (ix2 r c) = adj (ix3 b r c)) (c : Fin 512) (u : Fin 1) :
    dcol A (ix2 c u) = dinv adj b c := by
  rw [dcol_apply]
  unfold dinv deg
  exact congrArg (fun s => Ideal.rsqrt (s + 1)) (Finset.sum_congr rfl fun r _ => hA r c)

/-- The feature product of batch b's rows is the dense network's. -/
theorem mm_spec (h : Fin 4 → Fin 512 → Fin 128 → EReal) (W : SW.Idx → EReal) (H : FVec Ideal S512x128 .f32) (w : FVec Ideal S128x128 .bf16)
    (hH : ∀ r k, H (ix2 r k) = h b r k) (hw : ∀ k f, w (ix2 k f) = W (ix2 k f)) (r : Fin 512) (f : Fin 128) :
    mm H w (ix2 r f) = lin h W b r f := by
  rw [mm_apply]
  unfold lin
  exact Finset.sum_congr rfl fun k _ => by rw [hH, hw]

/-- One aggregation with its bias is one convolution of the dense network. -/
theorem layer_spec (h : Fin 4 → Fin 512 → Fin 128 → EReal) (W : SW.Idx → EReal) (bias : SB.Idx → EReal)
    (Abf : FVec Ideal S512x512 .bf16) (dv : FVec Ideal S512x1 .f32) (xw : FVec Ideal S512x128 .f32) (B : Vec Ideal S1x128 .f32)
    (hA : ∀ r c, Abf (ix2 r c) = adj (ix3 b r c)) (hd : ∀ c, dv (ix2 c (0 : Fin 1)) = dinv adj b c)
    (hxw : ∀ r f, xw (ix2 r f) = lin h W b r f) (hB : ∀ f, B (ix2 (0 : Fin 1) f) = bias (ix1 f)) (c : Fin 512) (f : Fin 128) :
    addb (agg Abf dv xw) B (ix2 c f) = conv adj h W bias b c f := by
  rw [addb_apply, agg_apply, hB, hd c, hxw c f]
  unfold conv
  refine congrArg (fun s => (s + lin h W b c f * dinv adj b c) * dinv adj b c + bias (ix1 f)) (Finset.sum_congr rfl fun r _ => ?_)
  rw [hA, hxw, hd]

/-- One batch's stored row is the dense network's result for that batch. -/
theorem net_spec (A3 : Vec Ideal S1x512x512 .f32) (X3 : Vec Ideal S1x512x128 .f32) (w1 : Vec Ideal S128x128 .f32) (B1 : Vec Ideal S1x128 .f32)
    (w2 : Vec Ideal S128x128 .f32) (B2 : Vec Ideal S1x128 .f32)
    (hA : ∀ r c, A3 (ix3 (0 : Fin 1) r c) = adj (ix3 b r c)) (hX : ∀ r k, X3 (ix3 (0 : Fin 1) r k) = x (ix3 b r k))
    (hw1 : ∀ k f, w1 (ix2 k f) = W1 (ix2 k f)) (hB1 : ∀ f, B1 (ix2 (0 : Fin 1) f) = b1 (ix1 f))
    (hw2 : ∀ k f, w2 (ix2 k f) = W2 (ix2 k f)) (hB2 : ∀ f, B2 (ix2 (0 : Fin 1) f) = b2 (ix1 f)) (u v : Fin 1) (f : Fin 128) :
    net A3 X3 w1 B1 w2 B2 (ix3 u v f) = out x adj W1 b1 W2 b2 b f := by
  have hA5 : ∀ r c, shapeCast S512x512 A3 shapeCasts_S1x512x512_S512x512 (ix2 r c) = adj (ix3 b r c) := fun r c => by
    rw [shapeCast_1ab_ab_apply]; exact hA r c
  have hd : ∀ c, dcol (shapeCast S512x512 A3 shapeCasts_S1x512x512_S512x512) (ix2 c (0 : Fin 1)) = dinv adj b c :=
    fun c => dcol_spec adj b _ hA5 c 0
  unfold net
  rw [meanRow_apply]
  unfold out
  refine congrArg (· * _) (Finset.sum_congr rfl fun c _ => ?_)
  refine layer_spec adj b (hid x adj W1 b1) W2 b2 _ _ _ _ hA5 hd (fun r f => ?_) hB2 c f
  refine mm_spec b (hid x adj W1 b1) W2 _ _ (fun r k => ?_) hw2 r f
  rw [relu_apply]
  unfold hid
  refine congrArg (max · 0) ?_
  refine layer_spec adj b (fun b r k => x (ix3 b r k)) W1 b1 _ _ _ _ hA5 hd (fun r f => ?_) hB1 r k
  refine mm_spec b (fun b r k => x (ix3 b r k)) W1 _ _ (fun r k => ?_) hw1 r f
  rw [shapeCast_1ab_ab_apply]
  exact hX r k

end Spec

/-! ## The loaded row-blocks and the stored pieces -/

/-- A load of row-block o of a [2, n, m] buffer reads the buffer there. -/
theorem ld_block {n m : ℕ} (X : Vec Ideal (⟨3, ![2, n, m]⟩ : Shape) .f32) (o : Fin 2) (off : Fin 3 → ℕ)
    (h0 : off 0 = o.val) (h1 : off 1 = 0) (h2 : off 2 = 0)
    (inb : ∀ a, off a + (⟨3, ![1, n, m]⟩ : Shape).size a ≤ (⟨3, ![2, n, m]⟩ : Shape).size a) (u : Fin 1) (r : Fin n) (c : Fin m) :
    View.ld (Val := Elt Ideal) X (Rect.unit off (⟨3, ![1, n, m]⟩ : Shape).size inb) (ix3 u r c) = X (ix3 o r c) := by
  show X _ = X _
  refine congrArg X (funext fun d => Fin.ext ?_)
  have hu : u.val = 0 := by omega
  match d with
  | ⟨0, _⟩ => show off 0 + 1 * u.val = o.val; omega
  | ⟨1, _⟩ => show off 1 + 1 * r.val = r.val; omega
  | ⟨2, _⟩ => show off 2 + 1 * c.val = c.val; omega

/-- A load of a whole [n, m] buffer reads the buffer. -/
theorem ld_whole2 {n m : ℕ} (X : Vec Ideal (⟨2, ![n, m]⟩ : Shape) .f32) (off : Fin 2 → ℕ) (h0 : off 0 = 0) (h1 : off 1 = 0)
    (inb : ∀ a, off a + (⟨2, ![n, m]⟩ : Shape).size a ≤ (⟨2, ![n, m]⟩ : Shape).size a) (r : Fin n) (c : Fin m) :
    View.ld (Val := Elt Ideal) X (Rect.unit off (⟨2, ![n, m]⟩ : Shape).size inb) (ix2 r c) = X (ix2 r c) := by
  show X _ = X _
  refine congrArg X (funext fun d => Fin.ext ?_)
  match d with
  | ⟨0, _⟩ => show off 0 + 1 * r.val = r.val; omega
  | ⟨1, _⟩ => show off 1 + 1 * c.val = c.val; omega

/-- The output block under the first batch's store holds that store's row. -/
theorem canon_first (p1 p0 : Vec Ideal S1x1x128 .f32) (i : Fin 2) (hi : i.val = 0) (f : Fin 128) :
    View.canon ([⟨r0_7, p1⟩, ⟨r0_4, p0⟩] : List (View.Piece (Elt Ideal) S2x1x128 .f32)) (ix3 i (0 : Fin 1) f) = p0 (ix3 (0 : Fin 1) (0 : Fin 1) f) := by
  have hnot : ix3 i (0 : Fin 1) f ∉ (⟨r0_7, p1⟩ : View.Piece (Elt Ideal) S2x1x128 .f32).1.set := by
    intro hmem
    have h0 := ((Rect.mem_set_unit (s := S2x1x128) (off := ![1, 0, 0]) (size := S1x1x128.size)
      (inb := inb_S2x1x128_S1x1x128_1_0_0) (i := ix3 i (0 : Fin 1) f)).mp hmem) 0
    have : (1 : ℕ) ≤ i.val := h0.1
    omega
  rw [View.canon_cons_of_not_mem _ _ hnot]
  have hemb : ix3 i (0 : Fin 1) f = r0_4.emb (ix3 (0 : Fin 1) (0 : Fin 1) f) := by
    funext d
    refine Fin.ext ?_
    match d with
    | ⟨0, _⟩ => show i.val = 0 + 1 * 0; omega
    | ⟨1, _⟩ => show (0 : ℕ) = 0 + 1 * 0; omega
    | ⟨2, _⟩ => show f.val = 0 + 1 * f.val; omega
  rw [hemb]
  exact View.canon_cons_emb r0_4 p0 [] _

/-- The output block under the second batch's store holds that store's row. -/
theorem canon_second (p1 p0 : Vec Ideal S1x1x128 .f32) (i : Fin 2) (hi : i.val = 1) (f : Fin 128) :
    View.canon ([⟨r0_7, p1⟩, ⟨r0_4, p0⟩] : List (View.Piece (Elt Ideal) S2x1x128 .f32)) (ix3 i (0 : Fin 1) f) = p1 (ix3 (0 : Fin 1) (0 : Fin 1) f) := by
  have hemb : ix3 i (0 : Fin 1) f = r0_7.emb (ix3 (0 : Fin 1) (0 : Fin 1) f) := by
    funext d
    refine Fin.ext ?_
    match d with
    | ⟨0, _⟩ => show i.val = 1 + 1 * 0; omega
    | ⟨1, _⟩ => show (0 : ℕ) = 0 + 1 * 0; omega
    | ⟨2, _⟩ => show f.val = 0 + 1 * f.val; omega
  rw [hemb]
  exact View.canon_cons_emb r0_7 p1 _ _

/-! ## The output block -/

/-- What a grid step leaves in its output block: row i is the dense network's result for batch 2t + i. -/
theorem payload_eq (x : Cert.Gcn.SX.Idx → EReal) (adj : Cert.Gcn.SA.Idx → EReal) (W1 : Cert.Gcn.SW.Idx → EReal) (b1 : Cert.Gcn.SB.Idx → EReal) (W2 : Cert.Gcn.SW.Idx → EReal) (b2 : Cert.Gcn.SB.Idx → EReal) (t : Fin 2)
    (a : Vec Ideal S2x512x512 .f32) (xb : Vec Ideal S2x512x128 .f32) (w1 : Vec Ideal S128x128 .f32) (bb1 : Vec Ideal S1x128 .f32) (w2 : Vec Ideal S128x128 .f32) (bb2 : Vec Ideal S1x128 .f32)
    (ha : ∀ (i : Fin 2) (r c : Fin 512), a (ix3 i r c) = adj (ix3 (⟨2 * t.val + i.val, by omega⟩ : Fin 4) r c))
    (hx : ∀ (i : Fin 2) (r : Fin 512) (k : Fin 128), xb (ix3 i r k) = x (ix3 (⟨2 * t.val + i.val, by omega⟩ : Fin 4) r k))
    (hw1 : ∀ k f : Fin 128, w1 (ix2 k f) = W1 (ix2 k f)) (hb1 : ∀ f : Fin 128, bb1 (ix2 (0 : Fin 1) f) = b1 (ix1 f))
    (hw2 : ∀ k f : Fin 128, w2 (ix2 k f) = W2 (ix2 k f)) (hb2 : ∀ f : Fin 128, bb2 (ix2 (0 : Fin 1) f) = b2 (ix1 f))
    (i : Fin 2) (f : Fin 128) :
    out0_6 (F := Ideal) a xb w1 bb1 w2 bb2 (ix3 i (0 : Fin 1) f) = Cert.Gcn.out x adj W1 b1 W2 b2 (⟨2 * t.val + i.val, by omega⟩ : Fin 4) f := by
  have hW1 : ∀ k f : Fin 128, View.ld (Val := Elt Ideal) w1 r0_0 (ix2 k f) = W1 (ix2 k f) := fun k f =>
    (ld_whole2 w1 _ rfl rfl _ k f).trans (hw1 k f)
  have hW2 : ∀ k f : Fin 128, View.ld (Val := Elt Ideal) w2 r0_0 (ix2 k f) = W2 (ix2 k f) := fun k f =>
    (ld_whole2 w2 _ rfl rfl _ k f).trans (hw2 k f)
  have hB1 : ∀ f : Fin 128, View.ld (Val := Elt Ideal) bb1 r0_3 (ix2 (0 : Fin 1) f) = b1 (ix1 f) := fun f =>
    (ld_whole2 bb1 _ rfl rfl _ 0 f).trans (hb1 f)
  have hB2 : ∀ f : Fin 128, View.ld (Val := Elt Ideal) bb2 r0_3 (ix2 (0 : Fin 1) f) = b2 (ix1 f) := fun f =>
    (ld_whole2 bb2 _ rfl rfl _ 0 f).trans (hb2 f)
  unfold out0_6
  rcases (show i.val = 0 ∨ i.val = 1 by omega) with hi | hi
  · rw [canon_first _ _ i hi f, pay_first]
    exact net_spec x adj W1 b1 W2 b2 _ _ _ _ _ _ _
      (fun r c => (ld_block a i _ hi.symm rfl rfl _ 0 r c).trans (ha i r c))
      (fun r k => (ld_block xb i _ hi.symm rfl rfl _ 0 r k).trans (hx i r k))
      hW1 hB1 hW2 hB2 0 0 f
  · rw [canon_second _ _ i hi f, pay_second]
    exact net_spec x adj W1 b1 W2 b2 _ _ _ _ _ _ _
      (fun r c => (ld_block a i _ hi.symm rfl rfl _ 0 r c).trans (ha i r c))
      (fun r k => (ld_block xb i _ hi.symm rfl rfl _ 0 r k).trans (hx i r k))
      hW1 hB1 hW2 hB2 0 0 f

end Cert.KernelIdeal.HandValue

end
-- ==== Proof.KerValue.lean ====
/-
  The kernel program's run over the extended reals, with its result array named.

  The pipelined region writes the [4,1,128] array block by block: grid point t (of two) writes rows 2t and 2t+1, each
  the mean over the nodes of the two-layer graph convolution of batch 2t+i. The blocks cover the array, so after the
  region it holds, at (b, 0, f), the dense network's output for batch b and feature f; the host reshape after the
  region drops the unit axis, which gives the [4,128] result. The two bias vectors reach the region through host
  reshapes [128] -> [1,128] that only add a unit axis.
-/
import proofs.«168901_g83915071029568_cont_sun_c4_623_12_alg».proof.Proof.Gen.KernelIdeal.Frame
import proofs.«168901_g83915071029568_cont_sun_c4_623_12_alg».proof.Proof.Spec
import proofs.«168901_g83915071029568_cont_sun_c4_623_12_alg».proof.Proof.KerPayload
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The printed index maps over the grid -/

/-- Decided over the two grid points: the adjacency, feature and output windows move with the point along the batch
    axis and sit at block 0 on the others; the weight and bias windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## The input windows' blocks, read at an index -/

/-- The adjacency block at point t is batches 2t and 2t+1 of the adjacency array. -/
theorem iblk0_apply (c : Dev nD) (t : Fin cfg0.N) (i : Fin 2) (r q : Fin 512) (b : Fin 4) (hb : b.val = 2 * t.val + i.val) :
    (iblk m c 0 t : Vec Ideal S2x512x512 .f32) (ix3 i r q)
      = (m ((c.tc : Thread nD τ).loc main_arg1) : S4x512x512.Idx → EReal) (ix3 b r q) := by
  obtain ⟨e0, e1, e2, -⟩ := idx_facts t
  unfold iblk
  rw [View.read_apply]
  show V m c main_arg1 _ = _
  rw [V_main_arg1]
  show (m ((c.tc : Thread nD τ).loc main_arg1) : S4x512x512.Idx → EReal) _ = _
  congr 1
  funext a
  apply Fin.ext
  match a with
  | ⟨0, _⟩ => show win0_0.index t (0 : Fin 3) * 2 + 1 * i.val = b.val; omega
  | ⟨1, _⟩ => show win0_0.index t (1 : Fin 3) * 512 + 1 * r.val = r.val; omega
  | ⟨2, _⟩ => show win0_0.index t (2 : Fin 3) * 512 + 1 * q.val = q.val; omega

/-- The feature block at point t is batches 2t and 2t+1 of the feature array. -/
theorem iblk1_apply (c : Dev nD) (t : Fin cfg0.N) (i : Fin 2) (r : Fin 512) (k : Fin 128) (b : Fin 4) (hb : b.val = 2 * t.val + i.val) :
    (iblk m c 1 t : Vec Ideal S2x512x128 .f32) (ix3 i r k)
      = (m ((c.tc : Thread nD τ).loc main_arg0) : S4x512x128.Idx → EReal) (ix3 b r k) := by
  obtain ⟨-, -, -, e0, e1, e2, -⟩ := idx_facts t
  unfold iblk
  rw [View.read_apply]
  show V m c main_arg0 _ = _
  rw [V_main_arg0]
  show (m ((c.tc : Thread nD τ).loc main_arg0) : S4x512x128.Idx → EReal) _ = _
  congr 1
  funext a
  apply Fin.ext
  match a with
  | ⟨0, _⟩ => show win0_1.index t (0 : Fin 3) * 2 + 1 * i.val = b.val; omega
  | ⟨1, _⟩ => show win0_1.index t (1 : Fin 3) * 512 + 1 * r.val = r.val; omega
  | ⟨2, _⟩ => show win0_1.index t (2 : Fin 3) * 128 + 1 * k.val = k.val; omega

/-- The first weight window's block is the whole matrix at every point. -/
theorem iblk2_apply (c : Dev nD) (t : Fin cfg0.N) (k f : Fin 128) :
    (iblk m c 2 t : Vec Ideal S128x128 .f32) (ix2 k f)
      = (m ((c.tc : Thread nD τ).loc main_arg2) : S128x128.Idx → EReal) (ix2 k f) := by
  obtain ⟨-, -, -, -, -, -, e0, e1, -⟩ := idx_facts t
  unfold iblk
  rw [View.read_apply]
  show V m c main_arg2 _ = _
  rw [V_main_arg2]
  show (m ((c.tc : Thread nD τ).loc main_arg2) : S128x128.Idx → EReal) _ = _
  congr 1
  funext a
  apply Fin.ext
  match a with
  | ⟨0, _⟩ => show win0_2.index t (0 : Fin 2) * 128 + 1 * k.val = k.val; omega
  | ⟨1, _⟩ => show win0_2.index t (1 : Fin 2) * 128 + 1 * f.val = f.val; omega

/-- The second weight window's block is the whole matrix at every point. -/
theorem iblk4_apply (c : Dev nD) (t : Fin cfg0.N) (k f : Fin 128) :
    (iblk m c 4 t : Vec Ideal S128x128 .f32) (ix2 k f)
      = (m ((c.tc : Thread nD τ).loc main_arg4) : S128x128.Idx → EReal) (ix2 k f) := by
  obtain ⟨-, -, -, -, -, -, -, -, -, -, e0, e1, -⟩ := idx_facts t
  unfold iblk
  rw [View.read_apply]
  show V m c main_arg4 _ = _
  rw [V_main_arg4]
  show (m ((c.tc : Thread nD τ).loc main_arg4) : S128x128.Idx → EReal) _ = _
  congr 1
  funext a
  apply Fin.ext
  match a with
  | ⟨0, _⟩ => show win0_4.index t (0 : Fin 2) * 128 + 1 * k.val = k.val; omega
  | ⟨1, _⟩ => show win0_4.index t (1 : Fin 2) * 128 + 1 * f.val = f.val; omega

/-! ## The bias windows: host reshapes [128] -> [1,128] before the region -/

/-- The first bias as the region finds it: the argument vector with a unit axis added. -/
theorem V_bias1 (c : Dev nD) :
    (V m c main_call0_v0 : S1x128.Idx → EReal)
      = shapeCast S1x128 (m ((c.tc : Thread nD τ).loc main_arg3) : S128.Idx → EReal) shapeCasts_S128_S1x128 := by
  dsimp only [Gen.V, Gen.V0]
  simp only [Gen.hostOps0, List.flatten_cons, List.flatten_nil, List.append_nil]
  after_results
  rfl

/-- The second bias as the region finds it: the argument vector with a unit axis added. -/
theorem V_bias2 (c : Dev nD) :
    (V m c main_call0_v1 : S1x128.Idx → EReal)
      = shapeCast S1x128 (m ((c.tc : Thread nD τ).loc main_arg5) : S128.Idx → EReal) shapeCasts_S128_S1x128 := by
  dsimp only [Gen.V, Gen.V0]
  simp only [Gen.hostOps0, List.flatten_cons, List.flatten_nil, List.append_nil]
  after_results
  rfl

/-- The first bias window's block is the reshaped bias at every point. -/
theorem iblk3_apply (c : Dev nD) (t : Fin cfg0.N) (f : Fin 128) :
    (iblk m c 3 t : Vec Ideal S1x128 .f32) (ix2 (0 : Fin 1) f)
      = (m ((c.tc : Thread nD τ).loc main_arg3) : S128.Idx → EReal) (ix1 f) := by
  obtain ⟨-, -, -, -, -, -, -, -, e0, e1, -⟩ := idx_facts t
  unfold iblk
  rw [View.read_apply]
  show (V m c main_call0_v0 : S1x128.Idx → EReal) _ = _
  rw [V_bias1]
  refine (congrArg _ ?_).trans (shapeCast_a_1a_apply _ shapeCasts_S128_S1x128 (0 : Fin 1) f)
  funext a
  apply Fin.ext
  match a with
  | ⟨0, _⟩ => show win0_3.index t (0 : Fin 2) * 1 + 1 * 0 = 0; omega
  | ⟨1, _⟩ => show win0_3.index t (1 : Fin 2) * 128 + 1 * f.val = f.val; omega

/-- The second bias window's block is the reshaped bias at every point. -/
theorem iblk5_apply (c : Dev nD) (t : Fin cfg0.N) (f : Fin 128) :
    (iblk m c 5 t : Vec Ideal S1x128 .f32) (ix2 (0 : Fin 1) f)
      = (m ((c.tc : Thread nD τ).loc main_arg5) : S128.Idx → EReal) (ix1 f) := by
  obtain ⟨-, -, -, -, -, -, -, -, -, -, -, -, e0, e1, -⟩ := idx_facts t
  unfold iblk
  rw [View.read_apply]
  show (V m c main_call0_v1 : S1x128.Idx → EReal) _ = _
  rw [V_bias2]
  refine (congrArg _ ?_).trans (shapeCast_a_1a_apply _ shapeCasts_S128_S1x128 (0 : Fin 1) f)
  funext a
  apply Fin.ext
  match a with
  | ⟨0, _⟩ => show win0_5.index t (0 : Fin 2) * 1 + 1 * 0 = 0; omega
  | ⟨1, _⟩ => show win0_5.index t (1 : Fin 2) * 128 + 1 * f.val = f.val; omega

/-! ## From blocks to the array -/

/-- What the region's output array ends holding: at (b, 0, f) the dense network's output for batch b and feature f. -/
abbrev G (x : Cert.Gcn.SX.Idx → EReal) (adj : Cert.Gcn.SA.Idx → EReal) (W1 : Cert.Gcn.SW.Idx → EReal) (b1 : Cert.Gcn.SB.Idx → EReal)
    (W2 : Cert.Gcn.SW.Idx → EReal) (b2 : Cert.Gcn.SB.Idx → EReal) : S4x1x128.Idx → EReal :=
  fun j => Cert.Gcn.out x adj W1 b1 W2 b2 (j 0) (j 2)

/-- What grid point t writes back is block t of that array: rows 2t and 2t+1 are the network's outputs for batches
    2t and 2t+1, by the payload's value on the six input blocks read where the point's rectangles say. -/
theorem flushed_eq (c : Dev nD) (t : Fin cfg0.N) :
    (dats m 0 c).flushed 6 t = ((cfg0.win 6).blk t).view.read (Elt Ideal) (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show (cfg0.win 6).cut (grid0.coords t) ((dats m 0 c).after 6 t) = _
  rw [after0_6]
  have hN : cfg0.N = 2 := N_0
  have ht : t.val < 2 := hN ▸ t.isLt
  obtain ⟨-, -, -, -, -, -, -, -, -, -, -, -, -, -, e0, e1, e2⟩ := idx_facts t
  funext y
  obtain ⟨i, u, f, rfl⟩ : ∃ (i : Fin 2) (u : Fin 1) (f : Fin 128), y = ix3 i u f := ⟨y 0, y 1, y 2, eq_ix3 y⟩
  obtain rfl : u = 0 := Subsingleton.elim _ _
  rw [View.read_apply]
  show out0_6 (iblk m c 0 t) (iblk m c 1 t) (iblk m c 2 t) (iblk m c 3 t) (iblk m c 4 t) (iblk m c 5 t) (ix3 i (0 : Fin 1) f)
    = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 6).blk t).view.emb (ix3 i (0 : Fin 1) f))
  refine (payload_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (⟨t.val, ht⟩ : Fin 2) _ _ _ _ _ _ ?_ ?_ ?_ ?_ ?_ ?_ i f).trans ?_
  · intro i r q; exact iblk0_apply m c t i r q _ rfl
  · intro i r k; exact iblk1_apply m c t i r k _ rfl
  · intro k f; exact iblk2_apply m c t k f
  · intro f; exact iblk3_apply m c t f
  · intro k f; exact iblk4_apply m c t k f
  · intro f; exact iblk5_apply m c t f
  · show Cert.Gcn.out _ _ _ _ _ _ _ _ = Cert.Gcn.out _ _ _ _ _ _ _ _
    congr 1 <;> apply Fin.ext
    · show 2 * t.val + i.val = win0_6.index t (0 : Fin 3) * 2 + 1 * i.val; omega
    · show f.val = win0_6.index t (2 : Fin 3) * 128 + 1 * f.val; omega

/-- An index of the array is in point t's block iff each coordinate is in the block's range on its axis. -/
theorem mem_blk (t : Fin cfg0.N) (i : S4x1x128.Idx) :
    i ∈ ((cfg0.win 6).blk t).view.set ↔ ∀ a : Fin 3, win0_6.index t a * S2x1x128.size a ≤ (i a).val ∧ (i a).val < win0_6.index t a * S2x1x128.size a + S2x1x128.size a := by
  show i ∈ ((View.whole main_call0_v2).slice (win0_6.rect t)).set ↔ _
  rw [View.set_slice_whole, Rect.mem_set_unit]
  exact Iff.rfl

/-- The two blocks cover the array: batch b lies in the block of point b / 2. -/
theorem cover (i : S4x1x128.Idx) : ∃ t : Fin cfg0.N, (cfg0.win 6).flush t = true ∧ i ∈ ((cfg0.win 6).blk t).view.set := by
  have hN : cfg0.N = 2 := N_0
  have h0 : (i 0).val < 4 := (i 0).isLt
  have h1 : (i 1).val < 1 := (i 1).isLt
  have h2 : (i 2).val < 128 := (i 2).isLt
  obtain ⟨t, ht⟩ : ∃ t : Fin cfg0.N, t.val = (i 0).val / 2 := ⟨⟨(i 0).val / 2, by omega⟩, rfl⟩
  obtain ⟨-, -, -, -, -, -, -, -, -, -, -, -, -, -, e0, e1, e2⟩ := idx_facts t
  refine ⟨t, flush0_6 t, ?_⟩
  rw [mem_blk]
  intro a
  match a with
  | ⟨0, _⟩ => show win0_6.index t (0 : Fin 3) * 2 ≤ (i 0).val ∧ (i 0).val < win0_6.index t (0 : Fin 3) * 2 + 2; omega
  | ⟨1, _⟩ => show win0_6.index t (1 : Fin 3) * 1 ≤ (i 1).val ∧ (i 1).val < win0_6.index t (1 : Fin 3) * 1 + 1; omega
  | ⟨2, _⟩ => show win0_6.index t (2 : Fin 3) * 128 ≤ (i 2).val ∧ (i 2).val < win0_6.index t (2 : Fin 3) * 128 + 128; omega

/-- The region's output array after the run. -/
theorem final (c : Dev nD) : (dats m 0 c).arrAt 6 cfg0.N = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 6 (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (fun t _ => flushed_eq m c t) cover

/-! ## The host reshape after the region, and the run -/

/-- The result array: the host reshape [4,1,128] -> [4,128] of the region's output array drops the unit axis. -/
theorem tail_eq (c : Dev nD) :
    Pipeline.afterTail₀ cfgs (dats m) 0 (V0 m) [hostOps1] c main_v0 = Cert.Gcn.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v2)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (Pipeline.withArrays_arr spec0 launch0.win.arr_inj c _ _ 6).trans (final m c)
  funext j
  obtain ⟨b, f, rfl⟩ : ∃ (b : Fin 4) (f : Fin 128), j = ix2 b f := ⟨j 0, j 1, eq_ix2 j⟩
  show shapeCast S4x128 (Pipeline.withArrays (cfgs 0).spec c (V0 m c) (fun w => (dats m 0 c).arrAt w (cfgs 0).N) (Proc.devRef .tc main_call0_v2))
      shapeCasts_S4x1x128_S4x128 (ix2 b f) = _
  rw [e]
  exact shapeCast_apply _ _ _ (ix3 b (0 : Fin 1) f) (by
    rw [Shape.rowMajor_val_three, Shape.rowMajor_val_two]
    show (b.val * 1 + 0) * 128 + f.val = b.val * 128 + f.val
    omega)

/-- THE RUN: every weakly fair execution of the program terminates, and every final state has the result array at the
    dense network's output of the argument arrays, and the argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.Gcn.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v0 (Pipeline.mem_restRefs_of main_v0 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.HandValue

end
-- ==== Proof.RefRunB.lean ====
/-
  The reference program's run. @main is a straight line of host operations: each of its four printed windows is the
  sequence of that window's operations once every call of an outlined function is replaced by the callee's body over the
  call's own buffers (a callee's body is itself a straight line ending in a return, so sequencing it before the rest of
  the caller is, by the monad's associativity, which holds here by computation, the one straight line; a callee's line
  over typed buffers moves its function's values along the equation between a buffer's type and the value's, which at a
  literal buffer is the identity, so the line is the plain operation over that buffer), and the four in order are the
  concatenation. No buffer and no semaphore of the signature is scoped, every operation touches
  TensorCore buffers only and none leaves its result to the machine's choice; so from any memory with zero counters
  every weakly fair execution terminates, and each buffer ends at the fold of the operations' results over the launch
  contents.
-/
import proofs.«168901_g83915071029568_cont_sun_c4_623_12_alg».proof.Proof.RefOpsB

noncomputable section

namespace Cert.ReferenceIdeal.HandRunB

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-! ## @main is the straight line -/

-- one bind per statement: the comparison recurses once per operation of the window; the reductions, gathers and
-- scatters are kept folded meanwhile: their bodies are folds over the operand's elements, which the comparison would
-- otherwise open before it opens the transport around them (the equation never looks inside them)
attribute [local irreducible] Host.reduceWindow Host.reduce Host.gather Host.scatter Host.scatterAdd in
set_option maxRecDepth 65536 in
set_option maxHeartbeats 8000000 in
/-- Window 0 is its 184 operations in order: the callees' bodies unfold at their calls, the records at their fields, a
    callee's closing return followed by the caller's next statement is that statement, and the transport of a value
    along a buffer's type equation is the identity at a literal buffer. -/
theorem part0_eq (c : Dev nD) : main_part0 (F := F) c = seq ops0 := rfl

attribute [local irreducible] Host.reduceWindow Host.reduce Host.gather Host.scatter Host.scatterAdd in
set_option maxRecDepth 65536 in
set_option maxHeartbeats 8000000 in
/-- Window 1 is its 84 operations in order. -/
theorem part1_eq (c : Dev nD) : main_part1 (F := F) c = seq ops1 := rfl

attribute [local irreducible] Host.reduceWindow Host.reduce Host.gather Host.scatter Host.scatterAdd in
set_option maxRecDepth 65536 in
set_option maxHeartbeats 8000000 in
/-- Window 2 is its 86 operations in order. -/
theorem part2_eq (c : Dev nD) : main_part2 (F := F) c = seq ops2 := rfl

set_option maxRecDepth 65536 in
set_option maxHeartbeats 8000000 in
/-- Window 3 is its 25 operations in order. -/
theorem part3_eq (c : Dev nD) : main_part3 (F := F) c = seq ops3 := rfl

/-- @main runs its windows in order, and a concatenation of lines runs them in order. -/
theorem main_eq (c : Dev nD) : main (F := F) c = seq ops := by
  show (main_part0 c >>= fun _ => main_part1 c >>= fun _ => main_part2 c >>= fun _ => main_part3 c)
    = seq (ops0 ++ (ops1 ++ (ops2 ++ ops3)))
  rw [part0_eq, part1_eq, part2_eq, part3_eq, seq_append, seq_append, seq_append]

/-! ## Nothing is scoped -/

set_option maxRecDepth 65536 in
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

set_option maxRecDepth 65536 in
set_option maxHeartbeats 4000000 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 65536 in
set_option maxHeartbeats 4000000 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 65536 in
set_option maxHeartbeats 4000000 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 65536 in
set_option maxHeartbeats 4000000 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

set_option maxRecDepth 65536 in
set_option maxHeartbeats 4000000 in
theorem ops0_fresh : (ops0 : List (HloOp τ sig (Elt F))).Forall fun op => op.fresh = ∅ := by
  simp only [List.Forall]; repeat' constructor
set_option maxRecDepth 65536 in
set_option maxHeartbeats 4000000 in
theorem ops1_fresh : (ops1 : List (HloOp τ sig (Elt F))).Forall fun op => op.fresh = ∅ := by
  simp only [List.Forall]; repeat' constructor
set_option maxRecDepth 65536 in
set_option maxHeartbeats 4000000 in
theorem ops2_fresh : (ops2 : List (HloOp τ sig (Elt F))).Forall fun op => op.fresh = ∅ := by
  simp only [List.Forall]; repeat' constructor
set_option maxRecDepth 65536 in
set_option maxHeartbeats 4000000 in
theorem ops3_fresh : (ops3 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp
    (List.forall_append.mpr ⟨ops0_fresh, List.forall_append.mpr ⟨ops1_fresh, List.forall_append.mpr ⟨ops2_fresh, ops3_fresh⟩⟩⟩)

/-! ## The run -/

/-- On every device, for any float values, from any memory with zero counters: every weakly fair execution of @main
    terminates, and every final state has each TensorCore buffer at the fold of the operations' results over the
    launch contents. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

end Cert.ReferenceIdeal.HandRunB

end
-- ==== Proof.RefPure.lean ====
/-
  The reference program's host operations as pure functions of the six argument arrays, stage by stage:
  the position of every nonzero adjacency entry (a running count, a histogram of the running count, a second running
  count, then the three coordinates by quotient and remainder), the padded edge list with its self-loops, and the two
  normalised graph convolutions followed by the per-batch mean. Each definition composes the operations the printed
  program applies, in the printed order and with the printed dimension records.
-/
import proofs.«168901_g83915071029568_cont_sun_c4_623_12_alg».proof.ReferenceIdeal

noncomputable section

namespace Cert.ReferenceIdeal.Pure

open Idealize.ShloMosaic Cert.ReferenceIdeal
open Cert.ReferenceIdeal.Facts₀ Cert.ReferenceIdeal.Facts

variable [Facts] {F : FTy → Type} [FloatOps F]

/-- The inclusive running sum of a vector of 2^20 words. -/
@[reducible] def cumsum0 (x : IVec S1048576 32) : IVec S1048576 32 :=
  Host.reduceWindow IntOp.addi ![1048576] ![1] ![1048575] ![0] x
    (broadcastInDim S_ ![] bcast_S_S_ (constantI S_ 32 0#32))
    reduceWindows_S1048576_S1048576_w1048576s1p1048575_0 h_S_

/-- Which adjacency entries are nonzero. -/
@[reducible] def mask (adj : FVec F S4x512x512 .f32) : IVec S4x512x512 1 :=
  cmpf .une adj (broadcastInDim S4x512x512 ![] bcast_S_S4x512x512 (constant S_ .f32 0x00000000#32))

/-- The running count of nonzero entries over the flattened adjacency. -/
@[reducible] def runCount (adj : FVec F S4x512x512 .f32) : IVec S1048576 32 :=
  cumsum0 (extui 32 (shapeCast S1048576 (mask adj) shapeCasts_S4x512x512_S1048576) natLt_1_32)

/-- The running count clipped below at zero. -/
@[reducible] def clipped (adj : FVec F S4x512x512 .f32) : IVec S1048576 32 :=
  maxsi (broadcastInDim S1048576 ![] bcast_S_S1048576 (id (constantI S_ 32 0#32))) (runCount adj)

/-- The histogram's scatter positions: a negative position wrapped by the length. -/
@[reducible] def histIdx (adj : FVec F S4x512x512 .f32) : IVec S1048576x1 32 :=
  broadcastInDim S1048576x1 ![0] bcast_S1048576_S1048576x1_0
    (select (cmpi .slt (clipped adj) (broadcastInDim S1048576 ![] bcast_S_S1048576 (constantI S_ 32 0#32)))
      (addi (clipped adj) (broadcastInDim S1048576 ![] bcast_S_S1048576 (constantI S_ 32 1048576#32)))
      (clipped adj))

/-- How many flat positions carry each running-count value. -/
@[reducible] def hist (adj : FVec F S4x512x512 .f32) : IVec S1048576 32 :=
  Host.scatter scatter_S1048576_S1048576x1_S1048576_n_0_0_1 IntOp.addi
    (broadcastInDim S1048576 ![] bcast_S_S1048576 (constantI S_ 32 0#32))
    (histIdx adj)
    (broadcastInDim S1048576 ![] bcast_S_S1048576 (constantI S_ 32 1#32))

/-- Entry k: the flat position of the (k+1)-th nonzero entry (the length, past the last one). -/
@[reducible] def flatPos (adj : FVec F S4x512x512 .f32) : IVec S1048576 32 := cumsum0 (hist adj)

/-- The floored quotient of a vector of words by a scalar word. -/
@[reducible] def floorDiv (a : IVec S1048576 32) (d : IVec S_ 32) : IVec S1048576 32 :=
  select
    (andi (cmpi .ne (signi a) (broadcastInDim S1048576 ![] bcast_S_S1048576 (signi d)))
      (cmpi .ne (Host.remsi a (broadcastInDim S1048576 ![] bcast_S_S1048576 d))
        (broadcastInDim S1048576 ![] bcast_S_S1048576 (constantI S_ 32 0#32))))
    (subi (Host.divsi a (broadcastInDim S1048576 ![] bcast_S_S1048576 d))
      (broadcastInDim S1048576 ![] bcast_S_S1048576 (constantI S_ 32 1#32)))
    (Host.divsi a (broadcastInDim S1048576 ![] bcast_S_S1048576 d))

/-- The divisor a remainder uses: one in place of zero. -/
@[reducible] def safeDiv (d : IVec S_ 32) : IVec S_ 32 :=
  select (cmpi .eq (id d) (constantI S_ 32 0#32)) (constantI S_ 32 1#32) (id d)

/-- The remainder with the divisor's sign, of a vector of words by a scalar word. -/
@[reducible] def floorRem (a : IVec S1048576 32) (d : IVec S_ 32) : IVec S1048576 32 :=
  select
    (andi
      (cmpi .ne
        (cmpi .slt (Host.remsi a (broadcastInDim S1048576 ![] bcast_S_S1048576 (safeDiv d)))
          (broadcastInDim S1048576 ![] bcast_S_S1048576 (constantI S_ 32 0#32)))
        (broadcastInDim S1048576 ![] bcast_S_S1048576 (cmpi .slt (safeDiv d) (constantI S_ 32 0#32))))
      (cmpi .ne (Host.remsi a (broadcastInDim S1048576 ![] bcast_S_S1048576 (safeDiv d)))
        (broadcastInDim S1048576 ![] bcast_S_S1048576 (constantI S_ 32 0#32))))
    (addi (Host.remsi a (broadcastInDim S1048576 ![] bcast_S_S1048576 (safeDiv d)))
      (broadcastInDim S1048576 ![] bcast_S_S1048576 (safeDiv d)))
    (Host.remsi a (broadcastInDim S1048576 ![] bcast_S_S1048576 (safeDiv d)))

/-- The number of nonzero adjacency entries. -/
@[reducible] def count (adj : FVec F S4x512x512 .f32) : IVec S_ 32 :=
  Host.reduce IntOp.addi (extui 32 (mask adj) natLt_1_32) (constantI S_ 32 0#32) reducesTo_S4x512x512_S_d0_1_2 h_S_

/-- Which edge slots lie past the last nonzero entry. -/
@[reducible] def fill (adj : FVec F S4x512x512 .f32) : IVec S1048576 1 :=
  cmpi .sge (iotaInDim S1048576 32 0) (broadcastInDim S1048576 ![] bcast_S_S1048576 (count adj))

/-- A coordinate with the slots past the last nonzero entry set to zero. -/
@[reducible] def filled (adj : FVec F S4x512x512 .f32) (a : IVec S1048576 32) : IVec S1048576 32 :=
  select (fill adj) (broadcastInDim S1048576 ![] bcast_S_S1048576 (id (constantI S_ 32 0#32))) a

/-- The batch, row and column of each edge slot. -/
@[reducible] def batchOf (adj : FVec F S4x512x512 .f32) : IVec S1048576 32 :=
  filled adj (floorRem (floorDiv (flatPos adj) (constantI S_ 32 262144#32)) (constantI S_ 32 4#32))
@[reducible] def rowOf (adj : FVec F S4x512x512 .f32) : IVec S1048576 32 :=
  filled adj (floorRem (floorDiv (flatPos adj) (constantI S_ 32 512#32)) (constantI S_ 32 512#32))
@[reducible] def colOf (adj : FVec F S4x512x512 .f32) : IVec S1048576 32 :=
  filled adj (floorRem (floorDiv (flatPos adj) (constantI S_ 32 1#32)) (constantI S_ 32 512#32))

/-- One for an edge slot holding a nonzero entry, zero past the last. -/
@[reducible] def slotWeight (adj : FVec F S4x512x512 .f32) : FVec F S1048576 .f32 :=
  uitofp .f32 (cmpi .slt (iotaInDim S1048576 32 0) (broadcastInDim S1048576 ![] bcast_S_S1048576 (count adj)))

/-- The source node and the target node of each edge slot. -/
@[reducible] def srcOf (adj : FVec F S4x512x512 .f32) : IVec S1048576 32 :=
  addi (muli (batchOf adj) (broadcastInDim S1048576 ![] bcast_S_S1048576 (constantI S_ 32 512#32))) (rowOf adj)
@[reducible] def dstOf (adj : FVec F S4x512x512 .f32) : IVec S1048576 32 :=
  addi (muli (batchOf adj) (broadcastInDim S1048576 ![] bcast_S_S1048576 (constantI S_ 32 512#32))) (colOf adj)

/-- The edge list with one self-loop per node appended: sources, targets, weights. -/
@[reducible] def srcAll (adj : FVec F S4x512x512 .f32) : IVec S1050624 32 :=
  concatenate S1050624 0 [⟨S1048576, srcOf adj⟩, ⟨S2048, iotaInDim S2048 32 0⟩] concatenates_S1048576_S2048_S1050624_d0
@[reducible] def dstAll (adj : FVec F S4x512x512 .f32) : IVec S1050624 32 :=
  concatenate S1050624 0 [⟨S1048576, dstOf adj⟩, ⟨S2048, iotaInDim S2048 32 0⟩] concatenates_S1048576_S2048_S1050624_d0
@[reducible] def wAll (adj : FVec F S4x512x512 .f32) : FVec F S1050624 .f32 :=
  concatenate S1050624 0 [⟨S1048576, slotWeight adj⟩,
    ⟨S2048, broadcastInDim S2048 ![] bcast_S_S2048 (constant S_ .f32 0x3F800000#32)⟩] concatenates_S1048576_S2048_S1050624_d0

/-- A node index made ready for a gather or scatter over 2048 nodes: a negative one wrapped, as a column. -/
@[reducible] def nodeIdx (i : IVec S1050624 32) : IVec S1050624x1 32 :=
  broadcastInDim S1050624x1 ![0] bcast_S1050624_S1050624x1_0
    (select (cmpi .slt i (broadcastInDim S1050624 ![] bcast_S_S1050624 (constantI S_ 32 0#32)))
      (addi i (broadcastInDim S1050624 ![] bcast_S_S1050624 (constantI S_ 32 2048#32))) i)

/-- The weighted in-degree of every node. -/
@[reducible] def degree (adj : FVec F S4x512x512 .f32) : FVec F S2048 .f32 :=
  Host.scatterAdd scatter_S2048_S1050624x1_S1050624_n_0_0_1
    (broadcastInDim S2048 ![] bcast_S_S2048 (constant S_ .f32 0x00000000#32)) (nodeIdx (dstAll adj)) (wAll adj)

/-- The inverse square root of the degree where it is positive, zero elsewhere. -/
@[reducible] def degInvSqrt (adj : FVec F S4x512x512 .f32) : FVec F S2048 .f32 :=
  select (cmpf .ogt (degree adj) (broadcastInDim S2048 ![] bcast_S_S2048 (constant S_ .f32 0x00000000#32)))
    (Host.rsqrt (maximumf (degree adj) (broadcastInDim S2048 ![] bcast_S_S2048 (constant S_ .f32 0x2B8CBCCC#32))))
    (broadcastInDim S2048 ![] bcast_S_S2048 (id (constant S_ .f32 0x00000000#32)))

/-- The normalisation factor of every edge. -/
@[reducible] def edgeNorm (adj : FVec F S4x512x512 .f32) : FVec F S1050624 .f32 :=
  mulf
    (mulf (Host.gather gather_S2048_S1050624x1_S1050624_n_0_n_n_0_1_1 (degInvSqrt adj) (nodeIdx (srcAll adj)))
      (Host.gather gather_S2048_S1050624x1_S1050624_n_0_n_n_0_1_1 (degInvSqrt adj) (nodeIdx (dstAll adj))))
    (wAll adj)

/-- Rows of a node-feature matrix taken at every edge's source; a source out of range reads the fill value. -/
@[reducible] def takeRows (a : FVec F S2048x128 .f32) (i : IVec S1050624 32) : FVec F S1050624x128 .f32 :=
  select
    (broadcastInDim S1050624x128 ![0] bcast_S1050624_S1050624x128_0
      (Host.reduce IntOp.andi
        (andi (cmpi .sge (nodeIdx i) (broadcastInDim S1050624x1 ![] bcast_S_S1050624x1 (constantI S_ 32 0#32)))
          (cmpi .sle (nodeIdx i)
            (broadcastInDim S1050624x1 ![0, 1] bcast_S1x1_S1050624x1_0_1
              (broadcastInDim S1x1 ![1] bcast_S1_S1x1_1 (constantI S1 32 2047#32)))))
        (constantI S_ 1 1#1) reducesTo_S1050624x1_S1050624_d1 h_S_))
    (Host.gather gather_S2048x128_S1050624x1_S1050624x128_1_0_n_n_0_1_1128 a (nodeIdx i))
    (broadcastInDim S1050624x128 ![] bcast_S_S1050624x128 (constant S_ .f32 0x7FC00000#32))

/-- One graph convolution: project, send along the edges with their factors, accumulate at the targets, add the bias. -/
@[reducible] def conv (adj : FVec F S4x512x512 .f32) (h : FVec F S2048x128 .f32) (W : FVec F S128x128 .f32) (b : FVec F S128 .f32) :
    FVec F S2048x128 .f32 :=
  addf
    (Host.scatterAdd scatter_S2048x128_S1050624x1_S1050624x128_1_0_0_1
      (broadcastInDim S2048x128 ![] bcast_S_S2048x128 (constant S_ .f32 0x00000000#32))
      (nodeIdx (dstAll adj))
      (mulf (takeRows (Host.dotGeneral dot_S2048x128_S128x128_S2048x128_1_0_0_1_n_n none h W) (srcAll adj))
        (broadcastInDim S1050624x128 ![0, 1] bcast_S1050624x1_S1050624x128_0_1
          (broadcastInDim S1050624x1 ![0] bcast_S1050624_S1050624x1_0 (edgeNorm adj)))))
    (broadcastInDim S2048x128 ![0, 1] bcast_S1x128_S2048x128_0_1 (broadcastInDim S1x128 ![1] bcast_S128_S1x128_1 b))

/-- The hidden layer: the first convolution, negative entries set to zero. -/
@[reducible] def hidden (x : FVec F S4x512x128 .f32) (adj : FVec F S4x512x512 .f32) (W1 : FVec F S128x128 .f32) (b1 : FVec F S128 .f32) :
    FVec F S2048x128 .f32 :=
  maximumf (conv adj (shapeCast S2048x128 x shapeCasts_S4x512x128_S2048x128) W1 b1)
    (broadcastInDim S2048x128 ![] bcast_S_S2048x128 (constant S_ .f32 0x00000000#32))

/-- Every node's batch, as a column of scatter positions. -/
@[reducible] def batchIdx : IVec S2048x1 32 :=
  broadcastInDim S2048x1 ![0] bcast_S2048_S2048x1_0
    (shapeCast S2048 (broadcastInDim S4x512 ![0] bcast_S4_S4x512_0 (iotaInDim S4 32 0)) shapeCasts_S4x512_S2048)

/-- The whole reference: the second convolution of the hidden layer, averaged over each batch's nodes. -/
@[reducible] def out (x : FVec F S4x512x128 .f32) (adj : FVec F S4x512x512 .f32) (W1 : FVec F S128x128 .f32) (b1 : FVec F S128 .f32)
    (W2 : FVec F S128x128 .f32) (b2 : FVec F S128 .f32) : FVec F S4x128 .f32 :=
  Host.divf
    (Host.scatterAdd scatter_S4x128_S2048x1_S2048x128_1_0_0_1
      (broadcastInDim S4x128 ![] bcast_S_S4x128 (constant S_ .f32 0x00000000#32)) batchIdx
      (conv adj (hidden x adj W1 b1) W2 b2))
    (broadcastInDim S4x128 ![0, 1] bcast_S4x1_S4x128_0_1
      (broadcastInDim S4x1 ![0] bcast_S4_S4x1_0
        (Host.scatterAdd scatter_S4_S2048x1_S2048_n_0_0_1
          (broadcastInDim S4 ![] bcast_S_S4 (constant S_ .f32 0x00000000#32)) batchIdx
          (broadcastInDim S2048 ![] bcast_S_S2048 (constant S_ .f32 0x3F800000#32)))))

end Cert.ReferenceIdeal.Pure

end
-- ==== Proof.RefRead.lean ====
/-
  The reference program's run, read at its result: after all of @main's host operations the result buffer holds the
  pure composition of the six arguments' contents (the stages of RefPure.lean), and the arguments are unchanged.

  The operations are read window by window. Every buffer is written by exactly one operation and the buffers are
  numbered in program order, so a window writes one range of indices and any other buffer passes through it unchanged.
  Window 0 builds the edge list from the adjacency: its six live results are read at the window's end. Window 1 is read
  over an arbitrary valuation satisfying those six facts, up to the first layer's accumulated messages; windows 2 and 3
  likewise, up to the result. Each reading is one rewriting pass (an operation's result at its own buffer is its
  function's value, at any other buffer what was there), then the earlier facts, then a comparison of two terms that
  agree up to the reducible definitions of the stages.
-/
import proofs.«168901_g83915071029568_cont_sun_c4_623_12_alg».proof.Proof.RefRunB
import proofs.«168901_g83915071029568_cont_sun_c4_623_12_alg».proof.Proof.RefPure

noncomputable section

namespace Cert.ReferenceIdeal.HandRunB

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-! ## Which buffers a window writes

The program's buffers are numbered in program order: the six arguments first, then one buffer per operation. So each
window of operations writes exactly the buffers of one range of indices, and a buffer outside that range keeps its
contents across the window. -/

/-- Every buffer the operation writes is a TensorCore reference whose index lies in `[lo, hi)`. -/
def WritesIn (lo hi : Nat) (op : HloOp τ sig (Elt F)) : Prop :=
  ∀ b ∈ op.writes, ∃ y : Ref sig .tc, b = Proc.devRef .tc y ∧ lo ≤ y.idx.val ∧ y.idx.val < hi

section Builders
variable {lo hi : Nat} (x a b c y : Ref sig .tc)

theorem writesIn_nullary (v : y.ty.Contents (Elt F)) (hy) (h : lo ≤ y.idx.val ∧ y.idx.val < hi) :
    WritesIn lo hi (StableHlo.nullary (τ := τ) y v hy) :=
  fun d hd => ⟨y, by rw [nullary_writes, Finset.mem_singleton] at hd; exact hd, h⟩
theorem writesIn_unary (f : x.ty.Contents (Elt F) → y.ty.Contents (Elt F)) (hx hy) (h : lo ≤ y.idx.val ∧ y.idx.val < hi) :
    WritesIn lo hi (StableHlo.unary (τ := τ) x y f hx hy) :=
  fun d hd => ⟨y, by rw [unary_writes, Finset.mem_singleton] at hd; exact hd, h⟩
theorem writesIn_binary (f : a.ty.Contents (Elt F) → b.ty.Contents (Elt F) → y.ty.Contents (Elt F)) (ha hb hy)
    (h : lo ≤ y.idx.val ∧ y.idx.val < hi) : WritesIn lo hi (StableHlo.binary (τ := τ) a b y f ha hb hy) :=
  fun d hd => ⟨y, by rw [binary_writes, Finset.mem_singleton] at hd; exact hd, h⟩
theorem writesIn_ternary (f : c.ty.Contents (Elt F) → a.ty.Contents (Elt F) → b.ty.Contents (Elt F) → y.ty.Contents (Elt F))
    (hc ha hb hy) (h : lo ≤ y.idx.val ∧ y.idx.val < hi) :
    WritesIn lo hi (StableHlo.ternary (τ := τ) c a b y f hc ha hb hy) :=
  fun d hd => ⟨y, by rw [ternary_writes, Finset.mem_singleton] at hd; exact hd, h⟩
theorem writesIn_reshape (he hn hx hy) (h : lo ≤ y.idx.val ∧ y.idx.val < hi) :
    WritesIn lo hi (StableHlo.reshape (τ := τ) (Val := Elt F) x y he hn hx hy) :=
  fun d hd => ⟨y, by rw [reshape_writes, Finset.mem_singleton] at hd; exact hd, h⟩

end Builders

/-- A buffer whose index is outside the range a line of operations writes keeps its contents across the line. -/
theorem after_pass {lo hi : Nat} (l : List (HloOp τ sig (Elt F))) (hl : l.Forall (WritesIn lo hi))
    (V : Valuation τ sig (Elt F)) (r : Ref sig .tc) (hr : ¬ (lo ≤ r.idx.val ∧ r.idx.val < hi)) :
    StableHlo.after l V (Proc.devRef .tc r) = V (Proc.devRef .tc r) :=
  StableHlo.after_of_forall_not_mem l V fun op hop hd => by
    obtain ⟨y, hy, h⟩ := (List.forall_iff_forall_mem.mp hl) op hop _ hd
    rw [Proc.devRef_injective _ hy] at hr
    exact hr h

/-- Splits a `Forall` over a literal line into its operations and closes each by its builder's lemma, the index
    bounds by computation. -/
macro "writes_in" : tactic => `(tactic|
  repeat (first
    | refine And.intro ?_ ?_
    | exact writesIn_unary _ _ _ _ _ (by decide)
    | exact writesIn_binary _ _ _ _ _ _ _ (by decide)
    | exact writesIn_nullary _ _ _ (by decide)
    | exact writesIn_ternary _ _ _ _ _ _ _ _ _ (by decide)
    | exact writesIn_reshape _ _ _ _ _ _ (by decide)))

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-! ## Two pieces end to end

An operation that lays two vectors end to end is printed with its operands inside the list of pieces, where the
rewriting pass does not reach; named as a function of the two vectors it is an ordinary application. -/

/-- Two float vectors end to end: 2^20 edge slots, then 2048 self-loops. -/
@[reducible] def cat2F (a : (⟨S1048576, .f32⟩ : BufTy).Contents (Elt F)) (b : (⟨S2048, .f32⟩ : BufTy).Contents (Elt F)) :
    (⟨S1050624, .f32⟩ : BufTy).Contents (Elt F) :=
  concatenate S1050624 0 [⟨S1048576, a⟩, ⟨S2048, b⟩] concatenates_S1048576_S2048_S1050624_d0
/-- Two word vectors end to end. -/
@[reducible] def cat2I (a : (⟨S1048576, .i32⟩ : BufTy).Contents (Elt F)) (b : (⟨S2048, .i32⟩ : BufTy).Contents (Elt F)) :
    (⟨S1050624, .i32⟩ : BufTy).Contents (Elt F) :=
  concatenate S1050624 0 [⟨S1048576, a⟩, ⟨S2048, b⟩] concatenates_S1048576_S2048_S1050624_d0

theorem cat2F_eq : ((fun a b => concatenate S1050624 0 [⟨S1048576, a⟩, ⟨S2048, b⟩] concatenates_S1048576_S2048_S1050624_d0) :
    (⟨S1048576, .f32⟩ : BufTy).Contents (Elt F) → (⟨S2048, .f32⟩ : BufTy).Contents (Elt F) → (⟨S1050624, .f32⟩ : BufTy).Contents (Elt F))
    = cat2F := rfl
theorem cat2I_eq : ((fun a b => concatenate S1050624 0 [⟨S1048576, a⟩, ⟨S2048, b⟩] concatenates_S1048576_S2048_S1050624_d0) :
    (⟨S1048576, .i32⟩ : BufTy).Contents (Elt F) → (⟨S2048, .i32⟩ : BufTy).Contents (Elt F) → (⟨S1050624, .i32⟩ : BufTy).Contents (Elt F))
    = cat2I := rfl

/-- One pass over a line of operations read at a buffer: each operation's result at its own buffer becomes its
    function's value, at any other buffer what was there (the buffers told apart by computation), the two-piece
    concatenations named first. -/
macro "read_results" : tactic =>
  `(tactic| (simp (disch := decide) only [after_cons, after_nil, cat2F_eq, cat2I_eq,
      nullary_result', unary_result', binary_result', ternary_result', reshape_result',
      nullary_result_ne', unary_result_ne', binary_result_ne', ternary_result_ne', reshape_result_ne']))

-- the comparisons below are between terms that agree up to the reducible definitions of the pure stages and the
-- shapes of literal buffers; the accumulating host operations are never opened
attribute [local irreducible] Host.reduceWindow Host.reduce Host.gather Host.scatter Host.scatterAdd

set_option maxRecDepth 100000 in
theorem ops0_writes : (ops0 : List (HloOp τ sig (Elt F))).Forall (WritesIn 6 190) := by
  unfold ops0
  writes_in

/-! ## Window 0: the edge list

Each stage buffer of the window read at the window's end: one pass rewrites every operation's result at its own
buffer to its function's value and at any other buffer to what was there; what is left is the stage's pure term. -/

section Window0
variable (V : Valuation τ sig (Elt F))

set_option maxRecDepth 100000 in
set_option maxHeartbeats 40000000 in
theorem w0_v41 : StableHlo.after ops0 V (Proc.devRef .tc main_v41) = Pure.srcAll (V (Proc.devRef .tc main_arg1)) := by
  read_results <;> rfl

set_option maxRecDepth 100000 in
set_option maxHeartbeats 40000000 in
theorem w0_v40 : StableHlo.after ops0 V (Proc.devRef .tc main_v40) = iotaInDim S2048 32 0 := by
  read_results <;> rfl

set_option maxRecDepth 100000 in
set_option maxHeartbeats 40000000 in
theorem w0_v39 : StableHlo.after ops0 V (Proc.devRef .tc main_v39)
    = shapeCast S2048x128 (V (Proc.devRef .tc main_arg0)) shapeCasts_S4x512x128_S2048x128 := by
  read_results <;> rfl

set_option maxRecDepth 100000 in
set_option maxHeartbeats 40000000 in
theorem w0_v38 : StableHlo.after ops0 V (Proc.devRef .tc main_v38) = Pure.dstOf (V (Proc.devRef .tc main_arg1)) := by
  read_results <;> rfl

set_option maxRecDepth 100000 in
set_option maxHeartbeats 40000000 in
theorem w0_v35 : StableHlo.after ops0 V (Proc.devRef .tc main_v35) = Pure.srcOf (V (Proc.devRef .tc main_arg1)) := by
  read_results <;> rfl

set_option maxRecDepth 100000 in
set_option maxHeartbeats 40000000 in
theorem w0_v32 : StableHlo.after ops0 V (Proc.devRef .tc main_v32) = Pure.slotWeight (V (Proc.devRef .tc main_arg1)) := by
  read_results <;> rfl

end Window0

set_option maxRecDepth 100000 in
theorem ops1_writes : (ops1 : List (HloOp τ sig (Elt F))).Forall (WritesIn 190 274) := by
  unfold ops1
  writes_in

set_option maxRecDepth 100000 in
theorem ops2_writes : (ops2 : List (HloOp τ sig (Elt F))).Forall (WritesIn 274 360) := by
  unfold ops2
  writes_in

set_option maxRecDepth 100000 in
theorem ops3_writes : (ops3 : List (HloOp τ sig (Elt F))).Forall (WritesIn 360 385) := by
  unfold ops3
  writes_in

/-! ## Window 1: the first layer's accumulated messages -/

/-- The messages of one graph convolution accumulated at their targets, before the bias is added. -/
@[reducible] def convSum (adj : FVec F S4x512x512 .f32) (h : FVec F S2048x128 .f32) (W : FVec F S128x128 .f32) :
    FVec F S2048x128 .f32 :=
  Host.scatterAdd scatter_S2048x128_S1050624x1_S1050624x128_1_0_0_1
    (broadcastInDim S2048x128 ![] bcast_S_S2048x128 (constant S_ .f32 0x00000000#32))
    (Pure.nodeIdx (Pure.dstAll adj))
    (mulf (Pure.takeRows (Host.dotGeneral dot_S2048x128_S128x128_S2048x128_1_0_0_1_n_n none h W) (Pure.srcAll adj))
      (broadcastInDim S1050624x128 ![0, 1] bcast_S1050624x1_S1050624x128_0_1
        (broadcastInDim S1050624x1 ![0] bcast_S1050624_S1050624x1_0 (Pure.edgeNorm adj))))

set_option maxRecDepth 100000 in
set_option maxHeartbeats 40000000 in
theorem w1_v87 (V : Valuation τ sig (Elt F)) :
    StableHlo.after ops1 (StableHlo.after ops0 V) (Proc.devRef .tc main_v87)
      = convSum (V (Proc.devRef .tc main_arg1))
          (shapeCast S2048x128 (V (Proc.devRef .tc main_arg0)) shapeCasts_S4x512x128_S2048x128)
          (V (Proc.devRef .tc main_arg2)) := by
  have e41 := w0_v41 V
  have e40 := w0_v40 V
  have e39 := w0_v39 V
  have e38 := w0_v38 V
  have e32 := w0_v32 V
  have ea2 := after_pass ops0 ops0_writes V main_arg2 (by decide)
  generalize StableHlo.after ops0 V = W at e41 e40 e39 e38 e32 ea2 ⊢
  read_results
  simp only [e41, e40, e39, e38, e32, ea2] <;> rfl

/-! ## Windows 2 and 3: the second layer and the mean -/

set_option maxRecDepth 100000 in
set_option maxHeartbeats 40000000 in
theorem after_out (V : Valuation τ sig (Elt F)) :
    StableHlo.after ops V (Proc.devRef .tc main_v155)
      = Pure.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  show StableHlo.after (ops0 ++ (ops1 ++ (ops2 ++ ops3))) V _ = _
  rw [after_app, after_app, after_app]
  have e87 := w1_v87 V
  have e35 := (after_pass ops1 ops1_writes (StableHlo.after ops0 V) main_v35 (by decide)).trans (w0_v35 V)
  have e38 := (after_pass ops1 ops1_writes (StableHlo.after ops0 V) main_v38 (by decide)).trans (w0_v38 V)
  have e32 := (after_pass ops1 ops1_writes (StableHlo.after ops0 V) main_v32 (by decide)).trans (w0_v32 V)
  have ea3 := (after_pass ops1 ops1_writes (StableHlo.after ops0 V) main_arg3 (by decide)).trans
    (after_pass ops0 ops0_writes V main_arg3 (by decide))
  have ea4 := (after_pass ops1 ops1_writes (StableHlo.after ops0 V) main_arg4 (by decide)).trans
    (after_pass ops0 ops0_writes V main_arg4 (by decide))
  have ea5 := (after_pass ops1 ops1_writes (StableHlo.after ops0 V) main_arg5 (by decide)).trans
    (after_pass ops0 ops0_writes V main_arg5 (by decide))
  generalize StableHlo.after ops1 (StableHlo.after ops0 V) = W at e87 e35 e38 e32 ea3 ea4 ea5 ⊢
  read_results
  simp only [e87, e35, e38, e32, ea3, ea4, ea5] <;> rfl

/-! ## The arguments -/

/-- No operation writes one of the six arguments. -/
theorem after_arg (V : Valuation τ sig (Elt F)) (r : Ref sig .tc) (hr : r.idx.val < 6) :
    StableHlo.after ops V (Proc.devRef .tc r) = V (Proc.devRef .tc r) := by
  show StableHlo.after (ops0 ++ (ops1 ++ (ops2 ++ ops3))) V _ = _
  rw [after_app, after_app, after_app,
    after_pass ops3 ops3_writes _ r (by omega), after_pass ops2 ops2_writes _ r (by omega),
    after_pass ops1 ops1_writes _ r (by omega), after_pass ops0 ops0_writes _ r (by omega)]

theorem after_arg0 (V : Valuation τ sig (Elt F)) :
    StableHlo.after ops V (Proc.devRef .tc main_arg0) = V (Proc.devRef .tc main_arg0) := after_arg V main_arg0 (by decide)
theorem after_arg1 (V : Valuation τ sig (Elt F)) :
    StableHlo.after ops V (Proc.devRef .tc main_arg1) = V (Proc.devRef .tc main_arg1) := after_arg V main_arg1 (by decide)
theorem after_arg2 (V : Valuation τ sig (Elt F)) :
    StableHlo.after ops V (Proc.devRef .tc main_arg2) = V (Proc.devRef .tc main_arg2) := after_arg V main_arg2 (by decide)
theorem after_arg3 (V : Valuation τ sig (Elt F)) :
    StableHlo.after ops V (Proc.devRef .tc main_arg3) = V (Proc.devRef .tc main_arg3) := after_arg V main_arg3 (by decide)
theorem after_arg4 (V : Valuation τ sig (Elt F)) :
    StableHlo.after ops V (Proc.devRef .tc main_arg4) = V (Proc.devRef .tc main_arg4) := after_arg V main_arg4 (by decide)
theorem after_arg5 (V : Valuation τ sig (Elt F)) :
    StableHlo.after ops V (Proc.devRef .tc main_arg5) = V (Proc.devRef .tc main_arg5) := after_arg V main_arg5 (by decide)

/-! ## The run -/

/-- On every device, for any float values, from any memory with zero counters: every weakly fair execution of @main
    terminates with the result buffer at the pure composition of the six arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v155)
        = Pure.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v155).trans (after_out _), (h c main_arg0).trans (after_arg0 _),
      (h c main_arg1).trans (after_arg1 _), (h c main_arg2).trans (after_arg2 _), (h c main_arg3).trans (after_arg3 _),
      (h c main_arg4).trans (after_arg4 _), (h c main_arg5).trans (after_arg5 _)⟩)
    (run_after m ρ)

end Cert.ReferenceIdeal.HandRunB

end
-- ==== Proof.Nonzero.lean ====
/-
  Counting the marked positions of a finite line, and finding the k-th of them by counting.

  For a decidable property p of the positions 0 .. n-1: rank p j counts the marked positions up to and including j,
  total p counts all of them, and nth p k counts the positions whose rank is at most k. Because the rank rises by one
  exactly at the marked positions, nth p k is the position of the (k+1)-th marked one when there is one, and n otherwise.
-/
import Idealize.ShloMosaic.Lib.ValueIdx

namespace Cert.Nonzero

open Finset

variable {n : ℕ} (p : Fin n → Prop) [DecidablePred p]

/-- How many marked positions lie at or before j. -/
def rank (j : Fin n) : ℕ := (univ.filter fun i : Fin n => i ≤ j ∧ p i).card

/-- How many positions are marked. -/
def total : ℕ := (univ.filter p).card

/-- How many positions have rank at most k. -/
def nth (k : ℕ) : ℕ := (univ.filter fun j : Fin n => rank p j ≤ k).card

theorem rank_le_total (j : Fin n) : rank p j ≤ total p := by
  unfold rank total
  apply card_le_card
  intro i hi
  rw [mem_filter] at hi ⊢
  exact ⟨hi.1, hi.2.2⟩

theorem rank_mono {i j : Fin n} (h : i ≤ j) : rank p i ≤ rank p j := by
  unfold rank
  apply card_le_card
  intro a ha
  rw [mem_filter] at ha ⊢
  exact ⟨ha.1, le_trans ha.2.1 h, ha.2.2⟩

theorem rank_lt_of_lt {i j : Fin n} (h : i < j) (hj : p j) : rank p i < rank p j := by
  unfold rank
  apply card_lt_card
  rw [ssubset_iff_of_subset]
  · refine ⟨j, ?_, ?_⟩
    · rw [mem_filter]; exact ⟨mem_univ _, le_refl _, hj⟩
    · rw [mem_filter]; intro hh; exact absurd hh.2.1 (not_le.2 h)
  · intro a ha
    rw [mem_filter] at ha ⊢
    exact ⟨ha.1, le_trans ha.2.1 (le_of_lt h), ha.2.2⟩

theorem rank_pos {j : Fin n} (hj : p j) : 1 ≤ rank p j := by
  unfold rank
  apply card_pos.2
  exact ⟨j, by rw [mem_filter]; exact ⟨mem_univ _, le_refl _, hj⟩⟩

/-- A set of positions closed under going down is an initial segment, of length its cardinality. -/
theorem mem_iff_lt_card (S : Finset (Fin n)) (hS : ∀ i j : Fin n, i ≤ j → j ∈ S → i ∈ S) (j : Fin n) :
    j ∈ S ↔ j.val < S.card := by
  constructor
  · intro hj
    have hsub : Iic j ⊆ S := fun i hi => hS i j (mem_Iic.1 hi) hj
    have h1 := card_le_card hsub
    rw [Fin.card_Iic] at h1
    omega
  · intro hlt
    by_contra hj
    have hsub : S ⊆ Iio j := fun i hi => mem_Iio.2 (lt_of_not_ge fun hji => hj (hS j i hji hi))
    have h1 := card_le_card hsub
    rw [Fin.card_Iio] at h1
    omega

/-- The positions of rank at most k are exactly those before nth k. -/
theorem rank_le_iff (k : ℕ) (j : Fin n) : rank p j ≤ k ↔ j.val < nth p k := by
  have h := mem_iff_lt_card (univ.filter fun j : Fin n => rank p j ≤ k)
    (fun i j hij hj => by
      rw [mem_filter] at hj ⊢
      exact ⟨mem_univ _, le_trans (rank_mono p hij) hj.2⟩) j
  rw [mem_filter] at h
  unfold nth
  rw [← h]
  simp

theorem nth_le (k : ℕ) : nth p k ≤ n := by
  unfold nth
  calc _ ≤ (univ : Finset (Fin n)).card := card_le_card (filter_subset _ _)
    _ = n := by rw [card_univ, Fintype.card_fin]

/-- The rank at j is the number of marked positions strictly before j, plus one when j is marked. -/
theorem rank_eq_add (j : Fin n) :
    rank p j = (univ.filter fun i : Fin n => i < j ∧ p i).card + (if p j then 1 else 0) := by
  unfold rank
  by_cases hj : p j
  · rw [if_pos hj]
    have : (univ.filter fun i : Fin n => i ≤ j ∧ p i) = insert j (univ.filter fun i : Fin n => i < j ∧ p i) := by
      ext a
      rw [mem_insert, mem_filter, mem_filter]
      constructor
      · rintro ⟨-, h1, h2⟩
        rcases eq_or_lt_of_le h1 with h | h
        · exact Or.inl h
        · exact Or.inr ⟨mem_univ _, h, h2⟩
      · rintro (h | ⟨-, h1, h2⟩)
        · subst h; exact ⟨mem_univ _, le_refl _, hj⟩
        · exact ⟨mem_univ _, le_of_lt h1, h2⟩
    rw [this, card_insert_of_notMem]
    rw [mem_filter]; intro hh; exact absurd hh.2.1 (lt_irrefl _)
  · rw [if_neg hj, Nat.add_zero]
    congr 1
    ext a
    rw [mem_filter, mem_filter]
    constructor
    · rintro ⟨-, h1, h2⟩
      rcases eq_or_lt_of_le h1 with h | h
      · subst h; exact absurd h2 hj
      · exact ⟨mem_univ _, h, h2⟩
    · rintro ⟨-, h1, h2⟩
      exact ⟨mem_univ _, le_of_lt h1, h2⟩

/-- If every earlier position has rank at most k, at most k marked positions come strictly before j. -/
theorem before_le (k : ℕ) (j : Fin n) (h : ∀ i : Fin n, i < j → rank p i ≤ k) :
    (univ.filter fun i : Fin n => i < j ∧ p i).card ≤ k := by
  rcases Nat.eq_zero_or_pos j.val with h0 | hpos
  · have : (univ.filter fun i : Fin n => i < j ∧ p i) = ∅ := by
      apply filter_eq_empty_iff.2
      intro a _ ha
      have := Fin.lt_def.1 ha.1
      omega
    rw [this, card_empty]; exact Nat.zero_le _
  · have hlt : j.val - 1 < n := by have := j.isLt; omega
    have hpred : (⟨j.val - 1, hlt⟩ : Fin n) < j := by rw [Fin.lt_def]; show j.val - 1 < j.val; omega
    have := h ⟨j.val - 1, hlt⟩ hpred
    refine le_trans (le_of_eq ?_) this
    unfold rank
    congr 1
    ext a
    rw [mem_filter, mem_filter]
    constructor
    · rintro ⟨-, h1, h2⟩
      refine ⟨mem_univ _, ?_, h2⟩
      rw [Fin.le_def]; show a.val ≤ j.val - 1
      have := Fin.lt_def.1 h1; omega
    · rintro ⟨-, h1, h2⟩
      refine ⟨mem_univ _, ?_, h2⟩
      rw [Fin.lt_def]
      have : a.val ≤ j.val - 1 := Fin.le_def.1 h1
      omega

theorem nth_lt (k : ℕ) (hk : k < total p) : nth p k < n := by
  rcases Nat.lt_or_ge (nth p k) n with h | h
  · exact h
  · exfalso
    have hall : ∀ j : Fin n, rank p j ≤ k := fun j => (rank_le_iff p k j).2 (lt_of_lt_of_le j.isLt h)
    have hpos : 0 < total p := by omega
    obtain ⟨a, ha⟩ := card_pos.1 hpos
    have hn : n - 1 < n := by have := a.isLt; omega
    have hlast := hall ⟨n - 1, hn⟩
    have : rank p ⟨n - 1, hn⟩ = total p := by
      unfold rank total
      congr 1
      ext i
      rw [mem_filter, mem_filter]
      constructor
      · rintro ⟨-, -, h2⟩; exact ⟨mem_univ _, h2⟩
      · rintro ⟨-, h2⟩
        refine ⟨mem_univ _, ?_, h2⟩
        rw [Fin.le_def]; show i.val ≤ n - 1
        have := i.isLt; omega
    omega

/-- Below the total, nth k is a marked position and exactly k marked positions precede it. -/
theorem nth_spec (k : ℕ) (hk : k < total p) :
    p ⟨nth p k, nth_lt p k hk⟩ ∧ rank p ⟨nth p k, nth_lt p k hk⟩ = k + 1 := by
  have hq := nth_lt p k hk
  have hge : ¬ rank p ⟨nth p k, hq⟩ ≤ k := by
    rw [rank_le_iff]; exact lt_irrefl _
  have hbefore := before_le p k ⟨nth p k, hq⟩ (fun i hi => (rank_le_iff p k i).2 (Fin.lt_def.1 hi))
  have hadd := rank_eq_add p ⟨nth p k, hq⟩
  by_cases hp : p ⟨nth p k, hq⟩
  · rw [if_pos hp] at hadd
    exact ⟨hp, by omega⟩
  · rw [if_neg hp] at hadd
    omega

/-- From the total on, nth k is the length of the line. -/
theorem nth_of_ge (k : ℕ) (hk : total p ≤ k) : nth p k = n := by
  unfold nth
  rw [filter_true_of_mem (fun j _ => le_trans (rank_le_total p j) hk), card_univ, Fintype.card_fin]

/-- Every marked position is the nth of its own rank less one. -/
theorem nth_rank (j : Fin n) (hj : p j) : 1 ≤ rank p j ∧ rank p j - 1 < total p ∧ nth p (rank p j - 1) = j.val := by
  have h1 := rank_pos p hj
  have h2 := rank_le_total p j
  refine ⟨h1, by omega, ?_⟩
  have hnot : ¬ j.val < nth p (rank p j - 1) := by
    rw [← rank_le_iff]; omega
  rcases Nat.lt_or_ge (nth p (rank p j - 1)) j.val with hlt | hge
  · exfalso
    have hq : nth p (rank p j - 1) < n := lt_trans hlt j.isLt
    have hqj : (⟨nth p (rank p j - 1), hq⟩ : Fin n) < j := Fin.lt_def.2 hlt
    have h3 := rank_lt_of_lt p hqj hj
    have h4 : rank p ⟨nth p (rank p j - 1), hq⟩ ≤ rank p j - 1 := by omega
    rw [rank_le_iff] at h4
    exact lt_irrefl _ h4
  · omega

/-- A sum over the marked positions is the sum over k below the total of the term at nth k. -/
theorem sum_nth {M : Type} [AddCommMonoid M] (g : Fin n → M) :
    ∑ k ∈ range (total p), (if h : nth p k < n then g ⟨nth p k, h⟩ else 0) = ∑ j ∈ univ.filter p, g j := by
  refine Finset.sum_bij' (fun k hk => (⟨nth p k, nth_lt p k (mem_range.1 hk)⟩ : Fin n))
    (fun j _ => rank p j - 1) ?_ ?_ ?_ ?_ ?_
  · intro k hk
    rw [mem_filter]
    exact ⟨mem_univ _, (nth_spec p k (mem_range.1 hk)).1⟩
  · intro j hj
    rw [mem_range]
    exact (nth_rank p j (mem_filter.1 hj).2).2.1
  · intro k hk
    show rank p ⟨nth p k, _⟩ - 1 = k
    rw [(nth_spec p k (mem_range.1 hk)).2]; rfl
  · intro j hj
    apply Fin.ext
    exact (nth_rank p j (mem_filter.1 hj).2).2.2
  · intro k hk
    rw [dif_pos (nth_lt p k (mem_range.1 hk))]

end Cert.Nonzero
-- ==== Proof.RefCumsum.lean ====
/-
  The inclusive running sum of 2^20 words, read as natural numbers: while the grand total fits a word, entry j is the
  sum of the entries up to and including j.
-/
import proofs.«168901_g83915071029568_cont_sun_c4_623_12_alg».proof.Proof.RefPure
import proofs.«168901_g83915071029568_cont_sun_c4_623_12_alg».proof.Proof.Spec
import proofs.«168901_g83915071029568_cont_sun_c4_623_12_alg».proof.Proof.Nonzero
import Idealize.ShloMosaic.Lib.ValueIdx
import Mathlib.Algebra.BigOperators.Fin
import Mathlib.Algebra.BigOperators.Intervals
import Mathlib.Algebra.Order.BigOperators.Group.Finset

noncomputable section

namespace Cert.RefInt

open Idealize.ShloMosaic Idealize.ShloMosaic.ValueIdx Cert.ReferenceIdeal Cert.ReferenceIdeal.Pure Cert.Gcn Cert.Nonzero Finset
open Cert.ReferenceIdeal.Facts₀ Cert.ReferenceIdeal.Facts

/-- Folding word addition over a list: as a natural number, the start plus the sum of the words, modulo 2^w. -/
theorem foldl_addi_toNat {α : Type} {w : ℕ} (y : α → BitVec w) (l : List α) (v : BitVec w) :
    (l.foldl (fun r n => IntOp.addi r (y n)) v).toNat = (v.toNat + (l.map fun n => (y n).toNat).sum) % 2 ^ w := by
  induction l generalizing v with
  | nil => simp [Nat.mod_eq_of_lt v.isLt]
  | cons a l ih =>
    rw [List.foldl_cons, ih, List.map_cons, List.sum_cons]
    show ((v + y a).toNat + _) % _ = _
    rw [BitVec.toNat_add, Nat.mod_add_mod, Nat.add_assoc]

/-- A sum over a full window that starts lo = N - 1 places before position j: the terms before the first position
    vanish, and the rest are the positions 0 .. j. -/
theorem sum_range_window (X : ℕ → ℕ) {N lo j : ℕ} (hlo : lo + 1 = N) (hj : j < N) :
    ∑ k ∈ range N, (if lo ≤ j + k then X (j + k - lo) else 0) = ∑ i ∈ range (j + 1), X i := by
  rw [← Finset.sum_range_add_sum_Ico _ (show lo - j ≤ N by omega)]
  rw [Finset.sum_eq_zero (fun k hk => if_neg (by have := mem_range.1 hk; omega)), Nat.zero_add,
    Finset.sum_Ico_eq_sum_range, show N - (lo - j) = j + 1 by omega]
  refine Finset.sum_congr rfl fun i hi => ?_
  have := mem_range.1 hi
  rw [if_pos (by omega)]
  congr 1; omega

/-- The sum over the positions up to j, as a sum over a range of natural numbers. -/
theorem sum_filter_le_eq_range {N : ℕ} (G : Fin N → ℕ) (j : Fin N) :
    ∑ i ∈ univ.filter (fun i : Fin N => i ≤ j), G i
      = ∑ k ∈ range (j.val + 1), (if h : k < N then G ⟨k, h⟩ else 0) := by
  rw [Finset.sum_filter, Finset.sum_fin_eq_sum_range]
  have hsub : range (j.val + 1) ⊆ range N := by
    intro k hk; have := mem_range.1 hk; exact mem_range.2 (by omega)
  rw [← Finset.sum_subset hsub]
  · refine Finset.sum_congr rfl fun k hk => ?_
    have := mem_range.1 hk
    have hk' : k < N := by omega
    rw [dif_pos hk', dif_pos hk', if_pos (by show k ≤ j.val; omega)]
  · intro k hk hnk
    have := mem_range.1 hk
    have hk' : k < N := this
    rw [dif_pos hk', if_neg]
    intro hle; exact hnk (mem_range.2 (by have : k ≤ j.val := hle; omega))

/-- The word at position k as a natural number, zero past the end. -/
def wordAt {N : ℕ} (x : IVec (⟨1, ![N]⟩ : Shape) 32) (k : ℕ) : ℕ :=
  if hk : k < N then (x (ix1 ⟨k, hk⟩)).toNat else 0

/-- A guarded word whose other branch is zero, as a natural number. -/
theorem dite_zero_toNat {P : Prop} {inst : Decidable P} {w : ℕ} (a : P → BitVec w) (b : ℕ)
    (hp : ∀ h : P, (a h).toNat = b) (hn : ¬ P → b = 0) : (if h : P then a h else 0#w).toNat = b := by
  by_cases h : P
  · rw [dif_pos h]; exact hp h
  · rw [dif_neg h, hn h]; simp

/-- The running sum as a windowed reduction: window N, stride 1, N - 1 places of padding in front, the padding and
    the start both zero. While the grand total fits a word, entry j is the sum of the entries up to and including j. -/
theorem reduceWindow_addi_toNat {N lo : ℕ} (hlo : lo + 1 = N) {u : Shape}
    (x : IVec (⟨1, ![N]⟩ : Shape) 32) (init : u.Idx → BitVec 32)
    (h : Shape.ReduceWindows (s := ⟨1, ![N]⟩) ![N] ![1] ![lo] ![0] ⟨1, ![N]⟩) (hu : 0 < u.numel)
    (h0 : init (Shape.Idx.first hu) = 0#32)
    (hx : ∑ i : Fin N, (x (ix1 i)).toNat < 2 ^ 32) (j : Fin N) :
    (Host.reduceWindow (s := ⟨1, ![N]⟩) (t := ⟨1, ![N]⟩) IntOp.addi ![N] ![1] ![lo] ![0] x init h hu (ix1 j)).toNat
      = ∑ i ∈ univ.filter (fun i : Fin N => i ≤ j), (x (ix1 i)).toNat := by
  have hM : (⟨1, ![N]⟩ : Shape).numel = N := by simp [Shape.numel]
  have hrm : ∀ i : Fin (⟨1, ![N]⟩ : Shape).numel,
      (((⟨1, ![N]⟩ : Shape).rowMajor.symm i) 0).val = i.val := by
    intro i
    have e := Shape.rowMajor_val_one (d := ![N]) ((⟨1, ![N]⟩ : Shape).rowMajor.symm i)
    rw [Equiv.apply_symm_apply] at e
    exact e.symm
  unfold Host.reduceWindow
  refine (foldl_addi_toNat _ _ _).trans ?_
  rw [← Fin.sum_univ_def, h0]
  trans ((0#32).toNat + ∑ i : Fin (⟨1, ![N]⟩ : Shape).numel,
      (fun k : ℕ => if lo ≤ j.val + k then wordAt x (j.val + k - lo) else 0) i.val) % 2 ^ 32
  · refine congrArg (fun S => ((0#32).toNat + S) % 2 ^ 32) (Finset.sum_congr rfl fun i _ => ?_)
    have hi := hrm i
    have hiN : i.val < N := lt_of_lt_of_eq i.isLt hM
    refine dite_zero_toNat _ _ (fun hin => ?_) (fun hin => ?_)
    · have h1 : lo ≤ j.val * 1 + (((⟨1, ![N]⟩ : Shape).rowMajor.symm i) 0).val ∧
          j.val * 1 + (((⟨1, ![N]⟩ : Shape).rowMajor.symm i) 0).val - lo < N := hin (0 : Fin 1)
      rw [hi] at h1
      show _ = if lo ≤ j.val + i.val then wordAt x (j.val + i.val - lo) else 0
      rw [if_pos (by omega), wordAt, dif_pos (by omega)]
      refine congrArg (fun z => (x z).toNat) (funext fun a => ?_)
      match a with
      | ⟨0, _⟩ =>
        refine Fin.ext ?_
        show j.val * 1 + (((⟨1, ![N]⟩ : Shape).rowMajor.symm i) 0).val - lo = j.val + i.val - lo
        rw [hi]; omega
    · show (if lo ≤ j.val + i.val then wordAt x (j.val + i.val - lo) else 0) = 0
      refine if_neg fun hc => hin fun a => ?_
      match a with
      | ⟨0, _⟩ =>
        show lo ≤ j.val * 1 + (((⟨1, ![N]⟩ : Shape).rowMajor.symm i) 0).val ∧
          j.val * 1 + (((⟨1, ![N]⟩ : Shape).rowMajor.symm i) 0).val - lo < N
        rw [hi]; omega
  · have hsum : ∑ i : Fin (⟨1, ![N]⟩ : Shape).numel,
          (fun k : ℕ => if lo ≤ j.val + k then wordAt x (j.val + k - lo) else 0) i.val
        = ∑ i ∈ univ.filter (fun i : Fin N => i ≤ j), (x (ix1 i)).toNat := by
      rw [Fin.sum_univ_eq_sum_range (fun k : ℕ => if lo ≤ j.val + k then wordAt x (j.val + k - lo) else 0), hM,
        sum_range_window (wordAt x) hlo j.isLt]
      exact (sum_filter_le_eq_range (fun i => (x (ix1 i)).toNat) j).symm
    rw [hsum]
    simp only [BitVec.toNat_ofNat, Nat.zero_mod, Nat.zero_add]
    exact Nat.mod_eq_of_lt (lt_of_le_of_lt (Finset.sum_le_sum_of_subset (filter_subset _ _)) hx)

variable [Cert.ReferenceIdeal.Facts]

/-- Entry j of the running sum is the sum of the words at positions 0 .. j, as long as all of them together fit a word. -/
theorem cumsum0_toNat (x : IVec S1048576 32) (hx : ∑ i : Fin 1048576, (x (ix1 i)).toNat < 2 ^ 32) (j : Fin 1048576) :
    (cumsum0 x (ix1 j)).toNat = ∑ i ∈ univ.filter (fun i : Fin 1048576 => i ≤ j), (x (ix1 i)).toNat :=
  reduceWindow_addi_toNat (N := 1048576) (lo := 1048575) rfl x _ _ _ rfl hx j

end Cert.RefInt

end
-- ==== Proof.LibScatterFold.lean ====
/-
  The host's one-index scatter as a fold in which each step rewrites at most one entry, read at an entry.

  The host's scatter with body f is a left fold over the update indices in row-major order: update index n names
  at most one entry of the operand (its result index, or none when that falls outside), and the step replaces that
  entry by f applied to it and to update n. For ANY map g from update indices to optional entries:
  an entry no update names keeps the operand's value (foldl_miss); an entry named by exactly one update k of a
  duplicate-free list ends at f (operand's value) (update k) (foldl_hit). With scatter_eq_foldl, which restates the
  host's scatter as that fold for any shapes and dimension numbers, a scatter whose result-index map is injective on
  the updates it keeps is read at an entry by computing that map alone; the fold is never evaluated.
-/
import Idealize.ShloMosaic.PureOps.ShapeOps

namespace Cert.ScatterFold

open Idealize.ShloMosaic

section Fold
variable {ι κ α : Type} [DecidableEq ι]

/-- One step of the fold: update index n rewrites the entry g n names, when it names one. -/
def stepAt (g : κ → Option ι) (f : α → α → α) (upd : κ → α) (r : ι → α) (n : κ) : ι → α :=
  match g n with
  | some i => fun i' => if i' = i then f (r i) (upd n) else r i'
  | none => r

/-- A step whose update names another entry leaves this one alone. -/
theorem stepAt_ne (g : κ → Option ι) (f : α → α → α) (upd : κ → α) (r : ι → α) (n : κ) (i' : ι)
    (h : g n ≠ some i') : stepAt g f upd r n i' = r i' := by
  unfold stepAt
  cases hg : g n with
  | none => rfl
  | some i =>
    have hne : i' ≠ i := fun e => h (by rw [hg, e])
    exact if_neg hne

/-- A step whose update names this entry combines it with the update. -/
theorem stepAt_eq (g : κ → Option ι) (f : α → α → α) (upd : κ → α) (r : ι → α) (n : κ) (i' : ι)
    (h : g n = some i') : stepAt g f upd r n i' = f (r i') (upd n) := by
  unfold stepAt
  cases hg : g n with
  | none => rw [hg] at h; cases h
  | some i =>
    have e : i = i' := Option.some.inj (hg.symm.trans h)
    subst e
    exact if_pos rfl

/-- An entry that no update of the list names is what it was before the fold. -/
theorem foldl_miss (g : κ → Option ι) (f : α → α → α) (upd : κ → α) (i' : ι) :
    ∀ (l : List κ) (x : ι → α), (∀ n ∈ l, g n ≠ some i') → l.foldl (stepAt g f upd) x i' = x i'
  | [], _, _ => rfl
  | a :: t, x, h => by
    rw [List.foldl_cons, foldl_miss g f upd i' t _ (fun n hn => h n (List.mem_cons_of_mem _ hn)),
      stepAt_ne g f upd x a i' (h a (List.mem_cons.2 (Or.inl rfl)))]

/-- An entry that exactly one update k of a duplicate-free list names ends at the body applied once. -/
theorem foldl_hit (g : κ → Option ι) (f : α → α → α) (upd : κ → α) (i' : ι) (k : κ) (hk : g k = some i') :
    ∀ (l : List κ) (x : ι → α), l.Nodup → k ∈ l → (∀ n ∈ l, g n = some i' → n = k) →
      l.foldl (stepAt g f upd) x i' = f (x i') (upd k)
  | [], _, _, hm, _ => absurd hm (by simp)
  | a :: t, x, hnd, hm, huniq => by
    rw [List.foldl_cons]
    have hnd' := List.nodup_cons.1 hnd
    by_cases hak : a = k
    · subst hak
      rw [foldl_miss g f upd i' t _ (fun n hn e => hnd'.1 (huniq n (List.mem_cons_of_mem _ hn) e ▸ hn)),
        stepAt_eq g f upd x a i' hk]
    · have hkt : k ∈ t := (List.mem_cons.1 hm).resolve_left (fun e => hak e.symm)
      rw [foldl_hit g f upd i' k hk t _ hnd'.2 hkt (fun n hn => huniq n (List.mem_cons_of_mem _ hn)),
        stepAt_ne g f upd x a i' (fun e => hak (huniq a (List.mem_cons.2 (Or.inl rfl)) e))]

/-- The host's scatter is this fold over the update indices in row-major order. -/
theorem scatter_eq_foldl {s si u : Shape} {w : Nat} (d : ScatterDims s si u) (f : α → α → α) (x : s.Idx → α)
    (idx : IVec si w) (upd : u.Idx → α) :
    Host.scatter d f x idx upd
      = (List.finRange u.numel).foldl
          (stepAt (fun n => d.resultIdx? (u.rowMajor.symm n) idx) f (fun n => upd (u.rowMajor.symm n))) x := by
  unfold Host.scatter
  refine congrArg (fun F => (List.finRange u.numel).foldl F x) (funext fun r => funext fun n => ?_)
  unfold stepAt
  beta_reduce
  cases d.resultIdx? (u.rowMajor.symm n) idx with
  | none => rfl
  | some i =>
    dsimp only <;> (funext i'; by_cases h : i' = i <;> simp [h])

end Fold

end Cert.ScatterFold
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.RefHist.lean ====
/-
  A histogram by accumulation: ones added into a zero vector of 2^20 words at a column of positions. Entry v counts the
  positions equal to v; a position outside the vector is dropped.

  The accumulation is a fold over the updates in which each step adds the word 1 to at most one entry, so an entry ends
  at the number of steps that named it, as a word; that number is at most 2^20 < 2^32, so the word reads back as the
  number itself. An update names entry v exactly when its position, read signed, is v.
-/
import proofs.«168901_g83915071029568_cont_sun_c4_623_12_alg».proof.Proof.RefPure
import proofs.«168901_g83915071029568_cont_sun_c4_623_12_alg».proof.Proof.Spec
import proofs.«168901_g83915071029568_cont_sun_c4_623_12_alg».proof.Proof.Nonzero
import proofs.«168901_g83915071029568_cont_sun_c4_623_12_alg».proof.Proof.LibScatterFold
import proofs.«168901_g83915071029568_cont_sun_c4_623_12_alg».proof.Proof.LibGatherScatter
import Idealize.ShloMosaic.Lib.ValueIdx

noncomputable section

namespace Cert.RefInt

open Idealize.ShloMosaic Idealize.ShloMosaic.ValueIdx Cert.ReferenceIdeal Cert.ReferenceIdeal.Pure Cert.Gcn Cert.Nonzero Finset
open Cert.ReferenceIdeal.Facts₀ Cert.ReferenceIdeal.Facts

/-- Folding steps that each add the word 1 to the entry they name: an entry ends at its start value plus the number of
    steps that named it, as words. -/
theorem foldl_addi_one {ι κ : Type} [DecidableEq ι] (g : κ → Option ι) (upd : κ → BitVec 32)
    (hupd : ∀ n, upd n = 1#32) (i' : ι) :
    ∀ (l : List κ) (x : ι → BitVec 32),
      l.foldl (Cert.ScatterFold.stepAt g IntOp.addi upd) x i'
        = x i' + BitVec.ofNat 32 (l.countP fun n => decide (g n = some i'))
  | [], x => by simp
  | a :: t, x => by
    rw [List.foldl_cons, foldl_addi_one g upd hupd i' t _]
    by_cases h : g a = some i'
    · rw [Cert.ScatterFold.stepAt_eq g _ upd x a i' h, List.countP_cons_of_pos (by simpa using h), hupd a]
      show x i' + 1#32 + _ = _
      rw [BitVec.ofNat_add, BitVec.add_assoc, BitVec.add_comm (BitVec.ofNat 32 1)]
    · rw [Cert.ScatterFold.stepAt_ne g _ upd x a i' h, List.countP_cons_of_neg (by simpa using h)]

/-- Counting along the list of all numbers below n is the size of the filtered set. -/
theorem countP_finRange (n : Nat) (p : Fin n → Prop) [DecidablePred p] :
    (List.finRange n).countP (fun i => decide (p i)) = (univ.filter p).card := by
  rw [List.countP_eq_length_filter]
  rfl

variable [Cert.ReferenceIdeal.Facts]

/-- Entry v of the histogram is the number of rows whose position, read signed, is v. -/
theorem hist_toNat (idx : IVec S1048576x1 32) (v : Fin 1048576) :
    (Host.scatter scatter_S1048576_S1048576x1_S1048576_n_0_0_1 IntOp.addi
        (broadcastInDim S1048576 ![] bcast_S_S1048576 (constantI S_ 32 0#32)) idx
        (broadcastInDim S1048576 ![] bcast_S_S1048576 (constantI S_ 32 1#32)) (ix1 v)).toNat
      = (univ.filter fun j : Fin 1048576 => (idx (ix2 j (0 : Fin 1))).toInt = (v.val : ℤ)).card := by
  have hvec : ∀ (e : Fin 1048576),
      scatter_S1048576_S1048576x1_S1048576_n_0_0_1.resultIdx? (ix1 e) idx = some (ix1 v)
        ↔ (idx (ix2 e (0 : Fin 1))).toInt = (v.val : ℤ) := fun e =>
    Cert.LibGatherScatter.resultIdx?_vec scatter_S1048576_S1048576x1_S1048576_n_0_0_1 rfl rfl rfl rfl idx e v
  rw [Cert.ScatterFold.scatter_eq_foldl,
    foldl_addi_one (fun n => scatter_S1048576_S1048576x1_S1048576_n_0_0_1.resultIdx? (S1048576.rowMajor.symm n) idx)
      (fun n => broadcastInDim S1048576 ![] bcast_S_S1048576 (constantI S_ 32 1#32) (S1048576.rowMajor.symm n))
      (fun n => rfl),
    countP_finRange]
  have hcard : (univ.filter fun n : Fin S1048576.numel =>
        scatter_S1048576_S1048576x1_S1048576_n_0_0_1.resultIdx? (S1048576.rowMajor.symm n) idx = some (ix1 v)).card
      = (univ.filter fun j : Fin 1048576 => (idx (ix2 j (0 : Fin 1))).toInt = (v.val : ℤ)).card := by
    refine Finset.card_bij' (fun n _ => (S1048576.rowMajor.symm n) 0) (fun j _ => S1048576.rowMajor (ix1 j)) ?_ ?_ ?_ ?_
    · intro n hn
      have h2 := (Finset.mem_filter.1 hn).2
      rw [eq_ix1 (S1048576.rowMajor.symm n)] at h2
      exact Finset.mem_filter.2 ⟨Finset.mem_univ _, (hvec _).1 h2⟩
    · intro j hj
      refine Finset.mem_filter.2 ⟨Finset.mem_univ _, ?_⟩
      rw [Equiv.symm_apply_apply]
      exact (hvec j).2 (Finset.mem_filter.1 hj).2
    · intro n _
      exact (congrArg S1048576.rowMajor (eq_ix1 (S1048576.rowMajor.symm n)).symm).trans (Equiv.apply_symm_apply _ _)
    · intro j _
      exact congrFun (Equiv.symm_apply_apply S1048576.rowMajor (ix1 j)) 0
  rw [hcard]
  have hle : (univ.filter fun j : Fin 1048576 => (idx (ix2 j (0 : Fin 1))).toInt = (v.val : ℤ)).card ≤ 1048576 := by
    refine (Finset.card_filter_le _ _).trans ?_
    rw [Finset.card_univ, Fintype.card_fin]
  show ((0#32 : BitVec 32) + _).toNat = _
  rw [BitVec.zero_add, BitVec.toNat_ofNat]
  exact Nat.mod_eq_of_lt (by omega)

end Cert.RefInt

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.RefIntPos.lean ====
/-
  Where the nonzero adjacency entries are: the running count of the flattened mask is the rank of each position, the
  histogram of the running count followed by a second running count gives, at slot k, the flat position of the (k+1)-th
  nonzero entry (the length of the line past the last one), and the count of nonzero entries is their total.

  The mask word at flat position i is one exactly when the entry at the row-major position i is nonzero, so the running
  count of the words is the rank. The rank never exceeds 2^20, so read signed it is itself, the clip at zero and the wrap
  of negative positions leave it alone, and the histogram at v counts the positions of rank v. The fibres of the rank
  over the values up to k are disjoint and fill the set of positions of rank at most k, whose size is nth k. No sum here
  exceeds 2^20, so no word wraps.
-/
import proofs.«168901_g83915071029568_cont_sun_c4_623_12_alg».proof.Proof.RefPure
import proofs.«168901_g83915071029568_cont_sun_c4_623_12_alg».proof.Proof.Spec
import proofs.«168901_g83915071029568_cont_sun_c4_623_12_alg».proof.Proof.Nonzero
import proofs.«168901_g83915071029568_cont_sun_c4_623_12_alg».proof.Proof.RefCumsum
import proofs.«168901_g83915071029568_cont_sun_c4_623_12_alg».proof.Proof.RefHist
import proofs.«168901_g83915071029568_cont_sun_c4_623_12_alg».proof.Proof.LibBroadcastInDim
import Idealize.ShloMosaic.Lib.IdealHost
import Idealize.ShloMosaic.Lib.StableHlo.Predicate
import Idealize.ShloMosaic.Lib.Pipeline.Value
import Idealize.ShloMosaic.PureOps.Ideal.Laws
import Idealize.ShloMosaic.PureOps.Reduce

noncomputable section

namespace Cert.RefInt

open Idealize.ShloMosaic Idealize.ShloMosaic.ValueIdx Cert.ReferenceIdeal Cert.ReferenceIdeal.Pure Cert.Gcn Cert.Nonzero Finset
open Cert.ReferenceIdeal.Facts₀ Cert.ReferenceIdeal.Facts

variable [Cert.ReferenceIdeal.Facts]

variable (adj : SA.Idx → EReal)

namespace Pos

/-- The mask bit at an entry says whether the entry is nonzero. -/
theorem mask_apply (i : SA.Idx) : mask (F := Ideal) adj i = BitVec.ofBool (decide (adj i ≠ 0)) := by
  show Ideal.cmp .une (adj i) (broadcastInDim S4x512x512 ![] bcast_S_S4x512x512 (constant (F := Ideal) S_ .f32 0x00000000#32) i) = _
  rw [broadcastInDim_scalar_apply, constant_apply, Ideal.ofBits_zero_f32]
  rfl

/-- The flattened mask at position i is the mask at the entry with that row-major position. -/
theorem flatMask_apply (i : Fin 1048576) :
    shapeCast S1048576 (mask (F := Ideal) adj) shapeCasts_S4x512x512_S1048576 (ix1 i) = mask (F := Ideal) adj (unflat i) := by
  refine shapeCast_apply _ _ (ix1 i) (unflat i) ?_
  rw [Shape.rowMajor_val_three, Shape.rowMajor_val_one]
  show (i.val / 262144 * 512 + i.val / 512 % 512) * 512 + i.val % 512 = i.val
  omega

/-- The widened flattened mask, as a number: one at a nonzero entry, zero elsewhere. -/
theorem maskWord_toNat (i : Fin 1048576) :
    (extui 32 (shapeCast S1048576 (mask (F := Ideal) adj) shapeCasts_S4x512x512_S1048576) natLt_1_32 (ix1 i)).toNat
      = if nz adj i then 1 else 0 := by
  rw [extui_apply, flatMask_apply, mask_apply, StableHlo.Predicate.toNat_setWidth_bit]
  unfold nz
  by_cases h : adj (unflat i) ≠ 0
  · simp [h]
  · simp [h]

/-- The widened flattened mask. -/
abbrev maskVec : IVec S1048576 32 :=
  extui 32 (shapeCast S1048576 (mask (F := Ideal) adj) shapeCasts_S4x512x512_S1048576) natLt_1_32

theorem card_fin_filter_le (q : Fin 1048576 → Prop) [DecidablePred q] : (univ.filter q).card ≤ 1048576 := by
  have h := Finset.card_le_univ (univ.filter q)
  rwa [Fintype.card_fin] at h

theorem maskVec_sum_lt : ∑ i : Fin 1048576, (maskVec adj (ix1 i)).toNat < 2 ^ 32 := by
  have e : ∑ i : Fin 1048576, (maskVec adj (ix1 i)).toNat = (univ.filter (nz adj)).card := by
    rw [Finset.card_filter]
    exact Finset.sum_congr rfl fun i _ => maskWord_toNat adj i
  rw [e]
  exact lt_of_le_of_lt (card_fin_filter_le _) (by norm_num)

/-- The running count at flat position j is the rank of j among the nonzero entries. -/
theorem runCount_toNat (j : Fin 1048576) : (runCount (F := Ideal) adj (ix1 j)).toNat = rank (nz adj) j := by
  show (cumsum0 (maskVec adj) (ix1 j)).toNat = _
  rw [cumsum0_toNat (maskVec adj) (maskVec_sum_lt adj) j]
  unfold rank
  rw [Finset.card_filter, Finset.sum_filter]
  refine Finset.sum_congr rfl fun i _ => ?_
  rw [maskWord_toNat]
  by_cases h1 : i ≤ j <;> by_cases h2 : nz adj i <;> simp [h1, h2]

theorem rank_le (j : Fin 1048576) : rank (nz adj) j ≤ 1048576 := by
  unfold rank
  exact card_fin_filter_le _

/-- A word below 2^31 is kept by the signed maximum with zero. -/
theorem maxsi_zero_of_lt (x : BitVec 32) (hx : x.toNat < 2 ^ 31) : IntOp.maxsi 0#32 x = x := by
  have hti : x.toInt = x.toNat := StableHlo.Predicate.toInt_eq_toNat_of_lt hx
  have h0 : (0#32 : BitVec 32).toInt = 0 := by decide
  unfold IntOp.maxsi
  split <;> rename_i hc <;> simp only [BitVec.slt, hti, h0, decide_eq_true_eq] at hc
  all_goals first | rfl | omega

/-- A word below 2^31 is not below zero read signed. -/
theorem cmpi_slt_zero_of_lt (x : BitVec 32) (hx : x.toNat < 2 ^ 31) : IntOp.cmpi .slt x 0#32 = 0#1 := by
  have hti : x.toInt = x.toNat := StableHlo.Predicate.toInt_eq_toNat_of_lt hx
  have h0 : (0#32 : BitVec 32).toInt = 0 := by decide
  have h : x.slt 0#32 = false := by
    simp only [BitVec.slt, hti, h0]
    exact decide_eq_false (by omega)
  show BitVec.ofBool (x.slt 0#32) = 0#1
  rw [h]; rfl

/-- The histogram's scatter position of flat position j is the running count there. -/
theorem histIdx_apply (j : Fin 1048576) : histIdx (F := Ideal) adj (ix2 j (0 : Fin 1)) = runCount (F := Ideal) adj (ix1 j) := by
  have hlt : (runCount (F := Ideal) adj (ix1 j)).toNat < 2 ^ 31 := by
    rw [runCount_toNat]; exact lt_of_le_of_lt (rank_le adj j) (by norm_num)
  have hclip : clipped (F := Ideal) adj (ix1 j) = runCount (F := Ideal) adj (ix1 j) := by
    show IntOp.maxsi (broadcastInDim S1048576 ![] bcast_S_S1048576 (id (constantI S_ 32 0#32)) (ix1 j)) (runCount (F := Ideal) adj (ix1 j)) = _
    rw [broadcastInDim_scalar_apply]
    exact maxsi_zero_of_lt _ hlt
  unfold histIdx
  rw [ValueLayout.bcast_n_n1_apply, select_apply]
  have hc : cmpi .slt (clipped (F := Ideal) adj) (broadcastInDim S1048576 ![] bcast_S_S1048576 (constantI S_ 32 0#32)) (ix1 j) = 0#1 := by
    show IntOp.cmpi .slt (clipped (F := Ideal) adj (ix1 j)) (broadcastInDim S1048576 ![] bcast_S_S1048576 (constantI S_ 32 0#32) (ix1 j)) = 0#1
    rw [broadcastInDim_scalar_apply, hclip]
    exact cmpi_slt_zero_of_lt _ hlt
  rw [hc, select_zero, hclip]

theorem histIdx_toInt (j : Fin 1048576) : (histIdx (F := Ideal) adj (ix2 j (0 : Fin 1))).toInt = (rank (nz adj) j : ℤ) := by
  rw [histIdx_apply]
  have hlt : (runCount (F := Ideal) adj (ix1 j)).toNat < 2 ^ 31 := by
    rw [runCount_toNat]; exact lt_of_le_of_lt (rank_le adj j) (by norm_num)
  rw [StableHlo.Predicate.toInt_eq_toNat_of_lt hlt, runCount_toNat]

/-- Entry v of the histogram counts the flat positions whose rank is v. -/
theorem hist_apply_toNat (v : Fin 1048576) :
    (hist (F := Ideal) adj (ix1 v)).toNat = (univ.filter fun j : Fin 1048576 => rank (nz adj) j = v.val).card := by
  show (Host.scatter scatter_S1048576_S1048576x1_S1048576_n_0_0_1 IntOp.addi
        (broadcastInDim S1048576 ![] bcast_S_S1048576 (constantI S_ 32 0#32)) (histIdx (F := Ideal) adj)
        (broadcastInDim S1048576 ![] bcast_S_S1048576 (constantI S_ 32 1#32)) (ix1 v)).toNat = _
  rw [hist_toNat]
  refine congrArg Finset.card (Finset.filter_congr fun j _ => ?_)
  rw [histIdx_toInt]
  exact Nat.cast_inj

/-- Fibres of a map into the naturals over a set of values: their sizes add up to the size of the preimage. -/
theorem sum_card_fibres {n : ℕ} (r : Fin n → ℕ) (T : Finset (Fin n)) :
    ∑ v ∈ T, (univ.filter fun j : Fin n => r j = v.val).card = (univ.filter fun j : Fin n => ∃ v ∈ T, r j = v.val).card := by
  rw [← Finset.card_biUnion]
  · refine congrArg Finset.card ?_
    ext j
    simp only [Finset.mem_biUnion, Finset.mem_filter, Finset.mem_univ, true_and]
  · intro a _ b _ hab
    refine Finset.disjoint_left.2 fun j ha hb => hab ?_
    have e1 := (Finset.mem_filter.1 ha).2
    have e2 := (Finset.mem_filter.1 hb).2
    exact Fin.ext (e1.symm.trans e2)

/-- Over the values up to k the fibres fill the set where the map is at most k. -/
theorem sum_card_fibres_le {n : ℕ} (r : Fin n → ℕ) (k : Fin n) :
    ∑ v ∈ univ.filter (fun v : Fin n => v ≤ k), (univ.filter fun j : Fin n => r j = v.val).card
      = (univ.filter fun j : Fin n => r j ≤ k.val).card := by
  rw [sum_card_fibres]
  refine congrArg Finset.card (Finset.filter_congr fun j _ => ?_)
  constructor
  · rintro ⟨v, hv, e⟩
    have hvk : v ≤ k := (Finset.mem_filter.1 hv).2
    rw [e]; exact Fin.le_def.1 hvk
  · intro h
    have hk := k.isLt
    have hlt : r j < n := by omega
    exact ⟨⟨r j, hlt⟩, Finset.mem_filter.2 ⟨Finset.mem_univ _, Fin.mk_le_of_le_val h⟩, rfl⟩

/-- All the fibres together have at most as many members as there are positions. -/
theorem sum_card_fibres_univ_le {n : ℕ} (r : Fin n → ℕ) :
    ∑ v : Fin n, (univ.filter fun j : Fin n => r j = v.val).card ≤ n := by
  rw [sum_card_fibres]
  have h := Finset.card_le_univ (univ.filter fun j : Fin n => ∃ v ∈ (univ : Finset (Fin n)), r j = v.val)
  rwa [Fintype.card_fin] at h

theorem hist_sum_lt : ∑ v : Fin 1048576, (hist (F := Ideal) adj (ix1 v)).toNat < 2 ^ 32 := by
  rw [Finset.sum_congr rfl fun v _ => hist_apply_toNat adj v]
  exact lt_of_le_of_lt (sum_card_fibres_univ_le _) (by norm_num)

/-- Slot k of the position vector is nth k of the nonzero entries. -/
theorem flatPos_toNat (k : Fin 1048576) : (flatPos (F := Ideal) adj (ix1 k)).toNat = nth (nz adj) k.val := by
  show (cumsum0 (hist (F := Ideal) adj) (ix1 k)).toNat = _
  rw [cumsum0_toNat (hist (F := Ideal) adj) (hist_sum_lt adj) k]
  rw [Finset.sum_congr rfl fun v _ => hist_apply_toNat adj v, sum_card_fibres_le]
  unfold nth
  rfl

/-- The row-major position of an adjacency entry. -/
def flatOf (i : SA.Idx) : Fin 1048576 :=
  ⟨(i 0).val * 262144 + (i 1).val * 512 + (i 2).val, by
    have h0 : (i 0).val < 4 := (i 0).isLt
    have h1 : (i 1).val < 512 := (i 1).isLt
    have h2 : (i 2).val < 512 := (i 2).isLt
    omega⟩

theorem flatOf_unflat (j : Fin 1048576) : flatOf (unflat j) = j := by
  apply Fin.ext
  show j.val / 262144 * 262144 + j.val / 512 % 512 * 512 + j.val % 512 = j.val
  omega

theorem unflat_flatOf (i : SA.Idx) : unflat (flatOf i) = i := by
  have h0 : (i 0).val < 4 := (i 0).isLt
  have h1 : (i 1).val < 512 := (i 1).isLt
  have h2 : (i 2).val < 512 := (i 2).isLt
  funext a
  match a with
  | ⟨0, _⟩ => exact Fin.ext (show ((i 0).val * 262144 + (i 1).val * 512 + (i 2).val) / 262144 = (i 0).val by omega)
  | ⟨1, _⟩ => exact Fin.ext (show ((i 0).val * 262144 + (i 1).val * 512 + (i 2).val) / 512 % 512 = (i 1).val by omega)
  | ⟨2, _⟩ => exact Fin.ext (show ((i 0).val * 262144 + (i 1).val * 512 + (i 2).val) % 512 = (i 2).val by omega)

/-- The nonzero entries and the nonzero flat positions are equally many. -/
theorem card_nonzero_eq_total : (univ.filter fun i : SA.Idx => adj i ≠ 0).card = total (nz adj) := by
  unfold total
  refine Finset.card_nbij' flatOf unflat ?_ ?_ ?_ ?_
  · intro i hi
    have hi' := (Finset.mem_filter.1 (Finset.mem_coe.1 hi)).2
    refine Finset.mem_coe.2 (Finset.mem_filter.2 ⟨Finset.mem_univ _, ?_⟩)
    show adj (unflat (flatOf i)) ≠ 0
    rw [unflat_flatOf]; exact hi'
  · intro j hj
    have hj' := (Finset.mem_filter.1 (Finset.mem_coe.1 hj)).2
    exact Finset.mem_coe.2 (Finset.mem_filter.2 ⟨Finset.mem_univ _, hj'⟩)
  · intro i _; exact unflat_flatOf i
  · intro j _; exact flatOf_unflat j

/-- The count of nonzero entries is their total. -/
theorem count_toNat : (count (F := Ideal) adj ix0).toNat = total (nz adj) := by
  show (Host.reduce IntOp.addi (extui 32 (mask (F := Ideal) adj) natLt_1_32) (constantI S_ 32 0#32)
    reducesTo_S4x512x512_S_d0_1_2 h_S_ ix0).toNat = _
  rw [Host.reduce_eq_fold]
  have hall : (Finset.univ.filter fun i : S4x512x512.Idx => reducesTo_S4x512x512_S_d0_1_2.drop i = ix0) = Finset.univ :=
    Finset.filter_true_of_mem fun i _ => funext fun a => a.elim0
  rw [hall]
  have hval : ∀ i : S4x512x512.Idx, (extui 32 (mask (F := Ideal) adj) natLt_1_32 i).toNat = if adj i ≠ 0 then 1 else 0 := by
    intro i
    rw [extui_apply, mask_apply, StableHlo.Predicate.toNat_setWidth_bit]
    by_cases h : adj i ≠ 0
    · simp [h]
    · simp [h]
  have hsum : ∑ i : S4x512x512.Idx, (extui 32 (mask (F := Ideal) adj) natLt_1_32 i).toNat = total (nz adj) := by
    rw [Finset.sum_congr rfl fun i _ => hval i, ← Finset.card_filter]
    exact card_nonzero_eq_total adj
  have hlt : ∑ i : S4x512x512.Idx, (extui 32 (mask (F := Ideal) adj) natLt_1_32 i).toNat < 2 ^ 32 := by
    rw [hsum]; unfold total
    exact lt_of_le_of_lt (card_fin_filter_le _) (by norm_num)
  show (Finset.fold IntOp.addi 0#32 (extui 32 (mask (F := Ideal) adj) natLt_1_32) Finset.univ).toNat = _
  rw [StableHlo.Predicate.toNat_fold_addi _ _ hlt, hsum]

end Pos

/-- The running count at flat position j is the rank of j among the nonzero entries. -/
theorem runCount_toNat (j : Fin 1048576) : (runCount (F := Ideal) adj (ix1 j)).toNat = rank (nz adj) j :=
  Pos.runCount_toNat adj j

/-- Slot k of the position vector is nth k of the nonzero entries. -/
theorem flatPos_toNat (k : Fin 1048576) : (flatPos (F := Ideal) adj (ix1 k)).toNat = nth (nz adj) k.val :=
  Pos.flatPos_toNat adj k

/-- The count of nonzero entries is their total. -/
theorem count_toNat : (count (F := Ideal) adj ix0).toNat = total (nz adj) :=
  Pos.count_toNat adj

end Cert.RefInt

end
-- ==== Proof.RefIntEdges.lean ====
/-
  The edge list read off the positions of the nonzero entries: slot k below the total carries the edge from the row's
  node to the column's node of the (k+1)-th nonzero entry, with weight one; every later slot carries the edge 0 -> 0
  with weight zero.

  The coordinates are computed on 32-bit words: a floored quotient and a remainder of the divisor's sign, each written
  as a select around the truncated operation. On a nonnegative dividend and a positive divisor (both below 2^31) the
  truncated operations are the natural-number quotient and remainder and neither correction branch is taken.
-/
import Idealize.ShloMosaic.Lib.StableHlo.Predicate
import Idealize.ShloMosaic.Lib.ValueIdx
import proofs.«168901_g83915071029568_cont_sun_c4_623_12_alg».proof.Proof.RefPure
import proofs.«168901_g83915071029568_cont_sun_c4_623_12_alg».proof.Proof.Spec
import proofs.«168901_g83915071029568_cont_sun_c4_623_12_alg».proof.Proof.Nonzero
import proofs.«168901_g83915071029568_cont_sun_c4_623_12_alg».proof.Proof.RefIntPos

noncomputable section

namespace Cert.RefInt.Edges

open Idealize.ShloMosaic Idealize.ShloMosaic.ValueIdx Idealize.ShloMosaic.StableHlo.Predicate

/-! ### Words: the floored quotient and remainder of small nonnegative words -/

/-- The sign word of a word: 0, 1 or -1. -/
def sgn (x : BitVec 32) : BitVec 32 := if x = 0 then 0 else if x.msb then -1 else 1

/-- The floored quotient of two words, as the select around the truncated quotient. -/
def fdS (a d : BitVec 32) : BitVec 32 :=
  Scalar.select (IntOp.andi (IntOp.cmpi .ne (sgn a) (sgn d)) (IntOp.cmpi .ne (IntOp.remsi .host a d) 0#32))
    (IntOp.subi (IntOp.divsi .host a d) 1#32) (IntOp.divsi .host a d)

/-- The divisor with one in place of zero. -/
def sdS (d : BitVec 32) : BitVec 32 := Scalar.select (IntOp.cmpi .eq d 0#32) 1#32 d

/-- The remainder of the divisor's sign, as the select around the truncated remainder. -/
def frS (a d : BitVec 32) : BitVec 32 :=
  Scalar.select
    (IntOp.andi
      (IntOp.cmpi .ne (IntOp.cmpi .slt (IntOp.remsi .host a (sdS d)) 0#32) (IntOp.cmpi .slt (sdS d) 0#32))
      (IntOp.cmpi .ne (IntOp.remsi .host a (sdS d)) 0#32))
    (IntOp.addi (IntOp.remsi .host a (sdS d)) (sdS d))
    (IntOp.remsi .host a (sdS d))

theorem msb_false_of_lt {a : BitVec 32} (ha : a.toNat < 2 ^ 31) : a.msb = false :=
  BitVec.msb_eq_false_iff_two_mul_lt.mpr (by omega)

theorem not_corner (a d : BitVec 32) (hd0 : 0 < d.toNat) (hd : d.toNat < 2 ^ 31) : ¬ IntOp.SDivCorner a d := by
  intro hc
  rcases hc with hc | ⟨_, hc⟩
  · rw [hc] at hd0; simp at hd0
  · rw [hc] at hd; revert hd; decide

theorem divsi_small (a d : BitVec 32) (ha : a.toNat < 2 ^ 31) (hd0 : 0 < d.toNat) (hd : d.toNat < 2 ^ 31) :
    IntOp.divsi .host a d = BitVec.ofNat 32 (a.toNat / d.toNat) := by
  apply BitVec.eq_of_toNat_eq
  simp only [IntOp.divsi, if_neg (not_corner a d hd0 hd), BitVec.sdiv_eq, msb_false_of_lt ha, msb_false_of_lt hd,
    BitVec.udiv_eq, BitVec.toNat_udiv, BitVec.toNat_ofNat]
  have h1 : a.toNat / d.toNat ≤ a.toNat := Nat.div_le_self _ _
  exact (Nat.mod_eq_of_lt (by omega)).symm

theorem remsi_small (a d : BitVec 32) (ha : a.toNat < 2 ^ 31) (hd0 : 0 < d.toNat) (hd : d.toNat < 2 ^ 31) :
    IntOp.remsi .host a d = BitVec.ofNat 32 (a.toNat % d.toNat) := by
  apply BitVec.eq_of_toNat_eq
  simp only [IntOp.remsi, if_neg (not_corner a d hd0 hd), BitVec.srem_eq, msb_false_of_lt ha, msb_false_of_lt hd,
    BitVec.umod_eq, BitVec.toNat_umod, BitVec.toNat_ofNat]
  have h1 : a.toNat % d.toNat < d.toNat := Nat.mod_lt _ hd0
  exact (Nat.mod_eq_of_lt (by omega)).symm

theorem sgn_pos (d : BitVec 32) (hd0 : 0 < d.toNat) (hd : d.toNat < 2 ^ 31) : sgn d = 1#32 := by
  unfold sgn
  have : d ≠ 0 := by intro h; rw [h] at hd0; simp at hd0
  rw [if_neg this, msb_false_of_lt hd]; rfl

theorem fdS_small (a d : BitVec 32) (ha : a.toNat < 2 ^ 31) (hd0 : 0 < d.toNat) (hd : d.toNat < 2 ^ 31) :
    fdS a d = BitVec.ofNat 32 (a.toNat / d.toNat) := by
  unfold fdS
  have hc : IntOp.andi (IntOp.cmpi .ne (sgn a) (sgn d)) (IntOp.cmpi .ne (IntOp.remsi .host a d) 0#32) = 0#1 := by
    by_cases h0 : a = 0
    · subst h0
      rw [remsi_small _ d ha hd0 hd]
      simp [IntOp.andi, IntOp.cmpi]
    · have ha0 : 0 < a.toNat := by
        rcases Nat.eq_zero_or_pos a.toNat with h | h
        · exact absurd (BitVec.eq_of_toNat_eq (by simpa using h)) h0
        · exact h
      rw [sgn_pos a ha0 ha, sgn_pos d hd0 hd]
      simp [IntOp.andi, IntOp.cmpi]
  rw [hc, select_zero, divsi_small a d ha hd0 hd]

theorem sdS_pos (d : BitVec 32) (hd0 : 0 < d.toNat) : sdS d = d := by
  unfold sdS
  have : d ≠ 0#32 := by intro h; rw [h] at hd0; simp at hd0
  have hc : IntOp.cmpi .eq d 0#32 = 0#1 := eq_zero_of_ne_one (fun h => this (cmpi_eq_iff.mp h))
  rw [hc, select_zero]

theorem slt_zero_small (r : BitVec 32) (hr : r.toNat < 2 ^ 31) : IntOp.cmpi .slt r 0#32 = 0#1 := by
  apply eq_zero_of_ne_one
  intro h
  have := (slt_iff_toNat hr (by decide)).mp h
  simp at this

theorem frS_small (a d : BitVec 32) (ha : a.toNat < 2 ^ 31) (hd0 : 0 < d.toNat) (hd : d.toNat < 2 ^ 31) :
    frS a d = BitVec.ofNat 32 (a.toNat % d.toNat) := by
  unfold frS
  rw [sdS_pos d hd0, remsi_small a d ha hd0 hd]
  have hr : (BitVec.ofNat 32 (a.toNat % d.toNat)).toNat < 2 ^ 31 := by
    rw [BitVec.toNat_ofNat]
    have h1 : a.toNat % d.toNat < d.toNat := Nat.mod_lt _ hd0
    rw [Nat.mod_eq_of_lt (a := a.toNat % d.toNat) (b := 2 ^ 32) (by omega)]; omega
  rw [slt_zero_small _ hr, slt_zero_small d hd]
  have hc : ∀ x : BitVec 1, IntOp.andi (IntOp.cmpi .ne (0#1) (0#1)) x = 0#1 := by
    intro x; simp [IntOp.andi, IntOp.cmpi]
  rw [hc, select_zero]

/-- A node word: batch times 512 plus a coordinate below 512, without wrapping. -/
theorem node_word (b r : ℕ) (hb : b < 4) (hr : r < 512) :
    IntOp.addi (IntOp.muli (BitVec.ofNat 32 b) 512#32) (BitVec.ofNat 32 r) = BitVec.ofNat 32 (b * 512 + r) := by
  apply BitVec.eq_of_toNat_eq
  simp only [IntOp.addi, IntOp.muli, BitVec.toNat_add, BitVec.toNat_mul, BitVec.toNat_ofNat]
  omega

/-- The node word b*512 + r from the batch word and the row word of a flat position. -/
theorem src_words (j : ℕ) (hj : j < 1048576) :
    IntOp.addi (IntOp.muli (BitVec.ofNat 32 (j / 262144 % 4)) 512#32) (BitVec.ofNat 32 (j / 512 % 512))
      = BitVec.ofNat 32 (j / 262144 * 512 + j / 512 % 512) := by
  rw [Nat.mod_eq_of_lt (a := j / 262144) (b := 4) (by omega)]
  exact node_word _ _ (by omega) (by omega)

/-- The node word b*512 + c from the batch word and the column word of a flat position. -/
theorem dst_words (j : ℕ) (hj : j < 1048576) :
    IntOp.addi (IntOp.muli (BitVec.ofNat 32 (j / 262144 % 4)) 512#32) (BitVec.ofNat 32 (j / 1 % 512))
      = BitVec.ofNat 32 (j / 262144 * 512 + j % 512) := by
  rw [Nat.div_one, Nat.mod_eq_of_lt (a := j / 262144) (b := 4) (by omega)]
  exact node_word _ _ (by omega) (by omega)

end Cert.RefInt.Edges

namespace Cert.RefInt

open Idealize.ShloMosaic Idealize.ShloMosaic.ValueIdx Cert.ReferenceIdeal Cert.ReferenceIdeal.Pure Cert.Gcn Cert.Nonzero Finset
open Cert.ReferenceIdeal.Facts₀ Cert.ReferenceIdeal.Facts
open Idealize.ShloMosaic.StableHlo.Predicate Cert.RefInt.Edges

variable [Cert.ReferenceIdeal.Facts]

/-! ### The vector operations read at a slot -/

/-- A scalar spread over the slots reads the scalar at every slot. -/
theorem Edges.splat_apply {α : Type} (s : S_.Idx → α) (j : S1048576.Idx) :
    broadcastInDim S1048576 ![] bcast_S_S1048576 s j = s ix0 := by
  simp only [broadcastInDim]
  congr 1
  funext a
  exact a.elim0

/-- The floored quotient by a literal, at a slot. -/
theorem Edges.floorDiv_apply (a : IVec S1048576 32) (c : BitVec 32) (j : S1048576.Idx) :
    floorDiv a (constantI S_ 32 c) j = fdS (a j) c := rfl

/-- The remainder by a literal, at a slot. -/
theorem Edges.floorRem_apply (a : IVec S1048576 32) (c : BitVec 32) (j : S1048576.Idx) :
    floorRem a (constantI S_ 32 c) j = frS (a j) c := rfl

variable (adj : SA.Idx → EReal)

/-- There are at most 2^20 nonzero entries. -/
theorem Edges.total_le : total (nz adj) ≤ 1048576 := by
  unfold total
  calc (univ.filter (nz adj)).card ≤ (univ : Finset (Fin 1048576)).card := Finset.card_filter_le _ _
    _ = 1048576 := by rw [Finset.card_univ, Fintype.card_fin]

/-- A slot is marked as past the last nonzero entry exactly from the total on. -/
theorem Edges.fill_apply (k : Fin 1048576) : fill (F := Ideal) adj (ix1 k) = 1#1 ↔ total (nz adj) ≤ k.val := by
  have hc := count_toNat adj
  have ht := Edges.total_le adj
  have hk := k.isLt
  show IntOp.cmpi .sge (BitVec.ofNat 32 k.val)
    (broadcastInDim S1048576 ![] bcast_S_S1048576 (count (F := Ideal) adj) (ix1 k)) = 1#1 ↔ _
  rw [Edges.splat_apply]
  have hkn : (BitVec.ofNat 32 k.val).toNat = k.val := by rw [BitVec.toNat_ofNat]; exact Nat.mod_eq_of_lt (by omega)
  rw [sge_iff_toNat (by omega) (by omega), hc, hkn]

/-- The weight of a slot: the bit "the slot is below the total", as a number. -/
theorem Edges.slotWeight_apply (k : Fin 1048576) :
    slotWeight (F := Ideal) adj (ix1 k)
      = (((IntOp.cmpi .slt (BitVec.ofNat 32 k.val) (count (F := Ideal) adj ix0)).toNat : ℝ) : EReal) := by
  show (((IntOp.cmpi .slt (BitVec.ofNat 32 k.val)
    (broadcastInDim S1048576 ![] bcast_S_S1048576 (count (F := Ideal) adj) (ix1 k))).toNat : ℝ) : EReal) = _
  rw [Edges.splat_apply]

/-- The bit "the slot is below the total". -/
theorem Edges.below_apply (k : Fin 1048576) :
    IntOp.cmpi .slt (BitVec.ofNat 32 k.val) (count (F := Ideal) adj ix0) = 1#1 ↔ k.val < total (nz adj) := by
  have hc := count_toNat adj
  have ht := Edges.total_le adj
  have hk := k.isLt
  have hkn : (BitVec.ofNat 32 k.val).toNat = k.val := by rw [BitVec.toNat_ofNat]; exact Nat.mod_eq_of_lt (by omega)
  rw [slt_iff_toNat (by omega) (by omega), hc, hkn]

/-- A coordinate of a slot below the total: the quotient by the stride, reduced by the extent. -/
theorem Edges.coord_lt (k : Fin 1048576) (hk : k.val < total (nz adj)) (c1 c2 : ℕ) (h1 : 0 < c1) (h1' : c1 < 2 ^ 31)
    (h2 : 0 < c2) (h2' : c2 < 2 ^ 31) :
    filled (F := Ideal) adj
        (floorRem (floorDiv (flatPos (F := Ideal) adj) (constantI S_ 32 (BitVec.ofNat 32 c1)))
          (constantI S_ 32 (BitVec.ofNat 32 c2))) (ix1 k)
      = BitVec.ofNat 32 (nth (nz adj) k.val / c1 % c2) := by
  have hf : fill (F := Ideal) adj (ix1 k) = 0#1 :=
    eq_zero_of_ne_one (fun h => by have := (Edges.fill_apply adj k).mp h; omega)
  have hj := nth_lt (nz adj) k.val hk
  have hp := flatPos_toNat adj k
  have hc1 : (BitVec.ofNat 32 c1).toNat = c1 := by rw [BitVec.toNat_ofNat]; exact Nat.mod_eq_of_lt (by omega)
  have hc2 : (BitVec.ofNat 32 c2).toNat = c2 := by rw [BitVec.toNat_ofNat]; exact Nat.mod_eq_of_lt (by omega)
  have hq : nth (nz adj) k.val / c1 ≤ nth (nz adj) k.val := Nat.div_le_self _ _
  have hqn : (BitVec.ofNat 32 (nth (nz adj) k.val / c1)).toNat = nth (nz adj) k.val / c1 := by
    rw [BitVec.toNat_ofNat]; exact Nat.mod_eq_of_lt (by omega)
  show Scalar.select (fill (F := Ideal) adj (ix1 k)) 0#32
    (frS (fdS (flatPos (F := Ideal) adj (ix1 k)) (BitVec.ofNat 32 c1)) (BitVec.ofNat 32 c2)) = _
  rw [hf, select_zero, fdS_small _ _ (by omega) (by omega) (by omega), hp, hc1,
    frS_small _ _ (by omega) (by omega) (by omega), hqn, hc2]

/-- A coordinate of a slot from the total on is zero. -/
theorem Edges.coord_ge (k : Fin 1048576) (hk : total (nz adj) ≤ k.val) (a : IVec S1048576 32) :
    filled (F := Ideal) adj a (ix1 k) = 0#32 := by
  have hf := (Edges.fill_apply adj k).mpr hk
  show Scalar.select (fill (F := Ideal) adj (ix1 k)) 0#32 (a (ix1 k)) = _
  rw [hf, select_one]

/-- A slot below the total: source b*512 + r and target b*512 + c of the nonzero entry at flat position nth k, weight one. -/
theorem edge_lt (k : Fin 1048576) (hk : k.val < total (nz adj)) :
    srcOf (F := Ideal) adj (ix1 k) = BitVec.ofNat 32 (nth (nz adj) k.val / 262144 * 512 + nth (nz adj) k.val / 512 % 512)
    ∧ dstOf (F := Ideal) adj (ix1 k) = BitVec.ofNat 32 (nth (nz adj) k.val / 262144 * 512 + nth (nz adj) k.val % 512)
    ∧ slotWeight (F := Ideal) adj (ix1 k) = (1 : EReal) := by
  have hj := nth_lt (nz adj) k.val hk
  have hb : batchOf (F := Ideal) adj (ix1 k) = _ :=
    Edges.coord_lt adj k hk 262144 4 (by norm_num) (by norm_num) (by norm_num) (by norm_num)
  have hr : rowOf (F := Ideal) adj (ix1 k) = _ :=
    Edges.coord_lt adj k hk 512 512 (by norm_num) (by norm_num) (by norm_num) (by norm_num)
  have hcl : colOf (F := Ideal) adj (ix1 k) = _ :=
    Edges.coord_lt adj k hk 1 512 (by norm_num) (by norm_num) (by norm_num) (by norm_num)
  refine ⟨?_, ?_, ?_⟩
  · show IntOp.addi (IntOp.muli (batchOf (F := Ideal) adj (ix1 k)) 512#32) (rowOf (F := Ideal) adj (ix1 k)) = _
    rewrite [hb, hr]
    exact src_words (nth (nz adj) k.val) hj
  · show IntOp.addi (IntOp.muli (batchOf (F := Ideal) adj (ix1 k)) 512#32) (colOf (F := Ideal) adj (ix1 k)) = _
    rewrite [hb, hcl]
    exact dst_words (nth (nz adj) k.val) hj
  · rw [Edges.slotWeight_apply, (Edges.below_apply adj k).mpr hk]
    show (((1 : ℕ) : ℝ) : EReal) = 1
    rw [Nat.cast_one, EReal.coe_one]

/-- A slot from the total on: the edge 0 -> 0 with weight zero. -/
theorem edge_ge (k : Fin 1048576) (hk : total (nz adj) ≤ k.val) :
    srcOf (F := Ideal) adj (ix1 k) = 0#32 ∧ dstOf (F := Ideal) adj (ix1 k) = 0#32
    ∧ slotWeight (F := Ideal) adj (ix1 k) = (0 : EReal) := by
  have hb : batchOf (F := Ideal) adj (ix1 k) = 0#32 := Edges.coord_ge adj k hk _
  have hr : rowOf (F := Ideal) adj (ix1 k) = 0#32 := Edges.coord_ge adj k hk _
  have hcl : colOf (F := Ideal) adj (ix1 k) = 0#32 := Edges.coord_ge adj k hk _
  refine ⟨?_, ?_, ?_⟩
  · show IntOp.addi (IntOp.muli (batchOf (F := Ideal) adj (ix1 k)) 512#32) (rowOf (F := Ideal) adj (ix1 k)) = _
    rewrite [hb, hr]; rfl
  · show IntOp.addi (IntOp.muli (batchOf (F := Ideal) adj (ix1 k)) 512#32) (colOf (F := Ideal) adj (ix1 k)) = _
    rewrite [hb, hcl]; rfl
  · have hz : IntOp.cmpi .slt (BitVec.ofNat 32 k.val) (count (F := Ideal) adj ix0) = 0#1 :=
      eq_zero_of_ne_one (fun h => by have := (Edges.below_apply adj k).mp h; omega)
    rw [Edges.slotWeight_apply, hz]
    show (((0 : ℕ) : ℝ) : EReal) = 0
    rw [Nat.cast_zero, EReal.coe_zero]

end Cert.RefInt

end
-- ==== Proof.RefEdgeSum.lean ====
/-
  Summing over the edges that end in one node. The padded edge list followed by one self-loop per node is, for any
  summand that depends on an edge only through its source, target and weight and vanishes at weight zero, the sum over
  the rows r with a nonzero adjacency entry (b, r, c) plus the self-loop's term.
-/
import proofs.«168901_g83915071029568_cont_sun_c4_623_12_alg».proof.Proof.RefPure
import proofs.«168901_g83915071029568_cont_sun_c4_623_12_alg».proof.Proof.Spec
import proofs.«168901_g83915071029568_cont_sun_c4_623_12_alg».proof.Proof.Nonzero
import proofs.«168901_g83915071029568_cont_sun_c4_623_12_alg».proof.Proof.RefIntEdges
import Idealize.ShloMosaic.Lib.Pipeline.Value
import Idealize.ShloMosaic.Lib.IdealHost
import Idealize.ShloMosaic.Lib.ValueLayout
import Idealize.ShloMosaic.Lib.StableHlo.Predicate
import Mathlib.Algebra.BigOperators.Fin

noncomputable section

namespace Cert.RefInt

open Idealize.ShloMosaic Idealize.ShloMosaic.ValueIdx Cert.ReferenceIdeal Cert.ReferenceIdeal.Pure Cert.Gcn Cert.Nonzero Finset
open Cert.ReferenceIdeal.Facts₀ Cert.ReferenceIdeal.Facts

namespace EdgeSum

/-! ## A vector made of two pieces, read at an entry -/

/-- Two pieces laid end to end, read inside the first. -/
theorem vec_left {α : Type} {a b t : ℕ} (x : (⟨1, ![a]⟩ : Shape).Idx → α) (y : (⟨1, ![b]⟩ : Shape).Idx → α)
    (h : Shape.Concatenates [(⟨1, ![a]⟩ : Shape), ⟨1, ![b]⟩] ⟨1, ![t]⟩ 0)
    (e : Fin t) (i : Fin a) (hi : i.val = e.val) :
    concatenate ⟨1, ![t]⟩ 0 [⟨⟨1, ![a]⟩, x⟩, ⟨⟨1, ![b]⟩, y⟩] h (ix1 e) = x (ix1 i) :=
  concatenate_pair_apply_left 0 x y h (ix1 e) rfl (ix1 i) (fun d => match d with | ⟨0, _⟩ => hi)

/-- Two pieces laid end to end, read inside the second: its own position is the position less the first's length. -/
theorem vec_right {α : Type} {a b t : ℕ} (x : (⟨1, ![a]⟩ : Shape).Idx → α) (y : (⟨1, ![b]⟩ : Shape).Idx → α)
    (h : Shape.Concatenates [(⟨1, ![a]⟩ : Shape), ⟨1, ![b]⟩] ⟨1, ![t]⟩ 0)
    (e : Fin t) (i : Fin b) (hi : i.val + a = e.val) :
    concatenate ⟨1, ![t]⟩ 0 [⟨⟨1, ![a]⟩, x⟩, ⟨⟨1, ![b]⟩, y⟩] h (ix1 e) = y (ix1 i) :=
  concatenate_pair_apply_right 0 x y h (ix1 e) rfl rfl (ix1 i)
    (fun d hd => match d, hd with | ⟨0, _⟩, hd => (hd (Fin.ext rfl)).elim) hi

/-! ## A node number below 2048 passes the wrap unchanged -/

/-- A word that is a number below 2048 is not negative: the wrap keeps it, and read signed it is that number. -/
theorem wrap_small (w : BitVec 32) (n : ℕ) (hn : n < 2048) (hw : w = BitVec.ofNat 32 n) :
    Scalar.select (IntOp.cmpi .slt w 0#32) (IntOp.addi w 2048#32) w = w ∧ w.toInt = (n : ℤ) := by
  subst hw
  have hN : (BitVec.ofNat 32 n).toNat = n := by rw [BitVec.toNat_ofNat]; omega
  constructor
  · have hc : ¬ IntOp.cmpi .slt (BitVec.ofNat 32 n) 0#32 = 1#1 := by
      rw [StableHlo.Predicate.slt_iff_toNat (by omega) (by decide)]; simp
    exact if_neg hc
  · exact StableHlo.Predicate.toInt_ofNat_small n (by omega)

variable [Cert.ReferenceIdeal.Facts]

/-- The column of node indices read at an edge: the wrap applied to the edge's word. -/
theorem nodeIdx_apply (i : IVec S1050624 32) (e : Fin 1050624) :
    nodeIdx i (ix2 e (0 : Fin 1))
      = Scalar.select (IntOp.cmpi .slt (i (ix1 e)) 0#32) (IntOp.addi (i (ix1 e)) 2048#32) (i (ix1 e)) := by
  refine (broadcastInDim_apply _ _ _ (ix2 e (0 : Fin 1)) (ix1 e) ?_).trans rfl
  intro a
  match a with
  | ⟨0, _⟩ => rfl

/-- A word that is a node number below 2048 is what the column holds, and read signed it is that number. -/
theorem nodeIdx_small (i : IVec S1050624 32) (e : Fin 1050624) (n : ℕ) (hn : n < 2048) (h : i (ix1 e) = BitVec.ofNat 32 n) :
    (nodeIdx i (ix2 e (0 : Fin 1))).toInt = (n : ℤ) := by
  rw [nodeIdx_apply, (wrap_small _ n hn h).1]; exact (wrap_small _ n hn h).2

variable (adj : SA.Idx → EReal)

/-! ## The edges as numbers -/

/-- The source node of the adjacency entry at flat position j. -/
def srcAt (j : ℕ) : ℕ := j / 262144 * 512 + j / 512 % 512
/-- The target node of the adjacency entry at flat position j. -/
def dstAt (j : ℕ) : ℕ := j / 262144 * 512 + j % 512

/-- The source of edge e: of the (e+1)-th nonzero entry below the total, zero up to the last slot, then the self-loops. -/
def srcVal (e : ℕ) : ℕ :=
  if e < 1048576 then (if e < total (nz adj) then srcAt (nth (nz adj) e) else 0) else e - 1048576
/-- The target of edge e. -/
def dstVal (e : ℕ) : ℕ :=
  if e < 1048576 then (if e < total (nz adj) then dstAt (nth (nz adj) e) else 0) else e - 1048576
/-- The weight of edge e. -/
def wVal (e : ℕ) : EReal :=
  if e < 1048576 then (if e < total (nz adj) then 1 else 0) else 1

theorem total_le : total (nz adj) ≤ 1048576 := by
  unfold total
  exact (card_filter_le _ _).trans (by simp)

theorem srcAt_lt (j : ℕ) (hj : j < 1048576) : srcAt j < 2048 := by unfold srcAt; omega
theorem dstAt_lt (j : ℕ) (hj : j < 1048576) : dstAt j < 2048 := by unfold dstAt; omega

theorem srcVal_lt (e : Fin 1050624) : srcVal adj e.val < 2048 := by
  unfold srcVal
  split_ifs with h1 h2
  · exact srcAt_lt _ (nth_lt _ _ h2)
  · omega
  · omega

theorem dstVal_lt (e : Fin 1050624) : dstVal adj e.val < 2048 := by
  unfold dstVal
  split_ifs with h1 h2
  · exact dstAt_lt _ (nth_lt _ _ h2)
  · omega
  · omega

theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h]; rfl

theorem srcAll_apply (e : Fin 1050624) : srcAll (F := Ideal) adj (ix1 e) = BitVec.ofNat 32 (srcVal adj e.val) := by
  by_cases h1 : e.val < 1048576
  · rw [show srcAll (F := Ideal) adj (ix1 e) = srcOf (F := Ideal) adj (ix1 (⟨e.val, h1⟩ : Fin 1048576)) from
      vec_left _ _ _ e ⟨e.val, h1⟩ rfl]
    by_cases h2 : e.val < total (nz adj)
    · rw [(edge_lt adj ⟨e.val, h1⟩ h2).1]; simp only [srcVal, if_pos h1, if_pos h2, srcAt]
    · rw [(edge_ge adj ⟨e.val, h1⟩ (by simpa using h2)).1]; simp only [srcVal, if_pos h1, if_neg h2]
  · rw [show srcAll (F := Ideal) adj (ix1 e) = iotaInDim S2048 32 0 (ix1 (⟨e.val - 1048576, by omega⟩ : Fin 2048)) from
      vec_right _ _ _ e ⟨e.val - 1048576, by omega⟩ (by simp only []; omega)]
    simp only [srcVal, if_neg h1]; rfl

theorem dstAll_apply (e : Fin 1050624) : dstAll (F := Ideal) adj (ix1 e) = BitVec.ofNat 32 (dstVal adj e.val) := by
  by_cases h1 : e.val < 1048576
  · rw [show dstAll (F := Ideal) adj (ix1 e) = dstOf (F := Ideal) adj (ix1 (⟨e.val, h1⟩ : Fin 1048576)) from
      vec_left _ _ _ e ⟨e.val, h1⟩ rfl]
    by_cases h2 : e.val < total (nz adj)
    · rw [(edge_lt adj ⟨e.val, h1⟩ h2).2.1]; simp only [dstVal, if_pos h1, if_pos h2, dstAt]
    · rw [(edge_ge adj ⟨e.val, h1⟩ (by simpa using h2)).2.1]; simp only [dstVal, if_pos h1, if_neg h2]
  · rw [show dstAll (F := Ideal) adj (ix1 e) = iotaInDim S2048 32 0 (ix1 (⟨e.val - 1048576, by omega⟩ : Fin 2048)) from
      vec_right _ _ _ e ⟨e.val - 1048576, by omega⟩ (by simp only []; omega)]
    simp only [dstVal, if_neg h1]; rfl

theorem wAll_apply (e : Fin 1050624) : wAll (F := Ideal) adj (ix1 e) = wVal adj e.val := by
  by_cases h1 : e.val < 1048576
  · rw [show wAll (F := Ideal) adj (ix1 e) = slotWeight (F := Ideal) adj (ix1 (⟨e.val, h1⟩ : Fin 1048576)) from
      vec_left _ _ _ e ⟨e.val, h1⟩ rfl]
    by_cases h2 : e.val < total (nz adj)
    · rw [(edge_lt adj ⟨e.val, h1⟩ h2).2.2]; simp only [wVal, if_pos h1, if_pos h2]
    · rw [(edge_ge adj ⟨e.val, h1⟩ (by simpa using h2)).2.2]; simp only [wVal, if_pos h1, if_neg h2]
  · rw [show wAll (F := Ideal) adj (ix1 e)
        = broadcastInDim S2048 ![] bcast_S_S2048 (constant (F := Ideal) S_ .f32 0x3F800000#32) (ix1 (⟨e.val - 1048576, by omega⟩ : Fin 2048)) from
      vec_right _ _ _ e ⟨e.val - 1048576, by omega⟩ (by simp only []; omega)]
    rw [broadcastInDim_scalar_apply, constant_apply, ofBits_one]; simp only [wVal, if_neg h1]

end EdgeSum

open EdgeSum

variable [Cert.ReferenceIdeal.Facts]

variable (adj : SA.Idx → EReal)

/-- The source node of edge e, as the gather and the scatter read it. -/
def srcN (e : Fin 1050624) : ℕ := (nodeIdx (srcAll (F := Ideal) adj) (ix2 e (0 : Fin 1))).toInt.toNat
/-- The target node of edge e. -/
def dstN (e : Fin 1050624) : ℕ := (nodeIdx (dstAll (F := Ideal) adj) (ix2 e (0 : Fin 1))).toInt.toNat

namespace EdgeSum

theorem srcIdx_toInt (e : Fin 1050624) :
    (nodeIdx (srcAll (F := Ideal) adj) (ix2 e (0 : Fin 1))).toInt = (srcVal adj e.val : ℤ) :=
  nodeIdx_small _ e _ (srcVal_lt adj e) (srcAll_apply adj e)

theorem dstIdx_toInt (e : Fin 1050624) :
    (nodeIdx (dstAll (F := Ideal) adj) (ix2 e (0 : Fin 1))).toInt = (dstVal adj e.val : ℤ) :=
  nodeIdx_small _ e _ (dstVal_lt adj e) (dstAll_apply adj e)

theorem srcN_eq (e : Fin 1050624) : srcN adj e = srcVal adj e.val := by
  unfold srcN; rw [srcIdx_toInt]; exact Int.toNat_natCast _

theorem dstN_eq (e : Fin 1050624) : dstN adj e = dstVal adj e.val := by
  unfold dstN; rw [dstIdx_toInt]; exact Int.toNat_natCast _

/-! ## Summing over the edges into one node -/

/-- A sum over a line of m + n positions: the first m, then the last n. -/
theorem sum_fin_split {M : Type} [AddCommMonoid M] (m n t : ℕ) (h : m + n = t) (f : Fin t → M) :
    ∑ e : Fin t, f e = (∑ i : Fin m, f ⟨i.val, by omega⟩) + ∑ i : Fin n, f ⟨i.val + m, by omega⟩ := by
  subst h
  rw [Fin.sum_univ_add]
  congr 1
  refine Finset.sum_congr rfl fun i _ => congrArg f (Fin.ext ?_)
  simp only [Fin.coe_natAdd]; omega

/-- The adjacency entry at the flat position of (b, r, c). -/
theorem unflat_eq (j : Fin 1048576) (b : Fin 4) (r c : Fin 512) (h : j.val = b.val * 262144 + r.val * 512 + c.val) :
    unflat j = ix3 b r c := by
  have hb : (⟨j.val / 262144, by omega⟩ : Fin 4) = b := Fin.ext (by show j.val / 262144 = b.val; omega)
  have hr : (⟨j.val / 512 % 512, by omega⟩ : Fin 512) = r := Fin.ext (by show j.val / 512 % 512 = r.val; omega)
  have hc : (⟨j.val % 512, by omega⟩ : Fin 512) = c := Fin.ext (by show j.val % 512 = c.val; omega)
  exact congr (congr (congrArg ix3 hb) hr) hc

/-- One edge's term, kept when the edge ends in node nb. -/
def term (Ψ : ℕ → ℕ → EReal → EReal) (nb : ℕ) (e : ℕ) : EReal :=
  if dstVal adj e = nb then Ψ (srcVal adj e) (dstVal adj e) (wVal adj e) else 0

/-- The term of the nonzero entry at flat position j, kept when its column's node is nb. -/
def posTerm (Ψ : ℕ → ℕ → EReal → EReal) (nb : ℕ) (j : ℕ) : EReal :=
  if dstAt j = nb then Ψ (srcAt j) (dstAt j) 1 else 0

/-- The self-loops: exactly the one of node nb ends there. -/
theorem sum_loops (Ψ : ℕ → ℕ → EReal → EReal) (nb : Fin 2048) :
    ∑ i : Fin 2048, term adj Ψ nb.val (i.val + 1048576) = Ψ nb.val nb.val 1 := by
  have ht : ∀ i : Fin 2048, term adj Ψ nb.val (i.val + 1048576) = if i.val = nb.val then Ψ i.val i.val 1 else 0 := by
    intro i
    have hn : ¬ i.val + 1048576 < 1048576 := by omega
    simp only [term, dstVal, srcVal, wVal, if_neg hn, Nat.add_sub_cancel]
  rw [Finset.sum_congr rfl fun i _ => ht i, Finset.sum_eq_single nb]
  · rw [if_pos rfl]
  · intro i _ hne; exact if_neg fun h => hne (Fin.ext h)
  · intro h; exact absurd (mem_univ _) h

/-- The slots: those below the total carry the nonzero entries in order, the rest contribute nothing. -/
theorem sum_slots (Ψ : ℕ → ℕ → EReal → EReal) (h0 : ∀ s d, Ψ s d 0 = 0) (nb : ℕ) :
    ∑ k : Fin 1048576, term adj Ψ nb k.val = ∑ j ∈ univ.filter (nz adj), posTerm Ψ nb j.val := by
  have ht : ∀ k : Fin 1048576, term adj Ψ nb k.val
      = (fun n : ℕ => if n < total (nz adj) then posTerm Ψ nb (nth (nz adj) n) else 0) k.val := by
    intro k
    by_cases h : k.val < total (nz adj)
    · simp only [term, posTerm, dstVal, srcVal, wVal, if_pos k.isLt, if_pos h]
    · simp only [term, dstVal, srcVal, wVal, if_pos k.isLt, if_neg h, h0, ite_self]
  rw [Finset.sum_congr rfl fun k _ => ht k,
    Fin.sum_univ_eq_sum_range (fun n : ℕ => if n < total (nz adj) then posTerm Ψ nb (nth (nz adj) n) else 0) 1048576,
    ← Finset.sum_filter]
  have hr : (range 1048576).filter (fun n => n < total (nz adj)) = range (total (nz adj)) := by
    ext n; simp only [mem_filter, mem_range]; have := total_le adj; omega
  rw [hr, ← sum_nth (nz adj) (fun j => posTerm Ψ nb j.val)]
  refine Finset.sum_congr rfl fun n hn => ?_
  rw [dif_pos (nth_lt (nz adj) n (mem_range.mp hn))]

/-- The nonzero entries whose column's node is (b, c) are the rows r with a nonzero entry at (b, r, c). -/
theorem sum_positions (Ψ : ℕ → ℕ → EReal → EReal) (b : Fin 4) (c : Fin 512) :
    ∑ j ∈ univ.filter (nz adj), posTerm Ψ (node b c).val j.val
      = ∑ r : Fin 512, if adj (ix3 b r c) ≠ 0 then Ψ (node b r).val (node b c).val 1 else 0 := by
  have hnode : ∀ r : Fin 512, (node b r).val = b.val * 512 + r.val := fun _ => rfl
  unfold posTerm
  rw [← Finset.sum_filter, ← Finset.sum_filter]
  refine Finset.sum_nbij' (fun j => (⟨j.val / 512 % 512, by omega⟩ : Fin 512))
    (fun r => (⟨b.val * 262144 + r.val * 512 + c.val, by omega⟩ : Fin 1048576)) ?_ ?_ ?_ ?_ ?_
  · intro j hj
    simp only [mem_filter, mem_univ, true_and] at hj ⊢
    obtain ⟨hz, hd⟩ := hj
    rw [hnode] at hd; unfold dstAt at hd
    have e := unflat_eq j b ⟨j.val / 512 % 512, by omega⟩ c (by show j.val = b.val * 262144 + j.val / 512 % 512 * 512 + c.val; have := j.isLt; omega)
    unfold nz at hz; rwa [e] at hz
  · intro r hr
    simp only [mem_filter, mem_univ, true_and] at hr ⊢
    refine ⟨?_, ?_⟩
    · unfold nz; rw [unflat_eq _ b r c rfl]; exact hr
    · rw [hnode]; unfold dstAt; show (b.val * 262144 + r.val * 512 + c.val) / 262144 * 512 + _ % 512 = _; omega
  · intro j hj
    simp only [mem_filter, mem_univ, true_and] at hj
    obtain ⟨hz, hd⟩ := hj
    rw [hnode] at hd; unfold dstAt at hd
    apply Fin.ext; show b.val * 262144 + j.val / 512 % 512 * 512 + c.val = j.val; have := j.isLt; omega
  · intro r hr
    apply Fin.ext; show (b.val * 262144 + r.val * 512 + c.val) / 512 % 512 = r.val; omega
  · intro j hj
    simp only [mem_filter, mem_univ, true_and] at hj
    obtain ⟨hz, hd⟩ := hj
    have hd' := hd
    rw [hnode] at hd'; unfold dstAt at hd'
    rw [hd, hnode]; unfold srcAt
    congr 1; show j.val / 262144 * 512 + j.val / 512 % 512 = b.val * 512 + j.val / 512 % 512; have := j.isLt; omega

end EdgeSum

/-- Every source is a node number, and the word read signed is that number. -/
theorem srcN_spec (e : Fin 1050624) :
    srcN adj e < 2048 ∧ (nodeIdx (srcAll (F := Ideal) adj) (ix2 e (0 : Fin 1))).toInt = (srcN adj e : ℤ) := by
  rw [srcN_eq]; exact ⟨srcVal_lt adj e, srcIdx_toInt adj e⟩

/-- Every target is a node number, and the word read signed is that number. -/
theorem dstN_spec (e : Fin 1050624) :
    dstN adj e < 2048 ∧ (nodeIdx (dstAll (F := Ideal) adj) (ix2 e (0 : Fin 1))).toInt = (dstN adj e : ℤ) := by
  rw [dstN_eq]; exact ⟨dstVal_lt adj e, dstIdx_toInt adj e⟩

/-- The sum over the edges into node (b, c) of a term in the edge's source, target and weight that vanishes at weight
    zero: the rows with a nonzero entry in column c of batch b, and the self-loop. -/
theorem edge_sum (Ψ : ℕ → ℕ → EReal → EReal) (h0 : ∀ s d, Ψ s d 0 = 0) (b : Fin 4) (c : Fin 512) :
    ∑ e ∈ univ.filter (fun e : Fin 1050624 =>
          (nodeIdx (dstAll (F := Ideal) adj) (ix2 e (0 : Fin 1))).toInt = (((node b c).val : ℕ) : ℤ)),
        Ψ (srcN adj e) (dstN adj e) (wAll (F := Ideal) adj (ix1 e))
      = (∑ r : Fin 512, if adj (ix3 b r c) ≠ 0 then Ψ (node b r).val (node b c).val 1 else 0)
          + Ψ (node b c).val (node b c).val 1 := by
  rw [Finset.sum_filter]
  have ht : ∀ e : Fin 1050624,
      (if (nodeIdx (dstAll (F := Ideal) adj) (ix2 e (0 : Fin 1))).toInt = (((node b c).val : ℕ) : ℤ)
        then Ψ (srcN adj e) (dstN adj e) (wAll (F := Ideal) adj (ix1 e)) else 0) = term adj Ψ (node b c).val e.val := by
    intro e
    unfold term
    by_cases h : dstVal adj e.val = (node b c).val
    · rw [if_pos h, if_pos (by rw [dstIdx_toInt, h]), srcN_eq, dstN_eq, wAll_apply]
    · rw [if_neg h, if_neg (by rw [dstIdx_toInt]; exact fun h' => h (Int.ofNat.inj h'))]
  rw [Finset.sum_congr rfl fun e _ => ht e,
    sum_fin_split 1048576 2048 1050624 rfl (fun e => term adj Ψ (node b c).val e.val)]
  show (∑ k : Fin 1048576, term adj Ψ (node b c).val k.val) + ∑ i : Fin 2048, term adj Ψ (node b c).val (i.val + 1048576) = _
  rw [sum_slots adj Ψ h0, sum_loops adj Ψ (node b c), sum_positions adj Ψ b c]

end Cert.RefInt

end
-- ==== Proof.LibScatter2.lean ====
/-
  Reading a gather from a vector, and an accumulating scatter into a matrix addressed by PAIRS of positions, at one element.

  * `gather_vec`: elements of a vector of length N taken at an [n × 1] column of start positions; result element p is the
    vector at the start position of p, read signed and clamped into [0, N - 1].
  * `scatterAdd_pair`: updates of length n accumulated into an [N × M] matrix at an [n × 2] table of (row, column)
    positions; element (c, k) is its old value plus the sum of the updates whose pair of positions, read signed, is (c, k).
    A pair outside the matrix equals no (c, k), so its update is dropped.

  Both are generic in the sizes and in the dimension-number record; the record's fields enter as hypotheses.
-/
import proofs.«168901_g83915071029568_cont_sun_c4_623_12_alg».proof.Proof.LibGatherScatter

namespace Cert.LibScatter2

open Idealize.ShloMosaic Idealize.ShloMosaic.ValueIdx Cert.LibGatherScatter

/-! ## The gather from a vector -/

/-- elements of a vector taken at a column of start indices: result p is the operand at the start index of p, read signed and clamped into [0, N-1]. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1) (hss : d.sliceSizes = ![1])
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  have hsk : d.sKept = [] := by
    show Shape.kept _ (d.collapsedSliceDims ++ d.operandBatchingDims) = []
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix1 p) idx (0 : Fin 1)).val = min (idx (ix2 p (0 : Fin 1))).toInt.toNat (N - 1) := by
    have hb : (0 : Fin 1) ∉ d.operandBatchingDims := by rw [hob]; exact List.not_mem_nil
    have hk : (0 : Fin 1) ∉ d.sKept := by rw [hsk]; exact List.not_mem_nil
    have hm : (0 : Fin 1) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      show List.idxOf (0 : Fin 1) d.startIndexMap = 0
      rw [hsim]; simp
  funext a
  apply Fin.ext
  match a with
  | ⟨0, _⟩ => exact h0

/-! ## The accumulating scatter by pairs -/

/-- Updates of a matrix indexed by a table of (row, column) pairs: update e lands on element (c, k) exactly when its pair, read signed, is (c, k). -/
theorem resultIdx?_pair {N M n w : Nat} (d : ScatterDims ⟨2, ![N, M]⟩ ⟨2, ![n, 2]⟩ ⟨1, ![n]⟩)
    (huw : d.updateWindowDims = []) (hins : d.insertedWindowDims = [0, 1]) (hsd : d.scatterDimsToOperandDims = [0, 1]) (hivd : d.indexVectorDim = 1)
    (idx : IVec ⟨2, ![n, 2]⟩ w) (e : Fin n) (c : Fin N) (k : Fin M) :
    d.resultIdx? (ix1 e) idx = some (ix2 c k)
      ↔ (idx (ix2 e (0 : Fin 2))).toInt = (c.val : ℤ) ∧ (idx (ix2 e (1 : Fin 2))).toInt = (k.val : ℤ) := by
  rw [resultIdx?_eq_some_iff]
  have hsk : d.sKept = [] := by show Shape.kept _ d.insertedWindowDims = []; rw [hins]; rfl
  have hm0 : (0 : Fin 2) ∈ d.scatterDimsToOperandDims := by rw [hsd]; simp
  have hm1 : (1 : Fin 2) ∈ d.scatterDimsToOperandDims := by rw [hsd]; simp
  have hk0 : (0 : Fin 2) ∉ d.sKept := by rw [hsk]; exact List.not_mem_nil
  have hk1 : (1 : Fin 2) ∉ d.sKept := by rw [hsk]; exact List.not_mem_nil
  have ee : ∀ X : Fin 1, ((ix1 e : (⟨1, ![n]⟩ : Shape).Idx) X).val = e.val := fun X => by
    have hX : X = 0 := Subsingleton.elim _ _
    subst hX; rfl
  have hst0 : d.start (ix1 e) idx (0 : Fin 2) = (idx (ix2 e (0 : Fin 2))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      exact ee _
    | ⟨1, _⟩ =>
      unfold ScatterDims.siIdx
      rw [dif_pos (by rw [hivd])]
      apply Fin.ext
      show List.idxOf (0 : Fin 2) d.scatterDimsToOperandDims = 0
      rw [hsd]; simp
  have hst1 : d.start (ix1 e) idx (1 : Fin 2) = (idx (ix2 e (1 : Fin 2))).toInt := by
    unfold ScatterDims.start
    rw [dif_pos hm1]
    congr 2
    funext b
    match b with
    | ⟨0, _⟩ =>
      unfold ScatterDims.siIdx
      rw [dif_neg (by rw [hivd]; simp)]
      unfold ScatterDims.siCoord
      apply Fin.ext
      simp only [Fin.val_cast]
      exact ee _
    | ⟨1, _⟩ =>
      unfold ScatterDims.siIdx
      rw [dif_pos (by rw [hivd])]
      apply Fin.ext
      show List.idxOf (1 : Fin 2) d.scatterDimsToOperandDims = 1
      rw [hsd]; rfl
  have hw0 : d.window (ix1 e) (0 : Fin 2) = 0 := by
    unfold ScatterDims.window; rw [dif_neg hk0]
  have hw1 : d.window (ix1 e) (1 : Fin 2) = 0 := by
    unfold ScatterDims.window; rw [dif_neg hk1]
  constructor
  · intro h
    have h0 : d.start (ix1 e) idx 0 + (d.window (ix1 e) 0 : ℤ) = (c.val : ℤ) := h 0
    have h1 : d.start (ix1 e) idx 1 + (d.window (ix1 e) 1 : ℤ) = (k.val : ℤ) := h 1
    rw [hst0, hw0] at h0
    rw [hst1, hw1] at h1
    exact ⟨by simpa using h0, by simpa using h1⟩
  · intro h a
    match a with
    | ⟨0, _⟩ =>
      show d.start (ix1 e) idx 0 + (d.window (ix1 e) 0 : ℤ) = (c.val : ℤ)
      rw [hst0, hw0, h.1]; simp
    | ⟨1, _⟩ =>
      show d.start (ix1 e) idx 1 + (d.window (ix1 e) 1 : ℤ) = (k.val : ℤ)
      rw [hst1, hw1, h.2]; simp

/-- the accumulating scatter into a matrix by pairs: element (c, k) is what was there plus the sum of the updates whose pair of start indices, read signed, is (c, k). -/
theorem scatterAdd_pair {N M n w : Nat} (d : ScatterDims ⟨2, ![N, M]⟩ ⟨2, ![n, 2]⟩ ⟨1, ![n]⟩)
    (huw : d.updateWindowDims = []) (hins : d.insertedWindowDims = [0, 1]) (hsd : d.scatterDimsToOperandDims = [0, 1]) (hivd : d.indexVectorDim = 1)
    (x : FVec Ideal ⟨2, ![N, M]⟩ .f32) (idx : IVec ⟨2, ![n, 2]⟩ w) (u : FVec Ideal ⟨1, ![n]⟩ .f32) (c : Fin N) (k : Fin M) :
    Host.scatterAdd d x idx u (ix2 c k)
      = x (ix2 c k) + ∑ e ∈ Finset.univ.filter (fun e : Fin n =>
          (idx (ix2 e (0 : Fin 2))).toInt = (c.val : ℤ) ∧ (idx (ix2 e (1 : Fin 2))).toInt = (k.val : ℤ)), u (ix1 e) := by
  show Ideal.hostScatterAdd d x idx u (ix2 c k) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_pair d huw hins hsd hivd idx _ c k).1 h2⟩
  · intro e he
    exact Finset.mem_filter.2 ⟨Finset.mem_univ _, (resultIdx?_pair d huw hins hsd hivd idx e c k).2 (Finset.mem_filter.1 he).2⟩
  · intro jj _; exact (eq_ix1 jj).symm
  · intro e _; rfl
  · intro jj _; exact congrArg u (eq_ix1 jj)

end Cert.LibScatter2
-- ==== Proof.RefFloatConv.lean ====
/-
  The reference's degree, its inverse square root, and one graph convolution, entry by entry, for a zero-one adjacency
  and real-valued features and weights: the accumulation over the edge list is the dense sum over the rows of the
  adjacency block.
-/
import proofs.«168901_g83915071029568_cont_sun_c4_623_12_alg».proof.Proof.RefPure
import proofs.«168901_g83915071029568_cont_sun_c4_623_12_alg».proof.Proof.Spec
import proofs.«168901_g83915071029568_cont_sun_c4_623_12_alg».proof.Proof.RefEdgeSum
import proofs.«168901_g83915071029568_cont_sun_c4_623_12_alg».proof.Proof.LibGatherScatter
import proofs.«168901_g83915071029568_cont_sun_c4_623_12_alg».proof.Proof.LibScatter2
import proofs.«168901_g83915071029568_cont_sun_c4_623_12_alg».proof.Proof.LibERealArith
import proofs.«168901_g83915071029568_cont_sun_c4_623_12_alg».proof.Proof.LibPlainDot
import proofs.«168901_g83915071029568_cont_sun_c4_623_12_alg».proof.Proof.LibBroadcastInDim
import Idealize.ShloMosaic.Lib.Affine
import Idealize.ShloMosaic.PureOps.Reduce

noncomputable section

namespace Cert.RefFloat

open Idealize.ShloMosaic Idealize.ShloMosaic.ValueIdx Cert.ReferenceIdeal Cert.ReferenceIdeal.Pure Cert.Gcn Cert.Nonzero Finset
open Cert.ReferenceIdeal.Facts₀ Cert.ReferenceIdeal.Facts

variable [Cert.ReferenceIdeal.Facts]

open Cert.RefInt

variable (adj : SA.Idx → EReal) (hadj : ZeroOne adj)

/-- A node-feature matrix over all 2048 nodes read per batch. -/
def perBatch (h : FVec Ideal S2048x128 .f32) : Fin 4 → Fin 512 → Fin 128 → EReal := fun b r k => h (ix2 (node b r) k)

include hadj in
/-- A zero-one entry is the coercion of a real that is zero or one, and choosing a value where it is nonzero multiplies by it. -/
private theorem entry_real (i : SA.Idx) : ∃ a : ℝ, (a = 0 ∨ a = 1) ∧ adj i = (a : EReal) ∧ (∀ t : EReal, (if adj i ≠ 0 then t else 0) = adj i * t) := by
  rcases hadj i with h | h
  · exact ⟨0, Or.inl rfl, by rw [h, EReal.coe_zero], fun t => by rw [h]; simp⟩
  · exact ⟨1, Or.inr rfl, by rw [h, EReal.coe_one], fun t => by rw [h]; simp⟩

include hadj in
/-- The degree is a real number at least one. -/
private theorem deg_real (b : Fin 4) (c : Fin 512) : ∃ t : ℝ, 1 ≤ t ∧ deg adj b c = (t : EReal) := by
  choose a ha using fun r : Fin 512 => entry_real adj hadj (ix3 b r c)
  refine ⟨(∑ r : Fin 512, a r) + 1, ?_, ?_⟩
  · have : 0 ≤ ∑ r : Fin 512, a r := Finset.sum_nonneg fun r _ => by rcases (ha r).1 with h | h <;> rw [h] <;> norm_num
    linarith
  · unfold deg
    rw [Cert.Lib.ERealArith.sum_eq_coe _ _ a (fun r _ => (ha r).2.1), EReal.coe_add, EReal.coe_one]

include hadj in
/-- Counting the nonzero entries of a column, plus one, is the degree. -/
private theorem deg_sum (b : Fin 4) (c : Fin 512) :
    (∑ r : Fin 512, if adj (ix3 b r c) ≠ 0 then (1 : EReal) else 0) + 1 = deg adj b c := by
  unfold deg
  congr 1
  refine Finset.sum_congr rfl fun r _ => ?_
  obtain ⟨a, _, _, h3⟩ := entry_real adj hadj (ix3 b r c)
  rw [h3, mul_one]

/-- The guarded inverse square root at a real at least one is the plain inverse square root. -/
private theorem invsqrt_val (x : EReal) (t : ℝ) (ht : 1 ≤ t) (hx : x = (t : EReal)) :
    Scalar.select (FloatOps.cmpf (F := Ideal) (φ := .f32) .ogt x (Ideal.ofBits .f32 0x00000000#32))
      (FloatOps.hostUnary (F := Ideal) (φ := .f32) .rsqrt (FloatOps.maximumf (F := Ideal) (φ := .f32) x (Ideal.ofBits .f32 0x2B8CBCCC#32)))
      (Ideal.ofBits .f32 0x00000000#32) = Ideal.rsqrt x := by
  rw [hx, Cert.Lib.ERealArith.ofBits_zero, Cert.Lib.ERealArith.ofBits_eps12,
    Cert.Lib.ERealArith.cmpf_ogt_coe_of_lt (by linarith), select_one, Cert.Lib.ERealArith.maximumf_coe]
  have : max t Cert.Lib.ERealArith.eps12 = t := max_eq_left (by
    have : Cert.Lib.ERealArith.eps12 ≤ 1 := by unfold Cert.Lib.ERealArith.eps12; norm_num
    linarith)
  rw [this]
  rfl

include hadj in
/-- The degree is a real number at least one, so its inverse square root is a positive real. -/
theorem dinv_real (b : Fin 4) (c : Fin 512) : ∃ t : ℝ, 0 < t ∧ dinv adj b c = (t : EReal) := by
  obtain ⟨t, ht, hd⟩ := deg_real adj hadj b c
  have htp : 0 < t := by linarith
  refine ⟨(Real.sqrt t)⁻¹, inv_pos.mpr (Real.sqrt_pos.mpr htp), ?_⟩
  unfold dinv
  rw [hd, Cert.Lib.ERealArith.rsqrt_coe htp]

/-- The accumulating scatter of a vector of edge values into the zero vector over the nodes, at one node. -/
private theorem degree_read (idx : IVec S1050624x1 32) (u : FVec Ideal S1050624 .f32) (c : Fin 2048) :
    Host.scatterAdd (F := Ideal) scatter_S2048_S1050624x1_S1050624_n_0_0_1
        (broadcastInDim S2048 ![] bcast_S_S2048 (constant (F := Ideal) S_ .f32 0x00000000#32)) idx u (ix1 c)
      = ∑ e ∈ Finset.univ.filter (fun e : Fin 1050624 => (idx (ix2 e (0 : Fin 1))).toInt = ((c.val : ℕ) : ℤ)), u (ix1 e) := by
  have hz : (broadcastInDim S2048 ![] bcast_S_S2048 (constant (F := Ideal) S_ .f32 0x00000000#32)) (ix1 c) = 0 :=
    Ideal.ofBits_zero_f32
  have key := Cert.LibGatherScatter.scatterAdd_vec scatter_S2048_S1050624x1_S1050624_n_0_0_1 rfl rfl rfl rfl
    (broadcastInDim S2048 ![] bcast_S_S2048 (constant (F := Ideal) S_ .f32 0x00000000#32)) idx u c
  rw [hz, zero_add] at key
  exact key

include hadj in
theorem degree_eq (b : Fin 4) (c : Fin 512) : degree (F := Ideal) adj (ix1 (node b c)) = deg adj b c := by
  have h1 := degree_read (nodeIdx (dstAll (F := Ideal) adj)) (wAll (F := Ideal) adj) (node b c)
  have h2 := edge_sum adj (fun _ _ w => w) (fun _ _ => rfl) b c
  have h3 := deg_sum adj hadj b c
  exact h1.trans (h2.trans h3)

/-- The guarded inverse square root of a vector of degrees, read at one node. -/
private theorem invsqrt_read (dg : FVec Ideal S2048 .f32) (i : S2048.Idx) :
    (select (cmpf .ogt dg (broadcastInDim S2048 ![] bcast_S_S2048 (constant (F := Ideal) S_ .f32 0x00000000#32)))
      (Host.rsqrt (maximumf dg (broadcastInDim S2048 ![] bcast_S_S2048 (constant (F := Ideal) S_ .f32 0x2B8CBCCC#32))))
      (broadcastInDim S2048 ![] bcast_S_S2048 (id (constant (F := Ideal) S_ .f32 0x00000000#32)))) i
    = Scalar.select (FloatOps.cmpf (F := Ideal) (φ := .f32) .ogt (dg i) (Ideal.ofBits .f32 0x00000000#32))
      (FloatOps.hostUnary (F := Ideal) (φ := .f32) .rsqrt (FloatOps.maximumf (F := Ideal) (φ := .f32) (dg i) (Ideal.ofBits .f32 0x2B8CBCCC#32)))
      (Ideal.ofBits .f32 0x00000000#32) := rfl

include hadj in
theorem degInvSqrt_eq (b : Fin 4) (c : Fin 512) : degInvSqrt (F := Ideal) adj (ix1 (node b c)) = dinv adj b c := by
  obtain ⟨t, ht, hd⟩ := deg_real adj hadj b c
  have h0 := degree_eq adj hadj b c
  have hx : degree (F := Ideal) adj (ix1 (node b c)) = (t : EReal) := h0.trans hd
  have h1 := invsqrt_read (degree (F := Ideal) adj) (ix1 (node b c))
  have h2 := invsqrt_val (degree (F := Ideal) adj (ix1 (node b c))) t ht hx
  have h3 : Ideal.rsqrt (degree (F := Ideal) adj (ix1 (node b c))) = Ideal.rsqrt (deg adj b c) := congrArg Ideal.rsqrt h0
  have h23 := h2.trans h3
  exact h1.trans h23

/-- A fold by "and" from the set bit over set bits is the set bit. -/
private theorem foldl_andi_one {ι : Type} (f : ι → BitVec 1) : ∀ (l : List ι), (∀ n ∈ l, f n = 1#1) →
    l.foldl (fun r n => IntOp.andi r (f n)) 1#1 = 1#1
  | [], _ => rfl
  | a :: l, h => by
    have h1 : IntOp.andi 1#1 1#1 = 1#1 := by decide
    rw [List.foldl_cons, h a (List.mem_cons_self ..), h1]
    exact foldl_andi_one f l (fun n hn => h n (List.mem_cons_of_mem _ hn))

/-- A vector laid along the rows of a matrix reads, at (p, q), the vector at p. -/
private theorem bcast_n_nD_apply {α : Type} {n D : ℕ} (h : (⟨1, ![n]⟩ : Shape).BroadcastsInDim ⟨2, ![n, D]⟩ (![0] : Fin 1 → Fin 2))
    (x : (⟨1, ![n]⟩ : Shape).Idx → α) (p : Fin n) (q : Fin D) :
    broadcastInDim ⟨2, ![n, D]⟩ ![0] h x (ix2 p q) = x (ix1 p) :=
  broadcastInDim_apply _ h x _ _ (fun a => by
    match a with
    | ⟨0, _⟩ =>
      show p.val = if n = 1 then 0 else p.val
      split
      · have := p.isLt; omega
      · rfl)

/-- The range guard of a row gather holds at every edge when every start row, read signed, lies in [0, 2047]. -/
private theorem guard_one (idx : IVec S1050624x1 32)
    (hi : ∀ e : Fin 1050624, 0 ≤ (idx (ix2 e (0 : Fin 1))).toInt ∧ (idx (ix2 e (0 : Fin 1))).toInt ≤ 2047) (j : S1050624.Idx) :
    Host.reduce IntOp.andi
        (andi (cmpi .sge idx (broadcastInDim S1050624x1 ![] bcast_S_S1050624x1 (constantI S_ 32 0#32)))
          (cmpi .sle idx
            (broadcastInDim S1050624x1 ![0, 1] bcast_S1x1_S1050624x1_0_1
              (broadcastInDim S1x1 ![1] bcast_S1_S1x1_1 (constantI S1 32 2047#32)))))
        (constantI S_ 1 1#1) reducesTo_S1050624x1_S1050624_d1 h_S_ j = 1#1 := by
  rw [Host.reduce_eq_foldl]
  refine foldl_andi_one _ _ (fun k _ => ?_)
  obtain ⟨p, q, rfl⟩ : ∃ (p : Fin 1050624) (q : Fin 1), k = ix2 p q := ⟨_, _, eq_ix2 k⟩
  have hq : q = 0 := Subsingleton.elim _ _
  subst hq
  show IntOp.andi (IntOp.cmpi .sge (idx (ix2 p (0 : Fin 1))) 0#32) (IntOp.cmpi .sle (idx (ix2 p (0 : Fin 1))) 2047#32) = 1#1
  have h1 : IntOp.cmpi .sge (idx (ix2 p (0 : Fin 1))) 0#32 = 1#1 := IntOp.cmpi_sge.2 (by
    have : (0#32 : BitVec 32).toInt = 0 := by decide
    rw [this]; exact (hi p).1)
  have h2 : IntOp.cmpi .sle (idx (ix2 p (0 : Fin 1))) 2047#32 = 1#1 := IntOp.cmpi_sle.2 (by
    have : (2047#32 : BitVec 32).toInt = 2047 := by decide
    rw [this]; exact (hi p).2)
  rw [h1, h2]; decide

/-- A guarded gather of rows keeps the gathered row when every start row lies in range: entry (e, f) is the matrix at
    (the start row of e, f). -/
private theorem takeRows_read (a : FVec Ideal S2048x128 .f32) (idx : IVec S1050624x1 32)
    (hi : ∀ e : Fin 1050624, 0 ≤ (idx (ix2 e (0 : Fin 1))).toInt ∧ (idx (ix2 e (0 : Fin 1))).toInt ≤ 2047)
    (e : Fin 1050624) (f : Fin 128) (n : ℕ) (hn : n < 2048) (he : (idx (ix2 e (0 : Fin 1))).toInt = (n : ℤ)) :
    (select
      (broadcastInDim S1050624x128 ![0] bcast_S1050624_S1050624x128_0
        (Host.reduce IntOp.andi
          (andi (cmpi .sge idx (broadcastInDim S1050624x1 ![] bcast_S_S1050624x1 (constantI S_ 32 0#32)))
            (cmpi .sle idx
              (broadcastInDim S1050624x1 ![0, 1] bcast_S1x1_S1050624x1_0_1
                (broadcastInDim S1x1 ![1] bcast_S1_S1x1_1 (constantI S1 32 2047#32)))))
          (constantI S_ 1 1#1) reducesTo_S1050624x1_S1050624_d1 h_S_))
      (Host.gather gather_S2048x128_S1050624x1_S1050624x128_1_0_n_n_0_1_1128 a idx)
      (broadcastInDim S1050624x128 ![] bcast_S_S1050624x128 (constant (F := Ideal) S_ .f32 0x7FC00000#32))) (ix2 e f)
    = a (ix2 ⟨n, hn⟩ f) := by
  rw [select_apply, bcast_n_nD_apply, guard_one idx hi, select_one,
    Cert.LibGatherScatter.gather_rows gather_S2048x128_S1050624x1_S1050624x128_1_0_n_n_0_1_1128 rfl rfl rfl rfl rfl rfl a idx e f (by norm_num)]
  congr 2
  apply Fin.ext
  show min (idx (ix2 e (0 : Fin 1))).toInt.toNat (2048 - 1) = n
  rw [he, Int.toNat_natCast]
  omega

/-- The edge factor: the product of the two gathered node values and the weight, at one edge. -/
private theorem norm_read (D : FVec Ideal S2048 .f32) (is id : IVec S1050624x1 32) (w : FVec Ideal S1050624 .f32) (e : Fin 1050624)
    (s d : ℕ) (hs : s < 2048) (hd : d < 2048) (hse : (is (ix2 e (0 : Fin 1))).toInt = (s : ℤ))
    (hde : (id (ix2 e (0 : Fin 1))).toInt = (d : ℤ)) :
    mulf (mulf (Host.gather gather_S2048_S1050624x1_S1050624_n_0_n_n_0_1_1 D is)
      (Host.gather gather_S2048_S1050624x1_S1050624_n_0_n_n_0_1_1 D id)) w (ix1 e)
    = (D (ix1 ⟨s, hs⟩) * D (ix1 ⟨d, hd⟩)) * w (ix1 e) := by
  have e1 : (⟨min (is (ix2 e (0 : Fin 1))).toInt.toNat (2048 - 1), by omega⟩ : Fin 2048) = ⟨s, hs⟩ := by
    apply Fin.ext
    show min (is (ix2 e (0 : Fin 1))).toInt.toNat (2048 - 1) = s
    rw [hse, Int.toNat_natCast]; omega
  have e2 : (⟨min (id (ix2 e (0 : Fin 1))).toInt.toNat (2048 - 1), by omega⟩ : Fin 2048) = ⟨d, hd⟩ := by
    apply Fin.ext
    show min (id (ix2 e (0 : Fin 1))).toInt.toNat (2048 - 1) = d
    rw [hde, Int.toNat_natCast]; omega
  rw [mulf_apply, mulf_apply,
    Cert.LibScatter2.gather_vec gather_S2048_S1050624x1_S1050624_n_0_n_n_0_1_1 rfl rfl rfl rfl rfl rfl D is e (by norm_num),
    Cert.LibScatter2.gather_vec gather_S2048_S1050624x1_S1050624_n_0_n_n_0_1_1 rfl rfl rfl rfl rfl rfl D id e (by norm_num),
    e1, e2]

/-- A message: the gathered row entry times the edge factor spread along the row. -/
private theorem msg_read (T : FVec Ideal S1050624x128 .f32) (N : FVec Ideal S1050624 .f32) (e : Fin 1050624) (f : Fin 128) :
    mulf T (broadcastInDim S1050624x128 ![0, 1] bcast_S1050624x1_S1050624x128_0_1
      (broadcastInDim S1050624x1 ![0] bcast_S1050624_S1050624x1_0 N)) (ix2 e f) = T (ix2 e f) * N (ix1 e) := by
  rw [mulf_apply, ValueLayout.bcast_r1_rn_apply, ValueLayout.bcast_n_n1_apply]

/-- The accumulated messages plus the bias row, at one node and feature. -/
private theorem conv_read (idx : IVec S1050624x1 32) (M : FVec Ideal S1050624x128 .f32) (bias : FVec Ideal S128 .f32) (n : Fin 2048)
    (f : Fin 128) :
    addf (Host.scatterAdd (F := Ideal) scatter_S2048x128_S1050624x1_S1050624x128_1_0_0_1
        (broadcastInDim S2048x128 ![] bcast_S_S2048x128 (constant (F := Ideal) S_ .f32 0x00000000#32)) idx M)
      (broadcastInDim S2048x128 ![0, 1] bcast_S1x128_S2048x128_0_1 (broadcastInDim S1x128 ![1] bcast_S128_S1x128_1 bias)) (ix2 n f)
    = (∑ e ∈ Finset.univ.filter (fun e : Fin 1050624 => (idx (ix2 e (0 : Fin 1))).toInt = ((n.val : ℕ) : ℤ)), M (ix2 e f))
        + bias (ix1 f) := by
  have hz : (broadcastInDim S2048x128 ![] bcast_S_S2048x128 (constant (F := Ideal) S_ .f32 0x00000000#32)) (ix2 n f) = 0 :=
    Ideal.ofBits_zero_f32
  have key := Cert.LibGatherScatter.scatterAdd_rows scatter_S2048x128_S1050624x1_S1050624x128_1_0_0_1 rfl rfl rfl rfl
    (broadcastInDim S2048x128 ![] bcast_S_S2048x128 (constant (F := Ideal) S_ .f32 0x00000000#32)) idx M n f
  rw [hz, zero_add] at key
  rw [addf_apply, key, ValueLayout.bcast_1n_rn_apply, ValueLayout.bcast_n_1n_apply]
/-- The product of the node features with the weights, at one entry. -/
private theorem hw_read (h : FVec Ideal S2048x128 .f32) (W : FVec Ideal S128x128 .f32) (p : Fin 2048) (q : Fin 128) :
    Host.dotGeneral (F := Ideal) dot_S2048x128_S128x128_S2048x128_1_0_0_1_n_n none h W (ix2 p q)
      = ∑ k : Fin 128, h (ix2 p k) * W (ix2 k q) :=
  PlainDot.dotGeneral_apply ⟨rfl, rfl, rfl, rfl, rfl, rfl⟩ none .single h W p q

/-- Products of equals. -/
private theorem mul_congr' {a a' b b' : EReal} (h1 : a = a') (h2 : b = b') : a * b = a' * b' := by rw [h1, h2]

/-- Sums of equals. -/
private theorem add_congr' {a a' b b' : EReal} (h1 : a = a') (h2 : b = b') : a + b = a' + b' := by rw [h1, h2]

/-- What a source s sends to a target d along an edge of weight w, at feature f: the source's projected feature times the two
    nodes' factors and the weight (zero for a number that is no node). -/
private def msg (HW : FVec Ideal S2048x128 .f32) (D : FVec Ideal S2048 .f32) (f : Fin 128) (s d : ℕ) (w : EReal) : EReal :=
  (if hs : s < 2048 then HW (ix2 ⟨s, hs⟩ f) else 0)
    * (((if hs : s < 2048 then D (ix1 ⟨s, hs⟩) else 0) * (if hd : d < 2048 then D (ix1 ⟨d, hd⟩) else 0)) * w)

private theorem msg_zero (HW : FVec Ideal S2048x128 .f32) (D : FVec Ideal S2048 .f32) (f : Fin 128) (s d : ℕ) : msg HW D f s d 0 = 0 := by
  unfold msg; rw [mul_zero, mul_zero]

private theorem msg_at (HW : FVec Ideal S2048x128 .f32) (D : FVec Ideal S2048 .f32) (f : Fin 128) (s d : ℕ) (w : EReal)
    (hs : s < 2048) (hd : d < 2048) :
    msg HW D f s d w = HW (ix2 ⟨s, hs⟩ f) * ((D (ix1 ⟨s, hs⟩) * D (ix1 ⟨d, hd⟩)) * w) := by
  unfold msg; rw [dif_pos hs, dif_pos hs, dif_pos hd]

private theorem msg_node (HW : FVec Ideal S2048x128 .f32) (D : FVec Ideal S2048 .f32) (f : Fin 128) (p q : Fin 2048) (w : EReal) :
    msg HW D f p.val q.val w = HW (ix2 p f) * ((D (ix1 p) * D (ix1 q)) * w) :=
  msg_at HW D f p.val q.val w p.isLt q.isLt

/-- The dense convolution's sum, for a zero-one column A, real projected features L and real factors T: the sum over the rows
    with a nonzero entry of the products, plus the self-loop's, is one real number, and so is the dense form. -/
private theorem conv_algebra (A L T : Fin 512 → EReal) [∀ r, Decidable (A r ≠ 0)] (c : Fin 512)
    (hA : ∀ r, A r = 0 ∨ A r = 1) (hL : ∀ r, ∃ x : ℝ, L r = (x : EReal)) (hT : ∀ r, ∃ x : ℝ, T r = (x : EReal)) :
    ∃ x : ℝ, (∑ r : Fin 512, if A r ≠ 0 then L r * ((T r * T c) * 1) else 0) + L c * ((T c * T c) * 1) = (x : EReal)
      ∧ ((∑ r : Fin 512, A r * (L r * T r)) + L c * T c) * T c = (x : EReal) := by
  choose l hl using hL
  choose t ht using hT
  have hA' : ∀ r, ∃ a : ℝ, A r = (a : EReal) ∧ ∀ y : EReal, (if A r ≠ 0 then y else 0) = A r * y := fun r => by
    rcases hA r with h | h
    · exact ⟨0, by rw [h, EReal.coe_zero], fun y => by rw [if_neg (by rw [h]; exact fun h' => h' rfl), h, zero_mul]⟩
    · exact ⟨1, by rw [h, EReal.coe_one], fun y => by rw [if_pos (by rw [h]; exact one_ne_zero), h, one_mul]⟩
  choose a ha using hA'
  refine ⟨(∑ r : Fin 512, a r * (l r * t r)) * t c + l c * t c * t c, ?_, ?_⟩
  · have e1 : ∀ r ∈ (Finset.univ : Finset (Fin 512)),
        (if A r ≠ 0 then L r * ((T r * T c) * 1) else 0) = ((a r * (l r * t r) * t c : ℝ) : EReal) := fun r _ => by
      rw [(ha r).2, (ha r).1, hl r, ht r, ht c, mul_one]
      simp only [← EReal.coe_mul]
      congr 1; ring
    rw [Cert.Lib.ERealArith.sum_eq_coe _ _ _ e1, hl c, ht c, mul_one]
    simp only [← EReal.coe_mul, ← EReal.coe_add]
    congr 1
    rw [Finset.sum_mul]; ring
  · have e2 : ∀ r ∈ (Finset.univ : Finset (Fin 512)), A r * (L r * T r) = ((a r * (l r * t r) : ℝ) : EReal) := fun r _ => by
      rw [(ha r).1, hl r, ht r]
      simp only [← EReal.coe_mul]
    rw [Cert.Lib.ERealArith.sum_eq_coe _ _ _ e2, hl c, ht c]
    simp only [← EReal.coe_mul, ← EReal.coe_add]
    congr 1; ring

/-- Real features times real weights are real. -/
private theorem lin_real (h : FVec Ideal S2048x128 .f32) (hh : AllReal h) (W : FVec Ideal S128x128 .f32) (hW : AllReal W)
    (b : Fin 4) (r : Fin 512) (f : Fin 128) : ∃ x : ℝ, lin (perBatch h) W b r f = (x : EReal) := by
  choose u hu using hh
  choose v hv using hW
  refine ⟨∑ k : Fin 128, u (ix2 (node b r) k) * v (ix2 k f), ?_⟩
  unfold lin perBatch
  exact Cert.Lib.ERealArith.sum_eq_coe _ _ _ (fun k _ => by rw [hu, hv, ← EReal.coe_mul])

/-- Two conditionals on one proposition agree when their first branches do, whatever the decision procedures. -/
private theorem ite_congr_inst {p : Prop} (i1 i2 : Decidable p) {a a' b : EReal} (h : a = a') :
    @ite EReal p i1 a b = @ite EReal p i2 a' b := by
  have hi : i1 = i2 := Subsingleton.elim _ _
  subst hi; subst h; rfl

/-- One edge's message is the message function at the edge's source, target and weight. -/
private theorem summand_eq (h : FVec Ideal S2048x128 .f32) (W : FVec Ideal S128x128 .f32) (f : Fin 128) (e : Fin 1050624) :
    (mulf (takeRows (F := Ideal) (Host.dotGeneral (F := Ideal) dot_S2048x128_S128x128_S2048x128_1_0_0_1_n_n none h W) (srcAll (F := Ideal) adj))
      (broadcastInDim S1050624x128 ![0, 1] bcast_S1050624x1_S1050624x128_0_1
        (broadcastInDim S1050624x1 ![0] bcast_S1050624_S1050624x1_0 (edgeNorm (F := Ideal) adj)))) (ix2 e f)
      = msg (Host.dotGeneral (F := Ideal) dot_S2048x128_S128x128_S2048x128_1_0_0_1_n_n none h W) (degInvSqrt (F := Ideal) adj) f (srcN adj e) (dstN adj e) (wAll (F := Ideal) adj (ix1 e)) := by
  have hs := srcN_spec adj e
  have hd := dstN_spec adj e
  have hi : ∀ e' : Fin 1050624, 0 ≤ (nodeIdx (srcAll (F := Ideal) adj) (ix2 e' (0 : Fin 1))).toInt
      ∧ (nodeIdx (srcAll (F := Ideal) adj) (ix2 e' (0 : Fin 1))).toInt ≤ 2047 := fun e' =>
    have h' := srcN_spec adj e'
    ⟨le_of_le_of_eq (Int.natCast_nonneg _) h'.2.symm, le_of_eq_of_le h'.2 (by have := h'.1; omega)⟩
  have h1 := msg_read (takeRows (F := Ideal) (Host.dotGeneral (F := Ideal) dot_S2048x128_S128x128_S2048x128_1_0_0_1_n_n none h W) (srcAll (F := Ideal) adj)) (edgeNorm (F := Ideal) adj) e f
  have h2 : takeRows (F := Ideal) (Host.dotGeneral (F := Ideal) dot_S2048x128_S128x128_S2048x128_1_0_0_1_n_n none h W) (srcAll (F := Ideal) adj) (ix2 e f)
      = (Host.dotGeneral (F := Ideal) dot_S2048x128_S128x128_S2048x128_1_0_0_1_n_n none h W) (ix2 ⟨srcN adj e, hs.1⟩ f) :=
    takeRows_read (Host.dotGeneral (F := Ideal) dot_S2048x128_S128x128_S2048x128_1_0_0_1_n_n none h W) (nodeIdx (srcAll (F := Ideal) adj)) hi e f (srcN adj e) hs.1 hs.2
  have h3 : edgeNorm (F := Ideal) adj (ix1 e)
      = ((degInvSqrt (F := Ideal) adj) (ix1 ⟨srcN adj e, hs.1⟩) * (degInvSqrt (F := Ideal) adj) (ix1 ⟨dstN adj e, hd.1⟩)) * wAll (F := Ideal) adj (ix1 e) :=
    norm_read (degInvSqrt (F := Ideal) adj) (nodeIdx (srcAll (F := Ideal) adj)) (nodeIdx (dstAll (F := Ideal) adj)) (wAll (F := Ideal) adj) e
      (srcN adj e) (dstN adj e) hs.1 hd.1 hs.2 hd.2
  have h4 := msg_at (Host.dotGeneral (F := Ideal) dot_S2048x128_S128x128_S2048x128_1_0_0_1_n_n none h W) (degInvSqrt (F := Ideal) adj) f (srcN adj e) (dstN adj e) (wAll (F := Ideal) adj (ix1 e)) hs.1 hd.1
  exact h1.trans ((mul_congr' h2 h3).trans h4.symm)

/-- The projected features at a node, per batch. -/
private theorem hw_lin (h : FVec Ideal S2048x128 .f32) (W : FVec Ideal S128x128 .f32) (b : Fin 4) (r : Fin 512) (f : Fin 128) :
    (Host.dotGeneral (F := Ideal) dot_S2048x128_S128x128_S2048x128_1_0_0_1_n_n none h W) (ix2 (node b r) f) = lin (perBatch h) W b r f :=
  hw_read h W (node b r) f

include hadj in
/-- One entry of the reference's convolution and the dense convolution's are one real number plus the bias entry. -/
private theorem conv_val (h : FVec Ideal S2048x128 .f32) (hh : AllReal h) (W : FVec Ideal S128x128 .f32) (hW : AllReal W)
    (bias : FVec Ideal S128 .f32) (b : Fin 4) (c : Fin 512) (f : Fin 128) :
    ∃ x : ℝ, Pure.conv (F := Ideal) adj h W bias (ix2 (node b c) f) = (x : EReal) + bias (ix1 f)
      ∧ Gcn.conv adj (perBatch h) W bias b c f = (x : EReal) + bias (ix1 f) := by
  have key := conv_algebra (fun r => adj (ix3 b r c)) (fun r => lin (perBatch h) W b r f) (fun r => dinv adj b r) c
    (fun r => hadj _) (fun r => lin_real h hh W hW b r f)
    (fun r => by obtain ⟨t, _, ht⟩ := dinv_real adj hadj b r; exact ⟨t, ht⟩)
  obtain ⟨x, hx1, hx2⟩ := key
  refine ⟨x, ?_, add_congr' hx2 rfl⟩
  have hmsg : ∀ r : Fin 512, msg (Host.dotGeneral (F := Ideal) dot_S2048x128_S128x128_S2048x128_1_0_0_1_n_n none h W) (degInvSqrt (F := Ideal) adj) f (node b r).val (node b c).val 1
      = lin (perBatch h) W b r f * ((dinv adj b r * dinv adj b c) * 1) := fun r =>
    (msg_node (Host.dotGeneral (F := Ideal) dot_S2048x128_S128x128_S2048x128_1_0_0_1_n_n none h W) (degInvSqrt (F := Ideal) adj) f (node b r) (node b c) 1).trans
      (mul_congr' (hw_lin h W b r f)
        (mul_congr' (mul_congr' (degInvSqrt_eq adj hadj b r) (degInvSqrt_eq adj hadj b c)) rfl))
  have hc := conv_read (nodeIdx (dstAll (F := Ideal) adj)) (mulf (takeRows (F := Ideal) (Host.dotGeneral (F := Ideal) dot_S2048x128_S128x128_S2048x128_1_0_0_1_n_n none h W) (srcAll (F := Ideal) adj))
      (broadcastInDim S1050624x128 ![0, 1] bcast_S1050624x1_S1050624x128_0_1
        (broadcastInDim S1050624x1 ![0] bcast_S1050624_S1050624x1_0 (edgeNorm (F := Ideal) adj)))) bias (node b c) f
  have hsum : (∑ e ∈ (Finset.univ.filter (fun e : Fin 1050624 => (nodeIdx (dstAll (F := Ideal) adj) (ix2 e (0 : Fin 1))).toInt = (((node b c).val : ℕ) : ℤ))), (mulf (takeRows (F := Ideal) (Host.dotGeneral (F := Ideal) dot_S2048x128_S128x128_S2048x128_1_0_0_1_n_n none h W) (srcAll (F := Ideal) adj))
      (broadcastInDim S1050624x128 ![0, 1] bcast_S1050624x1_S1050624x128_0_1
        (broadcastInDim S1050624x1 ![0] bcast_S1050624_S1050624x1_0 (edgeNorm (F := Ideal) adj)))) (ix2 e f))
      = ∑ e ∈ (Finset.univ.filter (fun e : Fin 1050624 => (nodeIdx (dstAll (F := Ideal) adj) (ix2 e (0 : Fin 1))).toInt = (((node b c).val : ℕ) : ℤ))), msg (Host.dotGeneral (F := Ideal) dot_S2048x128_S128x128_S2048x128_1_0_0_1_n_n none h W) (degInvSqrt (F := Ideal) adj) f (srcN adj e) (dstN adj e) (wAll (F := Ideal) adj (ix1 e)) :=
    Finset.sum_congr rfl (fun e _ => summand_eq adj h W f e)
  have he := edge_sum adj (msg (Host.dotGeneral (F := Ideal) dot_S2048x128_S128x128_S2048x128_1_0_0_1_n_n none h W) (degInvSqrt (F := Ideal) adj) f) (msg_zero (Host.dotGeneral (F := Ideal) dot_S2048x128_S128x128_S2048x128_1_0_0_1_n_n none h W) (degInvSqrt (F := Ideal) adj) f) b c
  exact hc.trans (add_congr' (hsum.trans (he.trans ((add_congr' (Finset.sum_congr rfl
    (fun r _ => ite_congr_inst _ _ (hmsg r))) (hmsg c)).trans hx1))) rfl)

include hadj in
/-- One convolution of the reference is the dense convolution. -/
theorem conv_eq (h : FVec Ideal S2048x128 .f32) (hh : AllReal h) (W : FVec Ideal S128x128 .f32) (hW : AllReal W)
    (bias : FVec Ideal S128 .f32) (b : Fin 4) (c : Fin 512) (f : Fin 128) :
    Pure.conv (F := Ideal) adj h W bias (ix2 (node b c) f) = Gcn.conv adj (perBatch h) W bias b c f := by
  obtain ⟨x, h1, h2⟩ := conv_val adj hadj h hh W hW bias b c f
  exact h1.trans h2.symm

include hadj in
/-- A convolution of real features with real weights and bias is real. -/
theorem conv_real (h : FVec Ideal S2048x128 .f32) (hh : AllReal h) (W : FVec Ideal S128x128 .f32) (hW : AllReal W)
    (bias : FVec Ideal S128 .f32) (hb : AllReal bias) : AllReal (Pure.conv (F := Ideal) adj h W bias) := fun i => by
  obtain ⟨p, q, rfl⟩ : ∃ (p : Fin 2048) (q : Fin 128), i = ix2 p q := ⟨_, _, eq_ix2 i⟩
  obtain ⟨b, c, rfl⟩ : ∃ (b : Fin 4) (c : Fin 512), p = node b c :=
    ⟨⟨p.val / 512, by have := p.isLt; omega⟩, ⟨p.val % 512, Nat.mod_lt _ (by norm_num)⟩, Fin.ext (by
      show p.val = p.val / 512 * 512 + p.val % 512
      omega)⟩
  obtain ⟨x, h1, _⟩ := conv_val adj hadj h hh W hW bias b c q
  obtain ⟨y, hy⟩ := hb (ix1 q)
  exact ⟨x + y, h1.trans (by rw [hy, EReal.coe_add])⟩

end Cert.RefFloat

end
-- ==== Proof.RefFloatOut.lean ====
/-
  The whole reference is the dense two-layer convolution averaged over each batch's nodes.

  The first layer's input is the features of all batches laid out as one matrix over the 2048 nodes; the hidden layer
  is the first convolution clamped below at zero, and it stays real. Every node's scatter position is its batch
  (node p goes to p / 512), so the accumulation of the second convolution's rows gives, at (b, f), the sum over batch
  b's 512 nodes, and the accumulation of ones gives 512; the quotient is the sum times 1/512.
-/
import proofs.«168901_g83915071029568_cont_sun_c4_623_12_alg».proof.Proof.RefPure
import proofs.«168901_g83915071029568_cont_sun_c4_623_12_alg».proof.Proof.Spec
import proofs.«168901_g83915071029568_cont_sun_c4_623_12_alg».proof.Proof.RefFloatConv
import proofs.«168901_g83915071029568_cont_sun_c4_623_12_alg».proof.Proof.LibGatherScatter
import proofs.«168901_g83915071029568_cont_sun_c4_623_12_alg».proof.Proof.LibBroadcastInDim
import proofs.«168901_g83915071029568_cont_sun_c4_623_12_alg».proof.Proof.LibERealArith
import Idealize.ShloMosaic.Lib.IdealHost
import Idealize.ShloMosaic.Lib.Pipeline.Value

noncomputable section

namespace Cert.RefFloat

open Idealize.ShloMosaic Idealize.ShloMosaic.ValueIdx Cert.ReferenceIdeal Cert.ReferenceIdeal.Pure Cert.Gcn Cert.Nonzero Finset
open Cert.ReferenceIdeal.Facts₀ Cert.ReferenceIdeal.Facts

variable [Cert.ReferenceIdeal.Facts]

namespace Out

/-- The features of all batches laid out as one matrix over the 2048 nodes. -/
theorem flatten_apply (x : FVec Ideal S4x512x128 .f32) (b : Fin 4) (r : Fin 512) (k : Fin 128) :
    shapeCast S2048x128 x shapeCasts_S4x512x128_S2048x128 (ix2 (node b r) k) = x (ix3 b r k) :=
  shapeCast_apply x _ _ _ (by
    rw [Shape.rowMajor_val_two, Shape.rowMajor_val_three]
    rfl)

theorem flatten_real (x : FVec Ideal S4x512x128 .f32) (hx : AllReal x) :
    AllReal (shapeCast S2048x128 x shapeCasts_S4x512x128_S2048x128) := fun i => hx _

theorem perBatch_flatten (x : FVec Ideal S4x512x128 .f32) :
    perBatch (shapeCast S2048x128 x shapeCasts_S4x512x128_S2048x128) = fun b r k => x (ix3 b r k) := by
  funext b r k; exact flatten_apply x b r k

/-- Clamping below by the zero splat is, entry by entry, the maximum with zero. -/
theorem max_splat_zero {s : Shape} (a : FVec Ideal s .f32) (h : S_.BroadcastsInDim s ![]) (i : s.Idx) :
    maximumf a (broadcastInDim s ![] h (constant S_ .f32 0x00000000#32)) i = max (a i) 0 := by
  show max (a i) (Ideal.ofBits .f32 0x00000000#32) = _
  rw [Ideal.ofBits_zero_f32]

/-- The maximum of a real with zero is real. -/
theorem max_zero_real {v : EReal} (hv : ∃ r : ℝ, v = (r : EReal)) : ∃ r : ℝ, max v 0 = (r : EReal) := by
  obtain ⟨r, rfl⟩ := hv
  refine ⟨max r 0, ?_⟩
  rw [← EReal.coe_zero]
  exact (EReal.coe_strictMono.monotone.map_max (a := r) (b := 0)).symm

/-- A batch number read back from its 32-bit word. -/
theorem toInt_ofNat_fin4 (b : Fin 4) : (BitVec.ofNat 32 b.val).toInt = (b.val : ℤ) := by
  match b with
  | ⟨0, _⟩ => rfl
  | ⟨1, _⟩ => rfl
  | ⟨2, _⟩ => rfl
  | ⟨3, _⟩ => rfl

/-- Every node's scatter position is its batch: node p goes to p / 512. -/
theorem batchIdx_apply (p : Fin 2048) (u : Fin 1) : batchIdx (ix2 p u) = BitVec.ofNat 32 (p.val / 512) := by
  have hq : p.val / 512 < 4 := by omega
  have hr : p.val % 512 < 512 := Nat.mod_lt _ (by norm_num)
  refine (ValueLayout.bcast_n_n1_apply bcast_S2048_S2048x1_0 _ p u).trans ?_
  refine (shapeCast_apply _ shapeCasts_S4x512_S2048 (ix1 p)
    (ix2 (⟨p.val / 512, hq⟩ : Fin 4) (⟨p.val % 512, hr⟩ : Fin 512)) ?_).trans ?_
  · rw [Shape.rowMajor_val_two, Shape.rowMajor_val_one]
    show p.val / 512 * 512 + p.val % 512 = p.val
    omega
  refine (broadcastInDim_apply _ bcast_S4_S4x512_0 _ _ (ix1 (⟨p.val / 512, hq⟩ : Fin 4)) (fun a => ?_)).trans ?_
  · match a with
    | ⟨0, _⟩ =>
      show p.val / 512 = if (4 : ℕ) = 1 then 0 else p.val / 512
      rw [if_neg (by norm_num)]
  rfl

theorem batchIdx_toInt (p : Fin 2048) : (batchIdx (ix2 p (0 : Fin 1))).toInt = ((p.val / 512 : ℕ) : ℤ) := by
  rw [batchIdx_apply]
  exact toInt_ofNat_fin4 ⟨p.val / 512, by omega⟩

/-- A sum over the nodes whose scatter position is batch b is the sum over that batch's 512 nodes. -/
theorem sum_batch {M : Type} [AddCommMonoid M] (g : Fin 2048 → M) (b : Fin 4) :
    ∑ e ∈ Finset.univ.filter (fun e : Fin 2048 => (batchIdx (ix2 e (0 : Fin 1))).toInt = (b.val : ℤ)), g e
      = ∑ c : Fin 512, g (node b c) := by
  have key : ∀ e : Fin 2048, (batchIdx (ix2 e (0 : Fin 1))).toInt = (b.val : ℤ) → e.val / 512 = b.val := fun e h => by
    rw [batchIdx_toInt] at h
    exact_mod_cast h
  refine Finset.sum_bij' (fun e _ => (⟨e.val % 512, Nat.mod_lt _ (by norm_num)⟩ : Fin 512)) (fun c _ => node b c) ?_ ?_ ?_ ?_ ?_
  · intro e _; exact Finset.mem_univ _
  · intro c _
    refine Finset.mem_filter.2 ⟨Finset.mem_univ _, ?_⟩
    rw [batchIdx_toInt]
    have : (node b c).val / 512 = b.val := by show (b.val * 512 + c.val) / 512 = b.val; omega
    rw [this]
  · intro e he
    have h := key e (Finset.mem_filter.1 he).2
    apply Fin.ext
    show b.val * 512 + e.val % 512 = e.val
    omega
  · intro c _
    apply Fin.ext
    show (b.val * 512 + c.val) % 512 = c.val
    omega
  · intro e he
    have h := key e (Finset.mem_filter.1 he).2
    congr 1
    apply Fin.ext
    show e.val = b.val * 512 + e.val % 512
    omega

/-- The accumulation of node rows into their batches: entry (b, f) is the sum over batch b's nodes. -/
theorem sums_apply (h2 : FVec Ideal S2048x128 .f32) (b : Fin 4) (f : Fin 128) :
    Host.scatterAdd scatter_S4x128_S2048x1_S2048x128_1_0_0_1
      (broadcastInDim S4x128 ![] bcast_S_S4x128 (constant S_ .f32 0x00000000#32)) batchIdx h2 (ix2 b f)
      = ∑ c : Fin 512, h2 (ix2 (node b c) f) := by
  rw [LibGatherScatter.scatterAdd_rows scatter_S4x128_S2048x1_S2048x128_1_0_0_1 rfl rfl rfl rfl]
  rw [sum_batch (fun e => h2 (ix2 e f)) b]
  rw [broadcastInDim_scalar_apply]
  show Ideal.ofBits .f32 0x00000000#32 + _ = _
  rw [Ideal.ofBits_zero_f32, zero_add]

/-- The number of nodes of every batch, accumulated as ones: 512. -/
theorem counts_apply (b : Fin 4) :
    Host.scatterAdd scatter_S4_S2048x1_S2048_n_0_0_1
      (broadcastInDim S4 ![] bcast_S_S4 (constant S_ .f32 0x00000000#32)) batchIdx
      (broadcastInDim S2048 ![] bcast_S_S2048 (constant (F := Ideal) S_ .f32 0x3F800000#32)) (ix1 b)
      = ((512 : ℝ) : EReal) := by
  rw [LibGatherScatter.scatterAdd_vec scatter_S4_S2048x1_S2048_n_0_0_1 rfl rfl rfl rfl]
  rw [sum_batch (fun e => broadcastInDim S2048 ![] bcast_S_S2048 (constant (F := Ideal) S_ .f32 0x3F800000#32) (ix1 e)) b]
  rw [broadcastInDim_scalar_apply]
  show Ideal.ofBits .f32 0x00000000#32 + ∑ c : Fin 512, Ideal.ofBits .f32 0x3F800000#32 = _
  rw [Ideal.ofBits_zero_f32, zero_add, Cert.Lib.ERealArith.ofBits_one, Cert.Lib.ERealArith.univ_sum_coe]
  congr 1
  simp

/-- The quotient of the batch sums by the batch sizes, entry by entry. -/
theorem mean_apply (h2 : FVec Ideal S2048x128 .f32) (b : Fin 4) (f : Fin 128) :
    Host.divf
      (Host.scatterAdd scatter_S4x128_S2048x1_S2048x128_1_0_0_1
        (broadcastInDim S4x128 ![] bcast_S_S4x128 (constant S_ .f32 0x00000000#32)) batchIdx h2)
      (broadcastInDim S4x128 ![0, 1] bcast_S4x1_S4x128_0_1
        (broadcastInDim S4x1 ![0] bcast_S4_S4x1_0
          (Host.scatterAdd scatter_S4_S2048x1_S2048_n_0_0_1
            (broadcastInDim S4 ![] bcast_S_S4 (constant S_ .f32 0x00000000#32)) batchIdx
            (broadcastInDim S2048 ![] bcast_S_S2048 (constant S_ .f32 0x3F800000#32))))) (ix2 b f)
      = (∑ c : Fin 512, h2 (ix2 (node b c) f)) * (((1 : ℝ) / 512 : ℝ) : EReal) := by
  unfold Host.divf
  show Ideal.div _ _ = _
  rw [sums_apply, ValueLayout.bcast_r1_rn_apply, ValueLayout.bcast_n_n1_apply, counts_apply]
  exact Ideal.div_coe (by norm_num) _

variable (adj : SA.Idx → EReal) (hadj : ZeroOne adj)

include hadj in
/-- The hidden layer at node c of batch b is the dense hidden layer. -/
theorem hidden_apply (x : FVec Ideal S4x512x128 .f32) (hx : AllReal x) (W1 : FVec Ideal S128x128 .f32) (hW1 : AllReal W1)
    (b1 : FVec Ideal S128 .f32) (b : Fin 4) (c : Fin 512) (f : Fin 128) :
    hidden (F := Ideal) x adj W1 b1 (ix2 (node b c) f) = hid x adj W1 b1 b c f := by
  unfold Pure.hidden
  rw [max_splat_zero]
  rw [conv_eq adj hadj _ (flatten_real x hx) W1 hW1 b1 b c f]
  rw [perBatch_flatten]
  rfl

include hadj in
/-- The hidden layer of real inputs is real. -/
theorem hidden_real (x : FVec Ideal S4x512x128 .f32) (hx : AllReal x) (W1 : FVec Ideal S128x128 .f32) (hW1 : AllReal W1)
    (b1 : FVec Ideal S128 .f32) (hb1 : AllReal b1) : AllReal (hidden (F := Ideal) x adj W1 b1) := by
  intro i
  unfold Pure.hidden
  rw [max_splat_zero]
  exact max_zero_real (conv_real adj hadj _ (flatten_real x hx) W1 hW1 b1 hb1 i)

include hadj in
/-- Read per batch, the reference's hidden layer is the dense one. -/
theorem perBatch_hidden (x : FVec Ideal S4x512x128 .f32) (hx : AllReal x) (W1 : FVec Ideal S128x128 .f32) (hW1 : AllReal W1)
    (b1 : FVec Ideal S128 .f32) : perBatch (hidden (F := Ideal) x adj W1 b1) = hid x adj W1 b1 := by
  funext b c f; exact hidden_apply adj hadj x hx W1 hW1 b1 b c f

end Out

/-- For a zero-one adjacency and real inputs the reference's result is the dense result, entry by entry. -/
theorem out_eq (x : FVec Ideal S4x512x128 .f32) (adj : FVec Ideal S4x512x512 .f32) (W1 : FVec Ideal S128x128 .f32)
    (b1 : FVec Ideal S128 .f32) (W2 : FVec Ideal S128x128 .f32) (b2 : FVec Ideal S128 .f32)
    (hx : AllReal x) (hadj : ZeroOne adj) (hW1 : AllReal W1) (hb1 : AllReal b1) (hW2 : AllReal W2) (hb2 : AllReal b2) :
    Pure.out (F := Ideal) x adj W1 b1 W2 b2 = outArr x adj W1 b1 W2 b2 := by
  funext i
  obtain ⟨b, f, rfl⟩ : ∃ (b : Fin 4) (f : Fin 128), i = ix2 b f := ⟨i 0, i 1, eq_ix2 i⟩
  have hc : ∀ c : Fin 512, Pure.conv (F := Ideal) adj (hidden (F := Ideal) x adj W1 b1) W2 b2 (ix2 (node b c) f)
      = Gcn.conv adj (hid x adj W1 b1) W2 b2 b c f := fun c => by
    rw [conv_eq adj hadj _ (Out.hidden_real adj hadj x hx W1 hW1 b1 hb1) W2 hW2 b2 b c f,
      Out.perBatch_hidden adj hadj x hx W1 hW1 b1]
  unfold Pure.out
  rw [Out.mean_apply]
  exact congrArg (fun t : EReal => t * (((1 : ℝ) / 512 : ℝ) : EReal)) (Finset.sum_congr rfl (fun c _ => hc c))

end Cert.RefFloat

end
-- ==== Proof.PreFacts.lean ====
/-
  The printed precondition, read back as plain facts about the six argument arrays over the extended reals.

  The predicate compares the absolute value of every entry of every array with plus infinity, takes the conjunction
  over each array, and for the adjacency array also tests every entry for equality with zero or with one. An extended
  real whose absolute value max x (-x) is below the top element is neither infinity, hence a real number.
-/
import proofs.«168901_g83915071029568_cont_sun_c4_623_12_alg».proof.Pre_finite_inputs
import proofs.«168901_g83915071029568_cont_sun_c4_623_12_alg».proof.Proof.Spec
import Idealize.ShloMosaic.Lib.ReduceAll
import Idealize.ShloMosaic.Lib.IdealHost

noncomputable section

namespace Cert.PreFacts

open Idealize.ShloMosaic Cert.Pre_finite_inputs

/-- The shape with no axes has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The f32 pattern with all exponent bits set and a zero fraction is plus infinity. -/
theorem ofBits_inf : Ideal.ofBits .f32 0x7F800000#32 = (⊤ : EReal) := by simp [Ideal.ofBits, Ideal.ieee]

/-- An extended real whose absolute value is below plus infinity is a real number. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  simp only [decide_eq_true_eq, max_lt_iff] at h
  obtain ⟨h1, h2⟩ := h
  induction x using EReal.rec with
  | bot => simp at h2
  | coe r => exact ⟨r, rfl⟩
  | top => simp at h1

/-- An extended real that equals the pattern of zero or the pattern of one is zero or one. -/
theorem zero_or_one (x : EReal)
    (h : IntOp.ori (Ideal.cmp .oeq x (Ideal.ofBits .f32 0x00000000#32))
      (Ideal.cmp .oeq x (Ideal.ofBits .f32 0x3F800000#32)) = 1#1) : x = 0 ∨ x = 1 := by
  rw [IntOp.ori_eq_one] at h
  unfold Ideal.cmp at h
  simp only [ofBool_eq_one, decide_eq_true_eq, Ideal.ofBits_zero_f32, Ideal.ofBits_one_f32] at h
  exact h

/-- The precondition read back: the predicate being 1 at its one index splits, conjunct by conjunct, into a
    conjunction over every entry of each array; each entry's finiteness test makes it real, and each adjacency entry's
    test for zero or one makes it zero or one. -/
theorem decode [Cert.Pre_finite_inputs.Facts] (x : FVec Ideal S4x512x128 .f32) (adj : FVec Ideal S4x512x512 .f32)
    (W1 : FVec Ideal S128x128 .f32) (b1 : FVec Ideal S128 .f32) (W2 : FVec Ideal S128x128 .f32)
    (b2 : FVec Ideal S128 .f32)
    (h : Cert.Pre_finite_inputs.fn (F := Ideal) x adj W1 b1 W2 b2 = (fun _ => 1#1)) :
    Cert.Gcn.AllReal x ∧ Cert.Gcn.ZeroOne adj ∧ Cert.Gcn.AllReal W1 ∧ Cert.Gcn.AllReal b1 ∧ Cert.Gcn.AllReal W2
      ∧ Cert.Gcn.AllReal b2 := by
  have e := congrFun h ValueIdx.ix0
  dsimp only [fn, fn_part1, fn_part2] at e
  simp only [andi, IntOp.andi_eq_one] at e
  obtain ⟨⟨⟨⟨⟨⟨hx, -⟩, hW1⟩, hb1⟩, hW2⟩, hb2⟩, hadj⟩ := e
  refine ⟨fun i => ?_, fun i => ?_, fun i => ?_, fun i => ?_, fun i => ?_, fun i => ?_⟩
  · exact real_of_abs_lt (x i) (Host.reduce_andi_all _ _ _ _ _ hx i)
  · exact zero_or_one (adj i) (Host.reduce_andi_all _ _ _ _ _ hadj i)
  · exact real_of_abs_lt (W1 i) (Host.reduce_andi_all _ _ _ _ _ hW1 i)
  · exact real_of_abs_lt (b1 i) (Host.reduce_andi_all _ _ _ _ _ hb1 i)
  · exact real_of_abs_lt (W2 i) (Host.reduce_andi_all _ _ _ _ _ hW2 i)
  · exact real_of_abs_lt (b2 i) (Host.reduce_andi_all _ _ _ _ _ hb2 i)

end Cert.PreFacts

end
-- ==== Proof.lean ====
/-
  The certificate's five claims for the two-layer graph convolution.

  The kernel computes, per batch, the dense normalised convolution with self-loops on the adjacency block; the reference
  lists the nonzero adjacency entries as edges, appends the self-loops and accumulates degrees and messages over the
  edge list. For an adjacency of zeros and ones and real inputs both are the function Cert.Gcn.outArr of the arguments:
  the kernel by reading each grid step's stores at an index, the reference because the edge list enumerates exactly the
  nonzero entries once each, so every accumulation over the edges into a node is the sum over the rows of that node's
  adjacency column. The three frames: the kernels' are the generated ones, the reference's is its run with the result
  dropped. No rewrite was applied when the kernel was idealized, so nothing is owed for it.
-/
import proofs.«168901_g83915071029568_cont_sun_c4_623_12_alg».proof.Defs
import proofs.«168901_g83915071029568_cont_sun_c4_623_12_alg».proof.Proof.Gen.Kernel
import proofs.«168901_g83915071029568_cont_sun_c4_623_12_alg».proof.Proof.Gen.Kernel.Frame
import proofs.«168901_g83915071029568_cont_sun_c4_623_12_alg».proof.Proof.Gen.KernelIdeal
import proofs.«168901_g83915071029568_cont_sun_c4_623_12_alg».proof.Proof.Gen.KernelIdeal.Frame
import proofs.«168901_g83915071029568_cont_sun_c4_623_12_alg».proof.Proof.Gen.ReferenceIdeal
import proofs.«168901_g83915071029568_cont_sun_c4_623_12_alg».proof.Proof.Gen.Pre_finite_inputs
import proofs.«168901_g83915071029568_cont_sun_c4_623_12_alg».proof.Proof.KerValue
import proofs.«168901_g83915071029568_cont_sun_c4_623_12_alg».proof.Proof.RefRead
import proofs.«168901_g83915071029568_cont_sun_c4_623_12_alg».proof.Proof.RefFloatOut
import proofs.«168901_g83915071029568_cont_sun_c4_623_12_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.HandRunB.run (F := Ideal) m ρ)

/-- Both idealized programs end at the dense convolution of arguments that agree. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRunB.run (F := Ideal) m' ρ')
  obtain ⟨hx, hadj, hW1, hb1, hW2, hb2⟩ := Cert.PreFacts.decode _ _ _ _ _ _ (hpre c)
  rw [(hagree c).1, (hagree c).2.1, (hagree c).2.2.1, (hagree c).2.2.2.1, (hagree c).2.2.2.2.1, (hagree c).2.2.2.2.2]
  exact Cert.RefFloat.out_eq _ _ _ _ _ _ hx hadj hW1 hb1 hW2 hb2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
